-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_v78)) (v2 : (c : Dev Cert.KernelIdeal.nD) → Buf (Elt Ideal) ((c.tc : Thread Cert.KernelIdeal.nD Cert.KernelIdeal.τ).loc Cert.KernelIdeal.main_v79)) (v3 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_v79) = v2 c
          ∧ r.2.mem ((c.tc : Thread Cert.KernelIdeal.nD Cert.KernelIdeal.τ).loc Cert.KernelIdeal.main_v80) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_v84) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192x4 : Shape := ⟨3, ![64, 8192, 4]⟩
abbrev S64x8192x91 : Shape := ⟨3, ![64, 8192, 91]⟩
abbrev S8000x3 : Shape := ⟨2, ![8000, 3]⟩
abbrev S_ : Shape := ⟨0, ![]⟩
abbrev S8000x1 : Shape := ⟨2, ![8000, 1]⟩
abbrev S8000 : Shape := ⟨1, ![8000]⟩

class Facts : Prop where
  bcast_S_S64x8192x4 : S_.BroadcastsInDim S64x8192x4 (![] : Fin 0 → Fin S64x8192x4.rank)
  reducesTo_S64x8192x4_S_d0_1_2 : S64x8192x4.ReducesTo [0, 1, 2] S_
  h_S_ : 0 < S_.numel
  bcast_S_S64x8192x91 : S_.BroadcastsInDim S64x8192x91 (![] : Fin 0 → Fin S64x8192x91.rank)
  reducesTo_S64x8192x91_S_d0_1_2 : S64x8192x91.ReducesTo [0, 1, 2] S_
  slices_S8000x3_S8000x1_0_1 : S8000x3.Slices ![0, 1] S8000x1
  shapeCasts_S8000x1_S8000 : S8000x1.ShapeCasts S8000
  bcast_S_S8000 : S_.BroadcastsInDim S8000 (![] : Fin 0 → Fin S8000.rank)
  reducesTo_S8000_S_d0 : S8000.ReducesTo [0] S_
  slices_S8000x3_S8000x1_0_2 : S8000x3.Slices ![0, 2] S8000x1

variable [Facts]

def fn_part1 {F : FTy → Type} [FloatOps F] (main_arg2 : IVec S8000x3 32) (main_v8 : IVec S_ 1) (main_v17 : IVec S8000 1) : IVec S_ 1 :=
  let main_c_4 : IVec S_ 1 := constantI S_ 1 1#1
  let main_v18 : IVec S_ 1 := (fun x v => Host.reduce IntOp.andi x v reducesTo_S8000_S_d0 h_S_) main_v17 main_c_4
  let main_v19 : IVec S_ 1 := andi main_v8 main_v18
  let main_v20 : IVec S8000x1 32 := (extractStridedSlice S8000x1 ![0, 2] · slices_S8000x3_S8000x1_0_2) main_arg2
  let main_v21 : IVec S8000 32 := shapeCast S8000 main_v20 shapeCasts_S8000x1_S8000
  let main_c_5 : IVec S_ 32 := constantI S_ 32 0#32
  let main_v22 : IVec S8000 32 := broadcastInDim S8000 ![] bcast_S_S8000 main_c_5
  let main_v23 : IVec S8000 1 := cmpi .sge main_v21 main_v22
  let main_v24 : IVec S8000x1 32 := (extractStridedSlice S8000x1 ![0, 2] · slices_S8000x3_S8000x1_0_2) main_arg2
  let main_v25 : IVec S8000 32 := shapeCast S8000 main_v24 shapeCasts_S8000x1_S8000
  let main_c_6 : IVec S_ 32 := constantI S_ 32 8192#32
  let main_v26 : IVec S8000 32 := broadcastInDim S8000 ![] bcast_S_S8000 main_c_6
  let main_v27 : IVec S8000 1 := cmpi .slt main_v25 main_v26
  let main_v28 : IVec S8000 1 := andi main_v23 main_v27
  let main_c_7 : IVec S_ 1 := constantI S_ 1 1#1
  let main_v29 : IVec S_ 1 := (fun x v => Host.reduce IntOp.andi x v reducesTo_S8000_S_d0 h_S_) main_v28 main_c_7
  let main_v30 : IVec S_ 1 := andi main_v19 main_v29
  main_v30

def fn {F : FTy → Type} [FloatOps F] (main_arg0 : FVec F S64x8192x4 .f32) (main_arg1 : FVec F S64x8192x91 .f32) (main_arg2 : IVec S8000x3 32) : IVec S_ 1 :=
  let main_v0 : FVec F S64x8192x4 .f32 := Host.absf main_arg0
  let main_cst : FVec F S_ .f32 := constant S_ .f32 0x7F800000#32
  let main_v1 : FVec F S64x8192x4 .f32 := broadcastInDim S64x8192x4 ![] bcast_S_S64x8192x4 main_cst
  let main_v2 : IVec S64x8192x4 1 := cmpf .olt main_v0 main_v1
  let main_c : IVec S_ 1 := constantI S_ 1 1#1
  let main_v3 : IVec S_ 1 := (fun x v => Host.reduce IntOp.andi x v reducesTo_S64x8192x4_S_d0_1_2 h_S_) main_v2 main_c
  let main_v4 : FVec F S64x8192x91 .f32 := Host.absf main_arg1
  let main_cst_0 : FVec F S_ .f32 := constant S_ .f32 0x7F800000#32
  let main_v5 : FVec F S64x8192x91 .f32 := broadcastInDim S64x8192x91 ![] bcast_S_S64x8192x91 main_cst_0
  let main_v6 : IVec S64x8192x91 1 := cmpf .olt main_v4 main_v5
  let main_c_1 : IVec S_ 1 := constantI S_ 1 1#1
  let main_v7 : IVec S_ 1 := (fun x v => Host.reduce IntOp.andi x v reducesTo_S64x8192x91_S_d0_1_2 h_S_) main_v6 main_c_1
  let main_v8 : IVec S_ 1 := andi main_v3 main_v7
  let main_v9 : IVec S8000x1 32 := (extractStridedSlice S8000x1 ![0, 1] · slices_S8000x3_S8000x1_0_1) main_arg2
  let main_v10 : IVec S8000 32 := shapeCast S8000 main_v9 shapeCasts_S8000x1_S8000
  let main_c_2 : IVec S_ 32 := constantI S_ 32 0#32
  let main_v11 : IVec S8000 32 := broadcastInDim S8000 ![] bcast_S_S8000 main_c_2
  let main_v12 : IVec S8000 1 := cmpi .sge main_v10 main_v11
  let main_v13 : IVec S8000x1 32 := (extractStridedSlice S8000x1 ![0, 1] · slices_S8000x3_S8000x1_0_1) main_arg2
  let main_v14 : IVec S8000 32 := shapeCast S8000 main_v13 shapeCasts_S8000x1_S8000
  let main_c_3 : IVec S_ 32 := constantI S_ 32 91#32
  let main_v15 : IVec S8000 32 := broadcastInDim S8000 ![] bcast_S_S8000 main_c_3
  let main_v16 : IVec S8000 1 := cmpi .slt main_v14 main_v15
  let main_v17 : IVec S8000 1 := andi main_v12 main_v16
  fn_part1 (F := F) main_arg2 main_v8 main_v17
-- ==== Kernel.lean ====
abbrev S64x8192x4 : Shape := ⟨3, ![64, 8192, 4]⟩
abbrev S64x8192x91 : Shape := ⟨3, ![64, 8192, 91]⟩
abbrev S8000x3 : Shape := ⟨2, ![8000, 3]⟩
abbrev S8000x1 : Shape := ⟨2, ![8000, 1]⟩
abbrev S8000 : Shape := ⟨1, ![8000]⟩
abbrev S64 : Shape := ⟨1, ![64]⟩
abbrev S1x64 : Shape := ⟨2, ![1, 64]⟩
abbrev S8000x64 : Shape := ⟨2, ![8000, 64]⟩
abbrev S_ : Shape := ⟨0, ![]⟩
abbrev S8000x1x1 : Shape := ⟨3, ![8000, 1, 1]⟩
abbrev S1 : Shape := ⟨1, ![1]⟩
abbrev S1x1x1 : Shape := ⟨3, ![1, 1, 1]⟩
abbrev S64x300 : Shape := ⟨2, ![64, 300]⟩
abbrev S8000x2 : Shape := ⟨2, ![8000, 2]⟩
abbrev S64x1 : Shape := ⟨2, ![64, 1]⟩
abbrev S19200 : Shape := ⟨1, ![19200]⟩
abbrev S524288x1x4 : Shape := ⟨3, ![524288, 1, 4]⟩
abbrev S524288x1x91 : Shape := ⟨3, ![524288, 1, 91]⟩
abbrev S19200x1x4 : Shape := ⟨3, ![19200, 1, 4]⟩
abbrev S19200x1x1 : Shape := ⟨3, ![19200, 1, 1]⟩
abbrev S1x1x4 : Shape := ⟨3, ![1, 1, 4]⟩
abbrev S1x1x91 : Shape := ⟨3, ![1, 1, 91]⟩
abbrev S1x1 : Shape := ⟨2, ![1, 1]⟩
abbrev S64x300x4 : Shape := ⟨3, ![64, 300, 4]⟩

abbrev nBuf : Space → Nat
  | .hbm => 133
  | .vmem => 10
  | .smem => 3
  | _ => 0

abbrev hbmTy0_0 (i : Nat) : BufTy := match i % 128 with
  | 0 => ⟨S64x8192x4, .f32⟩
  | 1 => ⟨S64x8192x91, .f32⟩
  | 2 => ⟨S8000x3, .i32⟩
  | 3 => ⟨S8000x1, .i32⟩
  | 4 => ⟨S8000, .i32⟩
  | 5 => ⟨S8000x1, .i32⟩
  | 6 => ⟨S8000, .i32⟩
  | 7 => ⟨S8000x1, .i32⟩
  | 8 => ⟨S8000, .i32⟩
  | 9 => ⟨S8000x1, .i32⟩
  | 10 => ⟨S64, .i32⟩
  | 11 => ⟨S1x64, .i32⟩
  | 12 => ⟨S8000x64, .i32⟩
  | 13 => ⟨S8000x64, .i32⟩
  | 14 => ⟨S8000x64, .i1⟩
  | 15 => ⟨S8000x64, .i32⟩
  | 16 => ⟨S_, .i32⟩
  | 17 => ⟨S_, .i32⟩
  | 18 => ⟨S8000x64, .i32⟩
  | 19 => ⟨S8000x1, .i32⟩
  | 20 => ⟨S_, .i32⟩
  | 21 => ⟨S8000x1, .i32⟩
  | 22 => ⟨S8000x1, .i1⟩
  | 23 => ⟨S_, .i32⟩
  | 24 => ⟨S8000x1, .i32⟩
  | 25 => ⟨S8000x1, .i32⟩
  | 26 => ⟨S8000x1, .i32⟩
  | 27 => ⟨S8000x1x1, .i32⟩
  | 28 => ⟨S1, .i32⟩
  | 29 => ⟨S_, .i32⟩
  | 30 => ⟨S8000x1x1, .i32⟩
  | 31 => ⟨S8000x1x1, .i1⟩
  | 32 => ⟨S1x1x1, .i32⟩
  | 33 => ⟨S8000x1x1, .i32⟩
  | 34 => ⟨S8000x1x1, .i1⟩
  | 35 => ⟨S8000x1x1, .i1⟩
  | 36 => ⟨S_, .i1⟩
  | 37 => ⟨S8000x1, .i1⟩
  | 38 => ⟨S8000x1, .i32⟩
  | 39 => ⟨S_, .i32⟩
  | 40 => ⟨S8000x1, .i32⟩
  | 41 => ⟨S8000x1, .i32⟩
  | 42 => ⟨S8000, .i32⟩
  | 43 => ⟨S_, .i32⟩
  | 44 => ⟨S8000, .i32⟩
  | 45 => ⟨S8000, .i32⟩
  | 46 => ⟨S_, .i32⟩
  | 47 => ⟨S8000, .i32⟩
  | 48 => ⟨S8000, .i1⟩
  | 49 => ⟨S_, .i32⟩
  | 50 => ⟨S_, .i32⟩
  | 51 => ⟨S8000, .i32⟩
  | 52 => ⟨S8000, .i32⟩
  | 53 => ⟨S_, .i32⟩
  | 54 => ⟨S64x300, .i32⟩
  | 55 => ⟨S_, .i32⟩
  | 56 => ⟨S8000, .i32⟩
  | 57 => ⟨S8000, .i1⟩
  | 58 => ⟨S_, .i32⟩
  | 59 => ⟨S8000, .i32⟩
  | 60 => ⟨S8000, .i32⟩
  | 61 => ⟨S8000, .i32⟩
  | 62 => ⟨S_, .i32⟩
  | 63 => ⟨S8000, .i32⟩
  | 64 => ⟨S8000, .i1⟩
  | 65 => ⟨S_, .i32⟩
  | 66 => ⟨S8000, .i32⟩
  | 67 => ⟨S8000, .i32⟩
  | 68 => ⟨S8000, .i32⟩
  | 69 => ⟨S8000x1, .i32⟩
  | 70 => ⟨S8000x1, .i32⟩
  | 71 => ⟨S8000x2, .i32⟩
  | 72 => ⟨S64x300, .i32⟩
  | 73 => ⟨S_, .i32⟩
  | 74 => ⟨S8000, .i32⟩
  | 75 => ⟨S8000, .i1⟩
  | 76 => ⟨S_, .i32⟩
  | 77 => ⟨S8000, .i32⟩
  | 78 => ⟨S8000, .i32⟩
  | 79 => ⟨S8000, .i32⟩
  | 80 => ⟨S_, .i32⟩
  | 81 => ⟨S8000, .i32⟩
  | 82 => ⟨S8000, .i1⟩
  | 83 => ⟨S_, .i32⟩
  | 84 => ⟨S8000, .i32⟩
  | 85 => ⟨S8000, .i32⟩
  | 86 => ⟨S8000, .i32⟩
  | 87 => ⟨S8000x1, .i32⟩
  | 88 => ⟨S8000x1, .i32⟩
  | 89 => ⟨S8000x2, .i32⟩
  | 90 => ⟨S64x300, .i32⟩
  | 91 => ⟨S_, .i32⟩
  | 92 => ⟨S8000, .i32⟩
  | 93 => ⟨S_, .i32⟩
  | 94 => ⟨S8000, .i32⟩
  | 95 => ⟨S8000, .i1⟩
  | 96 => ⟨S_, .i32⟩
  | 97 => ⟨S8000, .i32⟩
  | 98 => ⟨S8000, .i32⟩
  | 99 => ⟨S8000, .i32⟩
  | 100 => ⟨S_, .i32⟩
  | 101 => ⟨S8000, .i32⟩
  | 102 => ⟨S8000, .i1⟩
  | 103 => ⟨S_, .i32⟩
  | 104 => ⟨S8000, .i32⟩
  | 105 => ⟨S8000, .i32⟩
  | 106 => ⟨S8000, .i32⟩
  | 107 => ⟨S8000x1, .i32⟩
  | 108 => ⟨S8000x1, .i32⟩
  | 109 => ⟨S8000x2, .i32⟩
  | 110 => ⟨S64x300, .i32⟩
  | 111 => ⟨S64, .i32⟩
  | 112 => ⟨S64x1, .i32⟩
  | 113 => ⟨S_, .i32⟩
  | 114 => ⟨S64x1, .i32⟩
  | 115 => ⟨S64x1, .i32⟩
  | 116 => ⟨S64x300, .i32⟩
  | 117 => ⟨S64x300, .i32⟩
  | 118 => ⟨S524288x1x4, .f32⟩
  | 119 => ⟨S524288x1x91, .f32⟩
  | 120 => ⟨S19200x1x4, .f32⟩
  | 121 => ⟨S19200x1x1, .f32⟩
  | 122 => ⟨S19200x1x1, .i32⟩
  | 123 => ⟨S64x300x4, .f32⟩
  | 124 => ⟨S64x300, .f32⟩
  | 125 => ⟨S64x300, .i32⟩
  | 126 => ⟨S_, .i32⟩
  | 127 => ⟨S8000, .i32⟩
  | _ => ⟨S64x8192x4, .f32⟩

abbrev hbmTy0_1 (i : Nat) : BufTy := match i % 128 with
  | 0 => ⟨S_, .i32⟩
  | 1 => ⟨S64, .i32⟩
  | 2 => ⟨S8000x1, .i32⟩
  | 3 => ⟨S64, .i32⟩
  | 4 => ⟨S64x1, .i32⟩
  | _ => ⟨S64x8192x4, .f32⟩

abbrev hbmTy (i : Nat) : BufTy := match i / 128 with
  | 0 => hbmTy0_0 i
  | 1 => hbmTy0_1 i
  | _ => ⟨S64x8192x4, .f32⟩

abbrev bufTy : (tb : Table) → Fin (tcTables nBuf tb) → BufTy
  | .hbm, ⟨i, _⟩ => hbmTy i
  | .local _ .vmem, ⟨0, _⟩ => ⟨S1x1x4, .f32⟩
  | .local _ .vmem, ⟨1, _⟩ => ⟨S1x1x4, .f32⟩
  | .local _ .vmem, ⟨2, _⟩ => ⟨S1x1x91, .f32⟩
  | .local _ .vmem, ⟨3, _⟩ => ⟨S1x1x91, .f32⟩
  | .local _ .vmem, ⟨4, _⟩ => ⟨S1x1x4, .f32⟩
  | .local _ .vmem, ⟨5, _⟩ => ⟨S1x1x4, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .i32⟩
  | .local _ .vmem, ⟨9, _⟩ => ⟨S1x1x1, .i32⟩
  | .local _ .smem, ⟨0, _⟩ => ⟨S19200, .i32⟩
  | .local _ .smem, ⟨1, _⟩ => ⟨S19200, .i32⟩
  | .local _ .smem, ⟨2, _⟩ => ⟨S19200, .i32⟩
  | _, _ => ⟨S64x8192x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_call0_c : Ref sig .tc := ⟨.hbm, 16, rfl⟩
abbrev main_call0_call0_v0 : Ref sig .tc := ⟨.hbm, 17, rfl⟩
abbrev main_v13 : Ref sig .tc := ⟨.hbm, 18, rfl⟩
abbrev main_v14 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_c_4 : Ref sig .tc := ⟨.hbm, 39, rfl⟩
abbrev main_call1_v14 : Ref sig .tc := ⟨.hbm, 40, rfl⟩
abbrev main_v15 : Ref sig .tc := ⟨.hbm, 41, rfl⟩
abbrev main_v16 : Ref sig .tc := ⟨.hbm, 42, rfl⟩
abbrev main_c : Ref sig .tc := ⟨.hbm, 43, rfl⟩
abbrev main_v17 : Ref sig .tc := ⟨.hbm, 44, rfl⟩
abbrev main_v18 : Ref sig .tc := ⟨.hbm, 45, rfl⟩
abbrev main_c_0 : Ref sig .tc := ⟨.hbm, 46, rfl⟩
abbrev main_v19 : Ref sig .tc := ⟨.hbm, 47, rfl⟩
abbrev main_v20 : Ref sig .tc := ⟨.hbm, 48, rfl⟩
abbrev main_c_1 : Ref sig .tc := ⟨.hbm, 49, rfl⟩
abbrev main_call2_v0 : Ref sig .tc := ⟨.hbm, 50, rfl⟩
abbrev main_call2_v1 : Ref sig .tc := ⟨.hbm, 51, rfl⟩
abbrev main_v21 : Ref sig .tc := ⟨.hbm, 52, rfl⟩
abbrev main_c_2 : Ref sig .tc := ⟨.hbm, 53, rfl⟩
abbrev main_v22 : Ref sig .tc := ⟨.hbm, 54, rfl⟩
abbrev main_c_3 : Ref sig .tc := ⟨.hbm, 55, rfl⟩
abbrev main_v23 : Ref sig .tc := ⟨.hbm, 56, rfl⟩
abbrev main_v24 : Ref sig .tc := ⟨.hbm, 57, rfl⟩
abbrev main_c_4 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_c_5 : Ref sig .tc := ⟨.hbm, 62, rfl⟩
abbrev main_v28 : Ref sig .tc := ⟨.hbm, 63, rfl⟩
abbrev main_v29 : Ref sig .tc := ⟨.hbm, 64, rfl⟩
abbrev main_c_6 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_c_7 : Ref sig .tc := ⟨.hbm, 73, rfl⟩
abbrev main_v37 : Ref sig .tc := ⟨.hbm, 74, rfl⟩
abbrev main_v38 : Ref sig .tc := ⟨.hbm, 75, rfl⟩
abbrev main_c_8 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_c_9 : Ref sig .tc := ⟨.hbm, 80, rfl⟩
abbrev main_v42 : Ref sig .tc := ⟨.hbm, 81, rfl⟩
abbrev main_v43 : Ref sig .tc := ⟨.hbm, 82, rfl⟩
abbrev main_c_10 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_c_11 : Ref sig .tc := ⟨.hbm, 91, rfl⟩
abbrev main_v51 : Ref sig .tc := ⟨.hbm, 92, rfl⟩
abbrev main_c_12 : Ref sig .tc := ⟨.hbm, 93, rfl⟩
abbrev main_v52 : Ref sig .tc := ⟨.hbm, 94, rfl⟩
abbrev main_v53 : Ref sig .tc := ⟨.hbm, 95, rfl⟩
abbrev main_c_13 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_c_14 : Ref sig .tc := ⟨.hbm, 100, rfl⟩
abbrev main_v57 : Ref sig .tc := ⟨.hbm, 101, rfl⟩
abbrev main_v58 : Ref sig .tc := ⟨.hbm, 102, rfl⟩
abbrev main_c_15 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_c_16 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v75 : Ref sig .tc := ⟨.hbm, 118, rfl⟩
abbrev main_v76 : Ref sig .tc := ⟨.hbm, 119, rfl⟩
abbrev main_v77_0 : Ref sig .tc := ⟨.hbm, 120, rfl⟩
abbrev main_v77_1 : Ref sig .tc := ⟨.hbm, 121, rfl⟩
abbrev main_v77_2 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_c_17 : Ref sig .tc := ⟨.hbm, 126, rfl⟩
abbrev main_v81 : Ref sig .tc := ⟨.hbm, 127, rfl⟩
abbrev main_c_18 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v72 : Ref sig .tc := ⟨.smem, 0, rfl⟩
abbrev main_v73 : Ref sig .tc := ⟨.smem, 1, rfl⟩
abbrev main_v74 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![19200], ![false]⟩

abbrev pre0 : Pipeline.Prefetch sig := ⟨3, ![main_v72.idx, main_v73.idx, main_v74.idx], fun | 0 => main_v72.names | 1 => main_v73.names | 2 => main_v74.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S19200.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S19200) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S19200.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S19200) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x91 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S8000x3_S8000x1_0_0 : S8000x3.Slices ![0, 0] S8000x1
  shapeCasts_S8000x1_S8000 : S8000x1.ShapeCasts S8000
  slices_S8000x3_S8000x1_0_1 : S8000x3.Slices ![0, 1] S8000x1
  slices_S8000x3_S8000x1_0_2 : S8000x3.Slices ![0, 2] S8000x1
  bcast_S8000_S8000x1_0 : S8000.BroadcastsInDim S8000x1 (![0] : Fin 1 → Fin S8000x1.rank)
  bcast_S64_S1x64_1 : S64.BroadcastsInDim S1x64 (![1] : Fin 1 → Fin S1x64.rank)
  bcast_S8000x1_S8000x64_0_1 : S8000x1.BroadcastsInDim S8000x64 (![0, 1] : Fin 2 → Fin S8000x64.rank)
  bcast_S1x64_S8000x64_0_1 : S1x64.BroadcastsInDim S8000x64 (![0, 1] : Fin 2 → Fin S8000x64.rank)
  natLt_1_32 : 1 < 32
  bcast_S_S_ : S_.BroadcastsInDim S_ (![] : Fin 0 → Fin S_.rank)
  reduceWindows_S8000x64_S8000x64_w8000s1p7999_0_w1s1p0_0 : S8000x64.ReduceWindows (![8000, 1] : Fin 2 → Nat) ![1, 1] ![7999, 0] ![0, 0] S8000x64
  h_S_ : 0 < S_.numel
  bcast_S_S8000x1 : S_.BroadcastsInDim S8000x1 (![] : Fin 0 → Fin S8000x1.rank)
  shapeCasts_S8000x1_S8000x1x1 : S8000x1.ShapeCasts S8000x1x1
  bcast_S_S8000x1x1 : S_.BroadcastsInDim S8000x1x1 (![] : Fin 0 → Fin S8000x1x1.rank)
  bcast_S1_S1x1x1_2 : S1.BroadcastsInDim S1x1x1 (![2] : Fin 1 → Fin S1x1x1.rank)
  bcast_S1x1x1_S8000x1x1_0_1_2 : S1x1x1.BroadcastsInDim S8000x1x1 (![0, 1, 2] : Fin 3 → Fin S8000x1x1.rank)
  reducesTo_S8000x1x1_S8000x1_d2 : S8000x1x1.ReducesTo [2] S8000x1
  bcast_S_S8000 : S_.BroadcastsInDim S8000 (![] : Fin 0 → Fin S8000.rank)
  bcast_S_S64x300 : S_.BroadcastsInDim S64x300 (![] : Fin 0 → Fin S64x300.rank)
  concatenates_S8000x1_S8000x1_S8000x2_d1 : Shape.Concatenates [S8000x1, S8000x1] S8000x2 1
  bcast_S64_S64x1_0 : S64.BroadcastsInDim S64x1 (![0] : Fin 1 → Fin S64x1.rank)
  bcast_S_S64x1 : S_.BroadcastsInDim S64x1 (![] : Fin 0 → Fin S64x1.rank)
  bcast_S64x1_S64x300_0_1 : S64x1.BroadcastsInDim S64x300 (![0, 1] : Fin 2 → Fin S64x300.rank)
  shapeCasts_S64x300_S19200 : S64x300.ShapeCasts S19200
  shapeCasts_S64x8192x4_S524288x1x4 : S64x8192x4.ShapeCasts S524288x1x4
  shapeCasts_S64x8192x91_S524288x1x91 : S64x8192x91.ShapeCasts S524288x1x91
  numel1_S1 : S1.numel = 1
  inb_S1x1x4_S1x1x4_0_0_0 : ∀ a, (![0, 0, 0] : Fin 3 → Nat) a + S1x1x4.size a ≤ S1x1x4.size a
  h_S1x1x4 : 0 < S1x1x4.numel
  shapeCasts_S1x1x4_S1x1x4 : S1x1x4.ShapeCasts S1x1x4
  inb_S1x1x91_S1x1x91_0_0_0 : ∀ a, (![0, 0, 0] : Fin 3 → Nat) a + S1x1x91.size a ≤ S1x1x91.size a
  h_S1x1x91 : 0 < S1x1x91.numel
  shapeCasts_S1x1x91_S1x1x91 : S1x1x91.ShapeCasts S1x1x91
  iota_S1x1x91_d2_w32 : S1x1x91.Iotas .tc 32 [2]
  reduces_S1x1x91_S1x1 : S1x1x91.Reduces [2] S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S19200x1x4_S64x300x4 : S19200x1x4.ShapeCasts S64x300x4
  shapeCasts_S19200x1x1_S64x300 : S19200x1x1.ShapeCasts S64x300
  bcast_S_S64 : S_.BroadcastsInDim S64 (![] : Fin 0 → Fin S64.rank)
  gather_S8000x64_S8000x1x1_S8000x1_n_1_0_0_1_2_11_wf : GatherDims.WF S8000x64 S8000x1x1 S8000x1 [] [1] [0] [1] [0] 2 ![1, 1]
  scatter_S64x300_S8000x2_S8000_n_01_01_1_wf : ScatterDims.WF S64x300 S8000x2 S8000 [] [0, 1] [0, 1] 1
  scatter_S64_S8000x1_S8000_n_0_0_1_wf : ScatterDims.WF S64 S8000x1 S8000 [] [0] [0] 1
  hrank0 : 0 < grid0.rank
  k0_off1_inb : ∀ i : grid0.Coords, ∀ a, (k0_off1 i) a + S1.size a ≤ S19200.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4.size a ≤ S19200x1x4.size a
  hwx0_2 : ∀ i : grid0.Coords, EltTy.bits .f32 = 32 ∨ (Rect.block (s := S19200x1x4) S1x1x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S19200x1x1.size a
  hwx0_3 : ∀ i : grid0.Coords, EltTy.bits .f32 = 32 ∨ (Rect.block (s := S19200x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S19200x1x1.size a
  hwx0_4 : ∀ i : grid0.Coords, EltTy.bits .i32 = 32 ∨ (Rect.block (s := S19200x1x1) S1x1x1.size (cc0_transform_4 i) (hinb0_4 i)).WholeWords (EltTy.packing .i32)

variable [Facts₀]

def gather_S8000x64_S8000x1x1_S8000x1_n_1_0_0_1_2_11 : GatherDims S8000x64 S8000x1x1 S8000x1 where
  offsetDims := []
  collapsedSliceDims := [1]
  operandBatchingDims := [0]
  startIndicesBatchingDims := [0]
  startIndexMap := [1]
  indexVectorDim := 2
  sliceSizes := ![1, 1]
  wf := gather_S8000x64_S8000x1x1_S8000x1_n_1_0_0_1_2_11_wf
def scatter_S64x300_S8000x2_S8000_n_01_01_1 : ScatterDims S64x300 S8000x2 S8000 where
  updateWindowDims := []
  insertedWindowDims := [0, 1]
  scatterDimsToOperandDims := [0, 1]
  indexVectorDim := 1
  wf := scatter_S64x300_S8000x2_S8000_n_01_01_1_wf
def scatter_S64_S8000x1_S8000_n_0_0_1 : ScatterDims S64 S8000x1 S8000 where
  updateWindowDims := []
  insertedWindowDims := [0]
  scatterDimsToOperandDims := [0]
  indexVectorDim := 1
  wf := scatter_S64_S8000x1_S8000_n_0_0_1_wf

abbrev spec0_0 : Pipeline.WinSpec sig grid0.rank :=
  Pipeline.WinSpec.ofSpec (Memref.whole main_v75) S1x1x4.size reads0_0 false false 2 stage0_0 sem0_0 nbuf0_0 hstage0_0

abbrev spec0_1 : Pipeline.WinSpec sig grid0.rank :=
  Pipeline.WinSpec.ofSpec (Memref.whole main_v76) S1x1x91.size reads0_1 false false 2 stage0_1 sem0_1 nbuf0_1 hstage0_1

abbrev spec0_2 : Pipeline.WinSpec sig grid0.rank :=
  Pipeline.WinSpec.ofSpec (Memref.whole main_v77_0) S1x1x4.size reads0_2 true false 2 stage0_2 sem0_2 nbuf0_2 hstage0_2

abbrev spec0_3 : Pipeline.WinSpec sig grid0.rank :=
  Pipeline.WinSpec.ofSpec (Memref.whole main_v77_1) S1x1x1.size reads0_3 true false 2 stage0_3 sem0_3 nbuf0_3 hstage0_3

abbrev spec0_4 : Pipeline.WinSpec sig grid0.rank :=
  Pipeline.WinSpec.ofSpec (Memref.whole main_v77_2) S1x1x1.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 k0_off1_inb numel1_S1 pf | 1 => cc0_transform_1 k0_off1_inb numel1_S1 pf | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | 3 => hreads0_3 | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x4.size a ≤ S524288x1x4.size a), EltTy.bits .f32 = 32 ∨ (Rect.block (s := S524288x1x4) S1x1x4.size (cc0_transform_0 k0_off1_inb numel1_S1 pf i) h).WholeWords (EltTy.packing .f32)) ∧
  (∀ i : grid0.Coords, ∃ h : (∀ a, (cc0_transform_1 k0_off1_inb numel1_S1 pf i a + 1) * S1x1x91.size a ≤ S524288x1x91.size a), EltTy.bits .f32 = 32 ∨ (Rect.block (s := S524288x1x91) S1x1x91.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S64x8192x4 : Shape := ⟨3, ![64, 8192, 4]⟩
abbrev S64x8192x91 : Shape := ⟨3, ![64, 8192, 91]⟩
abbrev S8000x3 : Shape := ⟨2, ![8000, 3]⟩
abbrev S8000x1 : Shape := ⟨2, ![8000, 1]⟩
abbrev S8000 : Shape := ⟨1, ![8000]⟩
abbrev S_ : Shape := ⟨0, ![]⟩
abbrev S8000x2 : Shape := ⟨2, ![8000, 2]⟩
abbrev S8000x4 : Shape := ⟨2, ![8000, 4]⟩
abbrev S64 : Shape := ⟨1, ![64]⟩
abbrev S1x64 : Shape := ⟨2, ![1, 64]⟩
abbrev S8000x64 : Shape := ⟨2, ![8000, 64]⟩
abbrev S8000x1x1 : Shape := ⟨3, ![8000, 1, 1]⟩
abbrev S1 : Shape := ⟨1, ![1]⟩
abbrev S1x1x1 : Shape := ⟨3, ![1, 1, 1]⟩
abbrev S8000x6 : Shape := ⟨2, ![8000, 6]⟩
abbrev S64x300x6 : Shape := ⟨3, ![64, 300, 6]⟩
abbrev S64x300x4 : Shape := ⟨3, ![64, 300, 4]⟩
abbrev S64x300x1 : Shape := ⟨3, ![64, 300, 1]⟩
abbrev S64x300 : Shape := ⟨2, ![64, 300]⟩
abbrev S64x1 : Shape := ⟨2, ![64, 1]⟩

abbrev nBuf : Space → Nat
  | .hbm => 134
  | .vmem => 0
  | .smem => 0
  | _ => 0

abbrev hbmTy0_0 (i : Nat) : BufTy := match i % 128 with
  | 0 => ⟨S64x8192x4, .f32⟩
  | 1 => ⟨S64x8192x91, .f32⟩
  | 2 => ⟨S8000x3, .i32⟩
  | 3 => ⟨S8000x1, .i32⟩
  | 4 => ⟨S8000, .i32⟩
  | 5 => ⟨S8000x1, .i32⟩
  | 6 => ⟨S8000, .i32⟩
  | 7 => ⟨S8000x1, .i32⟩
  | 8 => ⟨S8000, .i32⟩
  | 9 => ⟨S_, .i32⟩
  | 10 => ⟨S8000, .i32⟩
  | 11 => ⟨S8000, .i1⟩
  | 12 => ⟨S_, .i32⟩
  | 13 => ⟨S8000, .i32⟩
  | 14 => ⟨S8000, .i32⟩
  | 15 => ⟨S8000, .i32⟩
  | 16 => ⟨S_, .i32⟩
  | 17 => ⟨S8000, .i32⟩
  | 18 => ⟨S8000, .i1⟩
  | 19 => ⟨S_, .i32⟩
  | 20 => ⟨S8000, .i32⟩
  | 21 => ⟨S8000, .i32⟩
  | 22 => ⟨S8000, .i32⟩
  | 23 => ⟨S8000x1, .i32⟩
  | 24 => ⟨S8000x1, .i32⟩
  | 25 => ⟨S8000x2, .i32⟩
  | 26 => ⟨S8000x4, .f32⟩
  | 27 => ⟨S_, .i32⟩
  | 28 => ⟨S8000, .i32⟩
  | 29 => ⟨S8000, .i1⟩
  | 30 => ⟨S_, .i32⟩
  | 31 => ⟨S8000, .i32⟩
  | 32 => ⟨S8000, .i32⟩
  | 33 => ⟨S8000, .i32⟩
  | 34 => ⟨S_, .i32⟩
  | 35 => ⟨S8000, .i32⟩
  | 36 => ⟨S8000, .i1⟩
  | 37 => ⟨S_, .i32⟩
  | 38 => ⟨S8000, .i32⟩
  | 39 => ⟨S8000, .i32⟩
  | 40 => ⟨S8000, .i32⟩
  | 41 => ⟨S_, .i32⟩
  | 42 => ⟨S8000, .i32⟩
  | 43 => ⟨S8000, .i1⟩
  | 44 => ⟨S_, .i32⟩
  | 45 => ⟨S8000, .i32⟩
  | 46 => ⟨S8000, .i32⟩
  | 47 => ⟨S8000, .i32⟩
  | 48 => ⟨S8000x1, .i32⟩
  | 49 => ⟨S8000x1, .i32⟩
  | 50 => ⟨S8000x1, .i32⟩
  | 51 => ⟨S8000x3, .i32⟩
  | 52 => ⟨S8000, .f32⟩
  | 53 => ⟨S8000x1, .i32⟩
  | 54 => ⟨S64, .i32⟩
  | 55 => ⟨S1x64, .i32⟩
  | 56 => ⟨S8000x64, .i32⟩
  | 57 => ⟨S8000x64, .i32⟩
  | 58 => ⟨S8000x64, .i1⟩
  | 59 => ⟨S8000x64, .i32⟩
  | 60 => ⟨S_, .i32⟩
  | 61 => ⟨S_, .i32⟩
  | 62 => ⟨S8000x64, .i32⟩
  | 63 => ⟨S8000x1, .i32⟩
  | 64 => ⟨S_, .i32⟩
  | 65 => ⟨S8000x1, .i32⟩
  | 66 => ⟨S8000x1, .i1⟩
  | 67 => ⟨S_, .i32⟩
  | 68 => ⟨S8000x1, .i32⟩
  | 69 => ⟨S8000x1, .i32⟩
  | 70 => ⟨S8000x1, .i32⟩
  | 71 => ⟨S8000x1x1, .i32⟩
  | 72 => ⟨S1, .i32⟩
  | 73 => ⟨S_, .i32⟩
  | 74 => ⟨S8000x1x1, .i32⟩
  | 75 => ⟨S8000x1x1, .i1⟩
  | 76 => ⟨S1x1x1, .i32⟩
  | 77 => ⟨S8000x1x1, .i32⟩
  | 78 => ⟨S8000x1x1, .i1⟩
  | 79 => ⟨S8000x1x1, .i1⟩
  | 80 => ⟨S_, .i1⟩
  | 81 => ⟨S8000x1, .i1⟩
  | 82 => ⟨S8000x1, .i32⟩
  | 83 => ⟨S_, .i32⟩
  | 84 => ⟨S8000x1, .i32⟩
  | 85 => ⟨S8000x1, .i32⟩
  | 86 => ⟨S8000, .i32⟩
  | 87 => ⟨S_, .i32⟩
  | 88 => ⟨S8000, .i32⟩
  | 89 => ⟨S8000, .i32⟩
  | 90 => ⟨S8000x1, .f32⟩
  | 91 => ⟨S8000x1, .i32⟩
  | 92 => ⟨S8000x1, .f32⟩
  | 93 => ⟨S8000x6, .f32⟩
  | 94 => ⟨S_, .i32⟩
  | 95 => ⟨S8000, .i32⟩
  | 96 => ⟨S8000, .i1⟩
  | 97 => ⟨S_, .i32⟩
  | 98 => ⟨S_, .i32⟩
  | 99 => ⟨S8000, .i32⟩
  | 100 => ⟨S8000, .i32⟩
  | 101 => ⟨S_, .f32⟩
  | 102 => ⟨S64x300x6, .f32⟩
  | 103 => ⟨S_, .i32⟩
  | 104 => ⟨S8000, .i32⟩
  | 105 => ⟨S8000, .i1⟩
  | 106 => ⟨S_, .i32⟩
  | 107 => ⟨S8000, .i32⟩
  | 108 => ⟨S8000, .i32⟩
  | 109 => ⟨S8000, .i32⟩
  | 110 => ⟨S_, .i32⟩
  | 111 => ⟨S8000, .i32⟩
  | 112 => ⟨S8000, .i1⟩
  | 113 => ⟨S_, .i32⟩
  | 114 => ⟨S8000, .i32⟩
  | 115 => ⟨S8000, .i32⟩
  | 116 => ⟨S8000, .i32⟩
  | 117 => ⟨S8000x1, .i32⟩
  | 118 => ⟨S8000x1, .i32⟩
  | 119 => ⟨S8000x2, .i32⟩
  | 120 => ⟨S64x300x6, .f32⟩
  | 121 => ⟨S_, .i32⟩
  | 122 => ⟨S8000, .i32⟩
  | 123 => ⟨S_, .i32⟩
  | 124 => ⟨S64, .i32⟩
  | 125 => ⟨S8000x1, .i32⟩
  | 126 => ⟨S64, .i32⟩
  | 127 => ⟨S64x300x4, .f32⟩
  | _ => ⟨S64x8192x4, .f32⟩

abbrev hbmTy0_1 (i : Nat) : BufTy := match i % 128 with
  | 0 => ⟨S64x300x1, .f32⟩
  | 1 => ⟨S64x300, .f32⟩
  | 2 => ⟨S64x300x1, .f32⟩
  | 3 => ⟨S64x300, .f32⟩
  | 4 => ⟨S64x300, .i32⟩
  | 5 => ⟨S64x1, .i32⟩
  | _ => ⟨S64x8192x4, .f32⟩

abbrev hbmTy (i : Nat) : BufTy := match i / 128 with
  | 0 => hbmTy0_0 i
  | 1 => hbmTy0_1 i
  | _ => ⟨S64x8192x4, .f32⟩

abbrev bufTy : (tb : Table) → Fin (tcTables nBuf tb) → BufTy
  | .hbm, ⟨i, _⟩ => hbmTy i
  | _, _ => ⟨S64x8192x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_3 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_5 : Ref sig .tc := ⟨.hbm, 34, rfl⟩
abbrev main_v25 : Ref sig .tc := ⟨.hbm, 35, rfl⟩
abbrev main_v26 : Ref sig .tc := ⟨.hbm, 36, rfl⟩
abbrev main_c_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_7 : Ref sig .tc := ⟨.hbm, 41, rfl⟩
abbrev main_v30 : Ref sig .tc := ⟨.hbm, 42, rfl⟩
abbrev main_v31 : Ref sig .tc := ⟨.hbm, 43, rfl⟩
abbrev main_c_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_call0_call0_c : Ref sig .tc := ⟨.hbm, 60, rfl⟩
abbrev main_call0_call0_v0 : Ref sig .tc := ⟨.hbm, 61, rfl⟩
abbrev main_v47 : Ref sig .tc := ⟨.hbm, 62, rfl⟩
abbrev main_v48 : Ref sig .tc := ⟨.hbm, 63, rfl⟩
abbrev main_call1_c : Ref sig .tc := ⟨.hbm, 64, rfl⟩
abbrev main_call1_v0 : Ref sig .tc := ⟨.hbm, 65, rfl⟩
abbrev main_call1_v1 : Ref sig .tc := ⟨.hbm, 66, rfl⟩
abbrev main_call1_c_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_c_1 : Ref sig .tc := ⟨.hbm, 72, rfl⟩
abbrev main_call1_c_2 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_3 : Ref sig .tc := ⟨.hbm, 80, rfl⟩
abbrev main_call1_v12 : Ref sig .tc := ⟨.hbm, 81, rfl⟩
abbrev main_call1_v13 : Ref sig .tc := ⟨.hbm, 82, rfl⟩
abbrev main_call1_c_4 : Ref sig .tc := ⟨.hbm, 83, rfl⟩
abbrev main_call1_v14 : Ref sig .tc := ⟨.hbm, 84, rfl⟩
abbrev main_v49 : Ref sig .tc := ⟨.hbm, 85, rfl⟩
abbrev main_v50 : Ref sig .tc := ⟨.hbm, 86, rfl⟩
abbrev main_c_9 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_10 : Ref sig .tc := ⟨.hbm, 94, rfl⟩
abbrev main_v57 : Ref sig .tc := ⟨.hbm, 95, rfl⟩
abbrev main_v58 : Ref sig .tc := ⟨.hbm, 96, rfl⟩
abbrev main_c_11 : Ref sig .tc := ⟨.hbm, 97, rfl⟩
abbrev main_call2_v0 : Ref sig .tc := ⟨.hbm, 98, rfl⟩
abbrev main_call2_v1 : Ref sig .tc := ⟨.hbm, 99, rfl⟩
abbrev main_v59 : Ref sig .tc := ⟨.hbm, 100, rfl⟩
abbrev main_cst : Ref sig .tc := ⟨.hbm, 101, rfl⟩
abbrev main_v60 : Ref sig .tc := ⟨.hbm, 102, rfl⟩
abbrev main_c_12 : Ref sig .tc := ⟨.hbm, 103, rfl⟩
abbrev main_v61 : Ref sig .tc := ⟨.hbm, 104, rfl⟩
abbrev main_v62 : Ref sig .tc := ⟨.hbm, 105, rfl⟩
abbrev main_c_13 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_c_14 : Ref sig .tc := ⟨.hbm, 110, rfl⟩
abbrev main_v66 : Ref sig .tc := ⟨.hbm, 111, rfl⟩
abbrev main_v67 : Ref sig .tc := ⟨.hbm, 112, rfl⟩
abbrev main_c_15 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_c_16 : Ref sig .tc := ⟨.hbm, 121, rfl⟩
abbrev main_v75 : Ref sig .tc := ⟨.hbm, 122, rfl⟩
abbrev main_c_17 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩

abbrev nD : Nat := 1
abbrev τ : Topo := Topo.v7x

variable {F : FTy → Type} [FloatOps F]

class Facts₀ : Prop where
  slices_S8000x3_S8000x1_0_0 : S8000x3.Slices ![0, 0] S8000x1
  shapeCasts_S8000x1_S8000 : S8000x1.ShapeCasts S8000
  slices_S8000x3_S8000x1_0_1 : S8000x3.Slices ![0, 1] S8000x1
  slices_S8000x3_S8000x1_0_2 : S8000x3.Slices ![0, 2] S8000x1
  bcast_S_S8000 : S_.BroadcastsInDim S8000 (![] : Fin 0 → Fin S8000.rank)
  bcast_S8000_S8000x1_0 : S8000.BroadcastsInDim S8000x1 (![0] : Fin 1 → Fin S8000x1.rank)
  concatenates_S8000x1_S8000x1_S8000x2_d1 : Shape.Concatenates [S8000x1, S8000x1] S8000x2 1
  concatenates_S8000x1_S8000x1_S8000x1_S8000x3_d1 : Shape.Concatenates [S8000x1, S8000x1, S8000x1] S8000x3 1
  bcast_S64_S1x64_1 : S64.BroadcastsInDim S1x64 (![1] : Fin 1 → Fin S1x64.rank)
  bcast_S8000x1_S8000x64_0_1 : S8000x1.BroadcastsInDim S8000x64 (![0, 1] : Fin 2 → Fin S8000x64.rank)
  bcast_S1x64_S8000x64_0_1 : S1x64.BroadcastsInDim S8000x64 (![0, 1] : Fin 2 → Fin S8000x64.rank)
  natLt_1_32 : 1 < 32
  bcast_S_S_ : S_.BroadcastsInDim S_ (![] : Fin 0 → Fin S_.rank)
  reduceWindows_S8000x64_S8000x64_w8000s1p7999_0_w1s1p0_0 : S8000x64.ReduceWindows (![8000, 1] : Fin 2 → Nat) ![1, 1] ![7999, 0] ![0, 0] S8000x64
  h_S_ : 0 < S_.numel
  bcast_S_S8000x1 : S_.BroadcastsInDim S8000x1 (![] : Fin 0 → Fin S8000x1.rank)
  shapeCasts_S8000x1_S8000x1x1 : S8000x1.ShapeCasts S8000x1x1
  bcast_S_S8000x1x1 : S_.BroadcastsInDim S8000x1x1 (![] : Fin 0 → Fin S8000x1x1.rank)
  bcast_S1_S1x1x1_2 : S1.BroadcastsInDim S1x1x1 (![2] : Fin 1 → Fin S1x1x1.rank)
  bcast_S1x1x1_S8000x1x1_0_1_2 : S1x1x1.BroadcastsInDim S8000x1x1 (![0, 1, 2] : Fin 3 → Fin S8000x1x1.rank)
  reducesTo_S8000x1x1_S8000x1_d2 : S8000x1x1.ReducesTo [2] S8000x1
  concatenates_S8000x4_S8000x1_S8000x1_S8000x6_d1 : Shape.Concatenates [S8000x4, S8000x1, S8000x1] S8000x6 1
  bcast_S_S64x300x6 : S_.BroadcastsInDim S64x300x6 (![] : Fin 0 → Fin S64x300x6.rank)
  bcast_S_S64 : S_.BroadcastsInDim S64 (![] : Fin 0 → Fin S64.rank)
  slices_S64x300x6_S64x300x4_0_0_0 : S64x300x6.Slices ![0, 0, 0] S64x300x4
  slices_S64x300x6_S64x300x1_0_0_4 : S64x300x6.Slices ![0, 0, 4] S64x300x1
  shapeCasts_S64x300x1_S64x300 : S64x300x1.ShapeCasts S64x300
  slices_S64x300x6_S64x300x1_0_0_5 : S64x300x6.Slices ![0, 0, 5] S64x300x1
  bcast_S64_S64x1_0 : S64.BroadcastsInDim S64x1 (![0] : Fin 1 → Fin S64x1.rank)
  gather_S64x8192x4_S8000x2_S8000x4_1_01_n_n_01_1_114_wf : GatherDims.WF S64x8192x4 S8000x2 S8000x4 [1] [0, 1] [] [0, 1] [] 1 ![1, 1, 4]
  gather_S64x8192x91_S8000x3_S8000_n_012_n_n_012_1_111_wf : GatherDims.WF S64x8192x91 S8000x3 S8000 [] [0, 1, 2] [] [0, 1, 2] [] 1 ![1, 1, 1]
  gather_S8000x64_S8000x1x1_S8000x1_n_1_0_0_1_2_11_wf : GatherDims.WF S8000x64 S8000x1x1 S8000x1 [] [1] [0] [1] [0] 2 ![1, 1]
  scatter_S64x300x6_S8000x2_S8000x6_1_01_01_1_wf : ScatterDims.WF S64x300x6 S8000x2 S8000x6 [1] [0, 1] [0, 1] 1
  scatter_S64_S8000x1_S8000_n_0_0_1_wf : ScatterDims.WF S64 S8000x1 S8000 [] [0] [0] 1

variable [Facts₀]

def gather_S64x8192x4_S8000x2_S8000x4_1_01_n_n_01_1_114 : GatherDims S64x8192x4 S8000x2 S8000x4 where
  offsetDims := [1]
  collapsedSliceDims := [0, 1]
  operandBatchingDims := []
  startIndicesBatchingDims := []
  startIndexMap := [0, 1]
  indexVectorDim := 1
  sliceSizes := ![1, 1, 4]
  wf := gather_S64x8192x4_S8000x2_S8000x4_1_01_n_n_01_1_114_wf
def gather_S64x8192x91_S8000x3_S8000_n_012_n_n_012_1_111 : GatherDims S64x8192x91 S8000x3 S8000 where
  offsetDims := []
  collapsedSliceDims := [0, 1, 2]
  operandBatchingDims := []
  startIndicesBatchingDims := []
  startIndexMap := [0, 1, 2]
  indexVectorDim := 1
  sliceSizes := ![1, 1, 1]
  wf := gather_S64x8192x91_S8000x3_S8000_n_012_n_n_012_1_111_wf
def gather_S8000x64_S8000x1x1_S8000x1_n_1_0_0_1_2_11 : GatherDims S8000x64 S8000x1x1 S8000x1 where
  offsetDims := []
  collapsedSliceDims := [1]
  operandBatchingDims := [0]
  startIndicesBatchingDims := [0]
  startIndexMap := [1]
  indexVectorDim := 2
  sliceSizes := ![1, 1]
  wf := gather_S8000x64_S8000x1x1_S8000x1_n_1_0_0_1_2_11_wf
def scatter_S64x300x6_S8000x2_S8000x6_1_01_01_1 : ScatterDims S64x300x6 S8000x2 S8000x6 where
  updateWindowDims := [1]
  insertedWindowDims := [0, 1]
  scatterDimsToOperandDims := [0, 1]
  indexVectorDim := 1
  wf := scatter_S64x300x6_S8000x2_S8000x6_1_01_01_1_wf
def scatter_S64_S8000x1_S8000_n_0_0_1 : ScatterDims S64 S8000x1 S8000 where
  updateWindowDims := []
  insertedWindowDims := [0]
  scatterDimsToOperandDims := [0]
  indexVectorDim := 1
  wf := scatter_S64_S8000x1_S8000_n_0_0_1_wf

class Facts : Prop extends Facts₀ where

variable [Facts]
-- ==== Proof.Spec.lean ====
/-
  The values both programs compute, as pure functions of the three argument arrays: boxes f32[64, 8192, 4],
  scores f32[64, 8192, 91] and the selection table sel i32[8000, 3], whose row n is (image b, label, box).

  Shared by both programs (integers only): row n goes to slot (b, r) of a [64, 300] table, r its rank among the
  rows of the same image (a running count read back at column b, minus one; ranks 300 and above are sent to the
  out-of-range slot 300, which a scatter drops). `sidx` is that list of slots, with Python's wrap of negatives.

  The reference scatters the six-wide rows (box, score, label as a float) to their slots of a zero [64, 300, 6]
  array and slices it. The kernel scatters box, label and the constant 1 to three integer tables, turns the box
  table into row numbers b·8192 + box of the flattened inputs, and at slot i copies that row of boxes, picks the
  labelled entry of that row of scores by a one-hot sum, and writes zeros where the slot was never hit.
-/
import proofs.«418819_j44744969290053_2_alg».proof.KernelIdeal
import proofs.«418819_j44744969290053_2_alg».proof.ReferenceIdeal
import proofs.«418819_j44744969290053_2_alg».proof.Proof.Gen.KernelIdeal.Skeleton
import Idealize.ShloMosaic.Lib.ValueIdx

noncomputable section

namespace Cert.Spec

open Idealize.ShloMosaic Idealize.ShloMosaic.ValueIdx

variable [hR : Cert.ReferenceIdeal.Facts] [hK : Cert.KernelIdeal.Facts]

/-! ## The selection table's columns and the slots -/

section Shared
open Cert.ReferenceIdeal Cert.ReferenceIdeal.Facts₀

/-- Column 0: the image of each selected row. -/
def bcol (sel : IVec S8000x3 32) : IVec S8000 32 :=
  shapeCast S8000 (extractStridedSlice S8000x1 ![0, 0] sel slices_S8000x3_S8000x1_0_0) shapeCasts_S8000x1_S8000
/-- Column 1: its label. -/
def labcol (sel : IVec S8000x3 32) : IVec S8000 32 :=
  shapeCast S8000 (extractStridedSlice S8000x1 ![0, 1] sel slices_S8000x3_S8000x1_0_1) shapeCasts_S8000x1_S8000
/-- Column 2: its box. -/
def boxcol (sel : IVec S8000x3 32) : IVec S8000 32 :=
  shapeCast S8000 (extractStridedSlice S8000x1 ![0, 2] sel slices_S8000x3_S8000x1_0_2) shapeCasts_S8000x1_S8000

/-- The word w at every one of the 8000 rows. -/
def splat (w : BitVec 32) : IVec S8000 32 := broadcastInDim S8000 ![] bcast_S_S8000 (constantI S_ 32 w)
/-- Python's wrap of a negative index on an axis of extent n: x + n where x < 0, else x. -/
def wrapNeg (n : BitVec 32) (x : IVec S8000 32) : IVec S8000 32 := select (cmpi .slt x (splat 0#32)) (addi x (splat n)) x
/-- A length-8000 vector as a column. -/
def toCol (x : IVec S8000 32) : IVec S8000x1 32 := broadcastInDim S8000x1 ![0] bcast_S8000_S8000x1_0 x

/-- Row n against image k: 1 where b n = k. -/
def sameImage (sel : IVec S8000x3 32) : IVec S8000x64 32 :=
  extui 32 (cmpi .eq (broadcastInDim S8000x64 ![0, 1] bcast_S8000x1_S8000x64_0_1 (toCol (bcol sel)))
    (broadcastInDim S8000x64 ![0, 1] bcast_S1x64_S8000x64_0_1 (broadcastInDim S1x64 ![1] bcast_S64_S1x64_1 (iotaInDim S64 32 0)))) natLt_1_32
/-- The running count down the rows, per image. -/
def running (sel : IVec S8000x3 32) : IVec S8000x64 32 :=
  Host.reduceWindow IntOp.addi ![8000, 1] ![1, 1] ![7999, 0] ![0, 0] (sameImage sel)
    (broadcastInDim S_ ![] bcast_S_S_ (constantI S_ 32 0#32)) reduceWindows_S8000x64_S8000x64_w8000s1p7999_0_w1s1p0_0 h_S_
/-- The running count read back at each row's own image (the smallest integer where the image is not one of the 64). -/
def ownCount (sel : IVec S8000x3 32) : IVec S8000x1 32 :=
  let a1 : IVec S8000x1 32 := toCol (bcol sel)
  let v4 : IVec S8000x1 32 := select (cmpi .slt a1 (broadcastInDim S8000x1 ![] bcast_S_S8000x1 (constantI S_ 32 0#32)))
    (addi a1 (broadcastInDim S8000x1 ![] bcast_S_S8000x1 (constantI S_ 32 64#32))) a1
  let v5 : IVec S8000x1x1 32 := shapeCast S8000x1x1 v4 shapeCasts_S8000x1_S8000x1x1
  let v7 : IVec S8000x1x1 1 := cmpi .sge v5 (broadcastInDim S8000x1x1 ![] bcast_S_S8000x1x1 (constantI S_ 32 0#32))
  let v9 : IVec S8000x1x1 32 := broadcastInDim S8000x1x1 ![0, 1, 2] bcast_S1x1x1_S8000x1x1_0_1_2
    (broadcastInDim S1x1x1 ![2] bcast_S1_S1x1x1_2 (constantI S1 32 63#32))
  let v11 : IVec S8000x1x1 1 := andi v7 (cmpi .sle v5 v9)
  let v12 : IVec S8000x1 1 := Host.reduce IntOp.andi v11 (constantI S_ 1 1#1) reducesTo_S8000x1x1_S8000x1_d2 h_S_
  let v13 : IVec S8000x1 32 := Host.gather gather_S8000x64_S8000x1x1_S8000x1_n_1_0_0_1_2_11 (running sel) v5
  select v12 v13 (broadcastInDim S8000x1 ![] bcast_S_S8000x1 (constantI S_ 32 2147483648#32))
/-- Each row's rank inside its image, with ranks from 300 on sent to 300. -/
def rankc (sel : IVec S8000x3 32) : IVec S8000 32 :=
  let rank : IVec S8000 32 := subi (shapeCast S8000 (ownCount sel) shapeCasts_S8000x1_S8000) (splat 1#32)
  select (cmpi .slt rank (splat 300#32)) rank (broadcastInDim S8000 ![] bcast_S_S8000 (id (constantI S_ 32 300#32)))
/-- The slot (image, rank) of each row, as the [8000, 2] index list every scatter here takes. -/
def sidx (sel : IVec S8000x3 32) : IVec S8000x2 32 :=
  concatenate S8000x2 1 [⟨S8000x1, toCol (wrapNeg 64#32 (bcol sel))⟩, ⟨S8000x1, toCol (wrapNeg 300#32 (rankc sel))⟩]
    concatenates_S8000x1_S8000x1_S8000x2_d1
/-- How many rows each image has, as a column. -/
def numPred (sel : IVec S8000x3 32) : IVec S64x1 32 :=
  broadcastInDim S64x1 ![0] bcast_S64_S64x1_0
    (Host.scatter scatter_S64_S8000x1_S8000_n_0_0_1 IntOp.addi (broadcastInDim S64 ![] bcast_S_S64 (constantI S_ 32 0#32))
      (toCol (bcol sel)) (splat 1#32))

end Shared

/-! ## The domain: labels and boxes in range -/

section Domain
open Cert.ReferenceIdeal
/-- Every selected box index names one of the 8192 boxes of an image. -/
def BoxOk (sel : IVec S8000x3 32) : Prop := ∀ n : S8000.Idx, 0 ≤ (boxcol sel n).toInt ∧ (boxcol sel n).toInt < 8192
/-- Every selected label names one of the 91 classes. -/
def LabOk (sel : IVec S8000x3 32) : Prop := ∀ n : S8000.Idx, 0 ≤ (labcol sel n).toInt ∧ (labcol sel n).toInt < 91
end Domain

/-! ## The reference -/

section Reference
open Cert.ReferenceIdeal Cert.ReferenceIdeal.Facts₀
variable {F : FTy → Type} [FloatOps F]

/-- Where the reference reads boxes: (image, box), negatives wrapped. -/
def gidx2 (sel : IVec S8000x3 32) : IVec S8000x2 32 :=
  concatenate S8000x2 1 [⟨S8000x1, toCol (wrapNeg 64#32 (bcol sel))⟩, ⟨S8000x1, toCol (wrapNeg 8192#32 (boxcol sel))⟩]
    concatenates_S8000x1_S8000x1_S8000x2_d1
/-- Where it reads scores: (image, box, label). -/
def gidx3 (sel : IVec S8000x3 32) : IVec S8000x3 32 :=
  concatenate S8000x3 1 [⟨S8000x1, toCol (wrapNeg 64#32 (bcol sel))⟩, ⟨S8000x1, toCol (wrapNeg 8192#32 (boxcol sel))⟩,
    ⟨S8000x1, toCol (wrapNeg 91#32 (labcol sel))⟩] concatenates_S8000x1_S8000x1_S8000x1_S8000x3_d1
/-- The six-wide rows: the box, the score, the label as a float. -/
def refRows (boxes : FVec F S64x8192x4 .f32) (scores : FVec F S64x8192x91 .f32) (sel : IVec S8000x3 32) : FVec F S8000x6 .f32 :=
  concatenate S8000x6 1 [⟨S8000x4, Host.gather gather_S64x8192x4_S8000x2_S8000x4_1_01_n_n_01_1_114 boxes (gidx2 sel)⟩,
    ⟨S8000x1, broadcastInDim S8000x1 ![0] bcast_S8000_S8000x1_0 (Host.gather gather_S64x8192x91_S8000x3_S8000_n_012_n_n_012_1_111 scores (gidx3 sel))⟩,
    ⟨S8000x1, sitofp .f32 (toCol (labcol sel))⟩] concatenates_S8000x4_S8000x1_S8000x1_S8000x6_d1
/-- The rows scattered to their slots of a zero array. -/
def refBatched (boxes : FVec F S64x8192x4 .f32) (scores : FVec F S64x8192x91 .f32) (sel : IVec S8000x3 32) : FVec F S64x300x6 .f32 :=
  Host.scatter scatter_S64x300x6_S8000x2_S8000x6_1_01_01_1 (fun _ b => b)
    (broadcastInDim S64x300x6 ![] bcast_S_S64x300x6 (constant S_ .f32 0x00000000#32)) (sidx sel) (refRows boxes scores sel)
def refBoxes (boxes : FVec F S64x8192x4 .f32) (scores : FVec F S64x8192x91 .f32) (sel : IVec S8000x3 32) : FVec F S64x300x4 .f32 :=
  extractStridedSlice S64x300x4 ![0, 0, 0] (refBatched boxes scores sel) slices_S64x300x6_S64x300x4_0_0_0
def refScores (boxes : FVec F S64x8192x4 .f32) (scores : FVec F S64x8192x91 .f32) (sel : IVec S8000x3 32) : FVec F S64x300 .f32 :=
  shapeCast S64x300 (extractStridedSlice S64x300x1 ![0, 0, 4] (refBatched boxes scores sel) slices_S64x300x6_S64x300x1_0_0_4) shapeCasts_S64x300x1_S64x300
def refClasses (boxes : FVec F S64x8192x4 .f32) (scores : FVec F S64x8192x91 .f32) (sel : IVec S8000x3 32) : IVec S64x300 32 :=
  fptosi 32 (shapeCast S64x300 (extractStridedSlice S64x300x1 ![0, 0, 5] (refBatched boxes scores sel) slices_S64x300x6_S64x300x1_0_0_5) shapeCasts_S64x300x1_S64x300)

end Reference

/-! ## The kernel -/

section Kernel
open Cert.KernelIdeal Cert.KernelIdeal.Facts₀
variable {F : FTy → Type} [FloatOps F]

/-- One integer per slot: u n where row n landed (the last such row), 0 where none did. -/
def slotTable (u : IVec S8000 32) (sel : IVec S8000x3 32) : IVec S64x300 32 :=
  Host.scatter scatter_S64x300_S8000x2_S8000_n_01_01_1 (fun _ b => b)
    (broadcastInDim S64x300 ![] bcast_S_S64x300 (constantI S_ 32 0#32)) (sidx sel) u
/-- The three prefetched tables, flattened to 19200 slots: the row number b·8192 + box, the label, the hit mark. -/
def flatT (sel : IVec S8000x3 32) : IVec S19200 32 :=
  shapeCast S19200 (addi (broadcastInDim S64x300 ![0, 1] bcast_S64x1_S64x300_0_1
    (muli (broadcastInDim S64x1 ![0] bcast_S64_S64x1_0 (iotaInDim S64 32 0)) (broadcastInDim S64x1 ![] bcast_S_S64x1 (constantI S_ 32 8192#32))))
    (slotTable (boxcol sel) sel)) shapeCasts_S64x300_S19200
def labT (sel : IVec S8000x3 32) : IVec S19200 32 := shapeCast S19200 (slotTable (labcol sel) sel) shapeCasts_S64x300_S19200
def validT (sel : IVec S8000x3 32) : IVec S19200 32 :=
  shapeCast S19200 (slotTable (broadcastInDim S8000 ![] bcast_S_S8000 (constantI S_ 32 1#32)) sel) shapeCasts_S64x300_S19200
/-- The inputs with the first two axes merged: row b·8192 + box. -/
def boxesFlat (boxes : FVec F S64x8192x4 .f32) : FVec F S524288x1x4 .f32 := shapeCast S524288x1x4 boxes shapeCasts_S64x8192x4_S524288x1x4
def scoresFlat (scores : FVec F S64x8192x91 .f32) : FVec F S524288x1x91 .f32 := shapeCast S524288x1x91 scores shapeCasts_S64x8192x91_S524288x1x91

/-- A table word as a row number of the flattened inputs (the word itself when it is one). -/
def rowOf (w : BitVec 32) : Fin 524288 := ⟨w.toNat % 524288, Nat.mod_lt _ (by decide)⟩

/-- What the region leaves in its three outputs, slot by slot: the body's stored values (the generated payloads) of the
    slot's table words and of the rows the first table names. -/
def outB (flat valid : IVec S19200 32) (bf : FVec F S524288x1x4 .f32) : FVec F S19200x1x4 .f32 := fun j =>
  Gen.k0_pay1 (valid (ix1 (j 0))) (fun y => bf (ix3 (rowOf (flat (ix1 (j 0)))) (y 1) (y 2))) (ix3 (0 : Fin 1) (j 1) (j 2))
def outS (flat lab valid : IVec S19200 32) (sf : FVec F S524288x1x91 .f32) : FVec F S19200x1x1 .f32 := fun j =>
  Gen.k0_pay2 (valid (ix1 (j 0))) (lab (ix1 (j 0))) (fun y => sf (ix3 (rowOf (flat (ix1 (j 0)))) (y 1) (y 2))) (ix3 (0 : Fin 1) (j 1) (j 2))
def outC (lab valid : IVec S19200 32) : IVec S19200x1x1 32 := fun j =>
  Gen.k0_pay3 (F := F) (valid (ix1 (j 0))) (lab (ix1 (j 0))) (ix3 (0 : Fin 1) (j 1) (j 2))

/-- The kernel's three array results. -/
def kerBoxes (boxes : FVec F S64x8192x4 .f32) (sel : IVec S8000x3 32) : FVec F S64x300x4 .f32 :=
  shapeCast S64x300x4 (outB (flatT sel) (validT sel) (boxesFlat boxes)) shapeCasts_S19200x1x4_S64x300x4
def kerScores (scores : FVec F S64x8192x91 .f32) (sel : IVec S8000x3 32) : FVec F S64x300 .f32 :=
  shapeCast S64x300 (outS (flatT sel) (labT sel) (validT sel) (scoresFlat scores)) shapeCasts_S19200x1x1_S64x300
def kerClasses (sel : IVec S8000x3 32) : IVec S64x300 32 :=
  shapeCast S64x300 (outC (F := F) (labT sel) (validT sel)) shapeCasts_S19200x1x1_S64x300

end Kernel

end Cert.Spec

end
-- ==== Proof.KITables.lean ====
/-
  What the region finds when it is entered: the three prefetched tables hold the specification's flattened slot tables of
  the selection argument, the two staged inputs are the argument arrays with their first two axes merged, and the image
  column is the selection's column 0. Each is the host operations before the region, composed.

  The operations are taken in two stretches. The first ends at each row's clamped rank; it leaves the three columns of
  the selection and that rank. The second builds the slot list three times over (each time the two columns (image, rank)
  side by side), scatters the box, the label and the constant 1 over it, and flattens; it is read over what the first left.
-/
import proofs.«418819_j44744969290053_2_alg».proof.Proof.KIFrame
import proofs.«418819_j44744969290053_2_alg».proof.Proof.Spec
import Idealize.ShloMosaic.Lib.StableHlo.Run

noncomputable section

namespace Cert.KernelIdeal.Tables

open Idealize.ShloMosaic Idealize.ShloMosaic.TcCoe Idealize.SL.Sem
open Cert.KernelIdeal Cert.KernelIdeal.Gen Cert.KernelIdeal.GenP
open Idealize.ShloMosaic.StableHlo

variable [hR : Cert.ReferenceIdeal.Facts] [hK : Cert.KernelIdeal.Facts] [hP : Cert.KernelIdeal.Facts]
variable {F : FTy → Type} [FloatOps F]
variable (m : (ℓ : Loc nD τ sig) → Buf (Elt F) ℓ)

/-! ## Two columns side by side -/

/-- Two [8000, 1] columns side by side: the [8000, 2] list whose row n is (a n, b n). -/
def cat2 {α : Type} (a b : S8000x1.Idx → α) : S8000x2.Idx → α :=
  concatenate S8000x2 1 [⟨S8000x1, a⟩, ⟨S8000x1, b⟩] concatenates_S8000x1_S8000x1_S8000x2_d1
/-- The concatenate of two columns along axis 1, whatever the proof of its side condition, is that list: as a function
    of the two columns alone, each of them can be rewritten in place. -/
theorem cat2_fold {α : Type} (a b : S8000x1.Idx → α) (h : Shape.Concatenates [S8000x1, S8000x1] S8000x2 1) :
    concatenate S8000x2 1 [⟨S8000x1, a⟩, ⟨S8000x1, b⟩] h = cat2 a b := rfl

/-- The buffers after a line of operations, read at one of them: each operation's result at its own buffer is its
    function's value, at any other buffer what was there; a concatenate of two columns is `cat2` of them. -/
local macro "results" : tactic =>
  `(tactic| simp (disch := decide) only [after_cons, after_nil, cat2_fold,
      nullary_result', unary_result', binary_result', ternary_result', reshape_result',
      nullary_result_ne', unary_result_ne', binary_result_ne', ternary_result_ne', reshape_result_ne'])

/-! ## The first stretch: the columns and the clamped rank -/

/-- The buffers after the host operations up to each row's clamped rank (everything before the slot lists). -/
def W (c : Dev nD) : Valuation τ sig (Elt F) :=
  after (List.flatten [hostOps0, hostOps0_1, hostOps0_2, hostOps0_3, hostOps0_4, hostOps0_5]) (fun b => m (c, b))

/-- The region is entered after the second stretch run over the first. -/
theorem V0_eq (c : Dev nD) : GenP.V0 m c = after hostOps0_6 (W m c) := by
  show after (List.flatten ([hostOps0, hostOps0_1, hostOps0_2, hostOps0_3, hostOps0_4, hostOps0_5] ++ [hostOps0_6])) _ = _
  rw [List.flatten_append, after_append]
  simp only [List.flatten_cons, List.flatten_nil, List.append_nil]
  rfl

/-- Column 0 of the selection: the image. -/
theorem W_v1 (c : Dev nD) : W m c (Proc.devRef .tc main_v1) = Cert.Spec.bcol (m ((c : Thread nD τ).loc main_arg2)) := by
  unfold W
  simp only [hostOps0, hostOps0_1, hostOps0_2, hostOps0_3, hostOps0_4, hostOps0_5, List.flatten_cons, List.flatten_nil, List.append_nil, List.cons_append, List.nil_append]
  results
  rfl
/-- Column 1: the label. -/
theorem W_v3 (c : Dev nD) : W m c (Proc.devRef .tc main_v3) = Cert.Spec.labcol (m ((c : Thread nD τ).loc main_arg2)) := by
  unfold W
  simp only [hostOps0, hostOps0_1, hostOps0_2, hostOps0_3, hostOps0_4, hostOps0_5, List.flatten_cons, List.flatten_nil, List.append_nil, List.cons_append, List.nil_append]
  results
  rfl
/-- Column 2: the box. -/
theorem W_v5 (c : Dev nD) : W m c (Proc.devRef .tc main_v5) = Cert.Spec.boxcol (m ((c : Thread nD τ).loc main_arg2)) := by
  unfold W
  simp only [hostOps0, hostOps0_1, hostOps0_2, hostOps0_3, hostOps0_4, hostOps0_5, List.flatten_cons, List.flatten_nil, List.append_nil, List.cons_append, List.nil_append]
  results
  rfl

set_option maxHeartbeats 1000000 in
/-- Each row's rank inside its image, clamped at 300: the running count of the one-hot image columns, read back at the
    row's own image, minus one (the three callees' operations stand in line; a typed reference's transport of contents
    is the identity). -/
theorem W_v21 (c : Dev nD) : W m c (Proc.devRef .tc main_v21) = Cert.Spec.rankc (m ((c : Thread nD τ).loc main_arg2)) := by
  unfold W
  simp only [hostOps0, hostOps0_1, hostOps0_2, hostOps0_3, hostOps0_4, hostOps0_5, List.flatten_cons, List.flatten_nil, List.append_nil, List.cons_append, List.nil_append]
  results
  simp only [TRef.ofBuf, TRef.toBuf, cast_eq]
  rfl

/-! ## The second stretch: the slot lists, the three scatters, the flattening -/

set_option maxHeartbeats 1000000 in
theorem tbl0 : GenP.tbl m 0 = Cert.Spec.flatT (m (((0 : Dev nD) : Thread nD τ).loc main_arg2)) := by
  unfold GenP.tbl
  show GenP.V0 m 0 (Proc.devRef .tc main_v72) = _
  rw [V0_eq]
  simp only [hostOps0_6]
  results
  rw [W_v1, W_v21, W_v5]
  rfl
set_option maxHeartbeats 1000000 in
theorem tbl1 : GenP.tbl m 1 = Cert.Spec.labT (m (((0 : Dev nD) : Thread nD τ).loc main_arg2)) := by
  unfold GenP.tbl
  show GenP.V0 m 0 (Proc.devRef .tc main_v73) = _
  rw [V0_eq]
  simp only [hostOps0_6]
  results
  rw [W_v1, W_v21, W_v3]
  rfl
set_option maxHeartbeats 1000000 in
theorem tbl2 : GenP.tbl m 2 = Cert.Spec.validT (m (((0 : Dev nD) : Thread nD τ).loc main_arg2)) := by
  unfold GenP.tbl
  show GenP.V0 m 0 (Proc.devRef .tc main_v74) = _
  rw [V0_eq]
  simp only [hostOps0_6]
  results
  rw [W_v1, W_v21]
  rfl

/-! ## The staged inputs and the image column -/

theorem V_boxesFlat (c : Dev nD) : GenP.V m c main_v75 = Cert.Spec.boxesFlat (F := F) (m ((c : Thread nD τ).loc main_arg0)) := by
  dsimp only [GenP.V, GenP.V0]
  simp only [hostOps0, hostOps0_1, hostOps0_2, hostOps0_3, hostOps0_4, hostOps0_5, hostOps0_6, List.flatten_cons, List.flatten_nil, List.append_nil, List.cons_append, List.nil_append]
  results
  rfl
theorem V_scoresFlat (c : Dev nD) : GenP.V m c main_v76 = Cert.Spec.scoresFlat (F := F) (m ((c : Thread nD τ).loc main_arg1)) := by
  dsimp only [GenP.V, GenP.V0]
  simp only [hostOps0, hostOps0_1, hostOps0_2, hostOps0_3, hostOps0_4, hostOps0_5, hostOps0_6, List.flatten_cons, List.flatten_nil, List.append_nil, List.cons_append, List.nil_append]
  results
  rfl
theorem V_bcol (c : Dev nD) : GenP.V m c main_v1 = Cert.Spec.bcol (m ((c : Thread nD τ).loc main_arg2)) := by
  dsimp only [GenP.V, GenP.V0]
  simp only [hostOps0, hostOps0_1, hostOps0_2, hostOps0_3, hostOps0_4, hostOps0_5, hostOps0_6, List.flatten_cons, List.flatten_nil, List.append_nil, List.cons_append, List.nil_append]
  results
  rfl

end Cert.KernelIdeal.Tables

end
-- ==== Proof.LibScatter.lean ====
/-
  A scatter whose combiner keeps the update ("set") reads back, at each index of the operand, either the operand's own
  element (no update lands there) or the LAST update, in row-major order of the updates, that lands there. The host
  scatter is a left fold over the updates in that order, each step overwriting one element or none.
-/
import Idealize.ShloMosaic.PureOps.ShapeOps

noncomputable section

namespace Idealize.ShloMosaic

/-- A left fold observed through `obs`, whose step at a position that hits makes the observed value `v n` and at a
    position that does not hit leaves it as it was: over a strictly increasing list of positions the observed value
    of the fold is the start's when no position of the list hits, and otherwise `v n` at the position `n` of the
    list that hits and after which no position of the list does. -/
theorem foldl_lastHit_cases {ι ρ α : Type} [Preorder ι] (hit : ι → Prop) (v : ι → α) (obs : ρ → α) (step : ρ → ι → ρ)
    (hhit : ∀ r n, hit n → obs (step r n) = v n) (hmiss : ∀ r n, ¬ hit n → obs (step r n) = obs r)
    (l : List ι) (hl : l.Pairwise (· < ·)) (x : ρ) :
    ((∀ n ∈ l, ¬ hit n) ∧ obs (l.foldl step x) = obs x)
    ∨ ∃ n ∈ l, hit n ∧ (∀ m ∈ l, n < m → ¬ hit m) ∧ obs (l.foldl step x) = v n := by
  induction l using List.reverseRecOn with
  | nil => exact Or.inl ⟨fun n hn => absurd hn List.not_mem_nil, rfl⟩
  | append_singleton l a ih =>
    rw [List.pairwise_append] at hl
    obtain ⟨hl₁, -, hlt⟩ := hl
    have hlt' : ∀ m ∈ l, m < a := fun m hm => hlt m hm a (List.mem_singleton_self a)
    rw [List.foldl_append, List.foldl_cons, List.foldl_nil]
    by_cases ha : hit a
    · -- the appended position hits: it is the last one that does
      right
      refine ⟨a, List.mem_append_right _ (List.mem_singleton_self a), ha, ?_, hhit _ _ ha⟩
      intro m hm ham
      rcases List.mem_append.1 hm with hm | hm
      · exact absurd (hlt' m hm) (lt_asymm ham)
      · rw [List.mem_singleton] at hm
        subst hm
        exact absurd ham (lt_irrefl _)
    · -- the appended position does not hit: the case of the shorter list stands
      rw [hmiss _ _ ha]
      rcases ih hl₁ with ⟨hno, hval⟩ | ⟨n, hn, hhn, hlast, hval⟩
      · left
        refine ⟨?_, hval⟩
        intro m hm
        rcases List.mem_append.1 hm with hm | hm
        · exact hno m hm
        · rw [List.mem_singleton] at hm
          subst hm
          exact ha
      · right
        refine ⟨n, List.mem_append_left _ hn, hhn, ?_, hval⟩
        intro m hm hnm
        rcases List.mem_append.1 hm with hm | hm
        · exact hlast m hm hnm
        · rw [List.mem_singleton] at hm
          subst hm
          exact ha

variable {α : Type} {s si u : Shape} {w : Nat}

/-- The two cases of a set-scatter at index `i`, for any fold over the row-major positions of the updates whose step
    writes the update at a position landing on `i` and keeps the element at `i` at any other position. -/
theorem Host.foldl_finRange_set_cases (d : ScatterDims s si u) (x : s.Idx → α) (idx : IVec si w) (upd : u.Idx → α)
    (i : s.Idx) (step : (s.Idx → α) → Fin u.numel → s.Idx → α)
    (hhit : ∀ r n, d.resultIdx? (u.rowMajor.symm n) idx = some i → step r n i = upd (u.rowMajor.symm n))
    (hmiss : ∀ r n, d.resultIdx? (u.rowMajor.symm n) idx ≠ some i → step r n i = r i) :
    ((∀ j : u.Idx, d.resultIdx? j idx ≠ some i) ∧ (List.finRange u.numel).foldl step x i = x i)
    ∨ ∃ j : u.Idx, d.resultIdx? j idx = some i
        ∧ (∀ j' : u.Idx, (u.rowMajor j).val < (u.rowMajor j').val → d.resultIdx? j' idx ≠ some i)
        ∧ (List.finRange u.numel).foldl step x i = upd j := by
  rcases foldl_lastHit_cases (fun n : Fin u.numel => d.resultIdx? (u.rowMajor.symm n) idx = some i)
      (fun n => upd (u.rowMajor.symm n)) (fun r : s.Idx → α => r i) step hhit hmiss
      (List.finRange u.numel) (List.pairwise_lt_finRange _) x with ⟨hno, hval⟩ | ⟨n, -, hn, hlast, hval⟩
  · left
    refine ⟨fun j => ?_, hval⟩
    have := hno (u.rowMajor j) (List.mem_finRange _)
    rwa [Equiv.symm_apply_apply] at this
  · right
    refine ⟨u.rowMajor.symm n, hn, fun j' hlt => ?_, hval⟩
    rw [Equiv.apply_symm_apply] at hlt
    have := hlast (u.rowMajor j') (List.mem_finRange _) (Fin.lt_def.2 hlt)
    rwa [Equiv.symm_apply_apply] at this

/-- A set-scatter at index `i`: untouched when no update's result index is `i`; otherwise the update `j` that lands on
    `i` and after which, in row-major order, no other does. -/
theorem Host.scatter_set_cases (d : ScatterDims s si u) (x : s.Idx → α) (idx : IVec si w) (upd : u.Idx → α) (i : s.Idx) :
    ((∀ j : u.Idx, d.resultIdx? j idx ≠ some i) ∧ Host.scatter d (fun _ b => b) x idx upd i = x i)
    ∨ ∃ j : u.Idx, d.resultIdx? j idx = some i
        ∧ (∀ j' : u.Idx, (u.rowMajor j).val < (u.rowMajor j').val → d.resultIdx? j' idx ≠ some i)
        ∧ Host.scatter d (fun _ b => b) x idx upd i = upd j := by
  refine Host.foldl_finRange_set_cases d x idx upd i _ ?_ ?_
  · -- a position landing on `i` overwrites the element at `i` with its update
    intro r n hn
    simp only [hn, if_true]
  · -- a position landing elsewhere, or nowhere, leaves the element at `i`
    intro r n hn
    generalize d.resultIdx? (u.rowMajor.symm n) idx = o at hn ⊢
    cases o with
    | none => rfl
    | some i₀ =>
      have hne : i ≠ i₀ := fun h => hn (h ▸ rfl)
      show (if i = i₀ then _ else r i) = r i
      exact if_neg hne

end Idealize.ShloMosaic

end
-- ==== Proof.Slots.lean ====
/-
  One slot, all scatters. The kernel's integer tables (scalar updates to a [64, 300] operand) and the reference's six-wide
  rows (a window of 6 on the last axis of a [64, 300, 6] operand) are scattered with ONE list of slot indices, in the same
  row-major order of the 8000 rows. Whether row n lands on slot (b, r) depends on the index list only, and update (n, k) of
  the six-wide scatter lands on (b, r, k) exactly when row n lands on (b, r); positions 6n + k grow with n. So a slot is
  either hit by no row, and every scatter leaves its operand there, or it has one last row n, the same for all of them,
  whose updates they all read back, and whose two index words are the slot's coordinates.
-/
import proofs.«418819_j44744969290053_2_alg».proof.Proof.Spec
import proofs.«418819_j44744969290053_2_alg».proof.Proof.LibScatter
import Idealize.ShloMosaic.Lib.ValueIdx

noncomputable section

namespace Cert.Slots

open Idealize.ShloMosaic Idealize.ShloMosaic.ValueIdx

variable [hR : Cert.ReferenceIdeal.Facts] [hK : Cert.KernelIdeal.Facts]

/-- The kernel's scalar set-scatter into a [64, 300] operand. -/
abbrev dK := Cert.KernelIdeal.scatter_S64x300_S8000x2_S8000_n_01_01_1
/-- The reference's six-wide set-scatter into a [64, 300, 6] operand. -/
abbrev d6 := Cert.ReferenceIdeal.scatter_S64x300x6_S8000x2_S8000x6_1_01_01_1

/-- An update lands on the operand index `i` exactly when, on every axis, its window's start plus its window coordinate
    is `i`'s coordinate. -/
theorem resultIdx?_eq_some_iff {s si u : Shape} {w : Nat} (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hh
      have h1 := congrFun (Option.some.inj h) a
      have h2 := congrArg Fin.val h1
      simp only at h2
      have := (hh a).1
      omega
    · cases h
  · intro h
    have hh : ∀ a, 0 ≤ d.start j idx a + d.window j a ∧ d.start j idx a + d.window j a < s.size a := by
      intro a; rw [h a]; exact ⟨Int.natCast_nonneg _, by exact_mod_cast (i a).isLt⟩
    rw [dif_pos hh]
    congr 1; funext a; apply Fin.ext
    show (d.start j idx a + d.window j a).toNat = (i a).val
    rw [h a]; exact Int.toNat_natCast _

/-! ## The scalar scatter: starts and windows of row `n` -/

theorem dK_start0 (idx : IVec Cert.ReferenceIdeal.S8000x2 32) (n : Fin 8000) :
    dK.start (ix1 n) idx 0 = (idx (ix2 n (0 : Fin 2))).toInt := by
  unfold ScatterDims.start
  rw [dif_pos (by decide)]
  congr 2
  funext b; apply Fin.ext
  match b with
  | ⟨0, _⟩ => rfl
  | ⟨1, _⟩ => rfl

theorem dK_start1 (idx : IVec Cert.ReferenceIdeal.S8000x2 32) (n : Fin 8000) :
    dK.start (ix1 n) idx 1 = (idx (ix2 n (1 : Fin 2))).toInt := by
  unfold ScatterDims.start
  rw [dif_pos (by decide)]
  congr 2
  funext b; apply Fin.ext
  match b with
  | ⟨0, _⟩ => rfl
  | ⟨1, _⟩ => rfl

theorem dK_window (j : Cert.KernelIdeal.S8000.Idx) (a : Fin 2) : dK.window j a = 0 := by
  unfold ScatterDims.window
  rw [dif_neg]
  revert a; decide

/-- Row `n` of the scalar updates lands on slot (b, r) exactly when its two index words, read signed, are b and r. -/
theorem dK_lands_iff (idx : IVec Cert.ReferenceIdeal.S8000x2 32) (n : Fin 8000) (b : Fin 64) (r : Fin 300) :
    dK.resultIdx? (ix1 n) idx = some (ix2 b r)
      ↔ (idx (ix2 n (0 : Fin 2))).toInt = (b.val : Int) ∧ (idx (ix2 n (1 : Fin 2))).toInt = (r.val : Int) := by
  rw [resultIdx?_eq_some_iff]
  constructor
  · intro h
    have h0 := h 0
    have h1 := h 1
    rw [dK_start0, dK_window] at h0
    rw [dK_start1, dK_window] at h1
    exact ⟨by simpa using h0, by simpa using h1⟩
  · rintro ⟨h0, h1⟩ a
    match a with
    | ⟨0, _⟩ =>
      show dK.start (ix1 n) idx 0 + (dK.window (ix1 n) 0 : Int) = _
      rw [dK_start0, dK_window, h0]; simp
    | ⟨1, _⟩ =>
      show dK.start (ix1 n) idx 1 + (dK.window (ix1 n) 1 : Int) = _
      rw [dK_start1, dK_window, h1]; simp

/-! ## The six-wide scatter: starts and windows of update (n, k) -/

theorem d6_start0 (idx : IVec Cert.ReferenceIdeal.S8000x2 32) (n : Fin 8000) (k : Fin 6) :
    d6.start (ix2 n k) idx 0 = (idx (ix2 n (0 : Fin 2))).toInt := by
  unfold ScatterDims.start
  rw [dif_pos (show (0 : Fin 3) ∈ d6.scatterDimsToOperandDims by show (0 : Fin 3) ∈ [0, 1]; decide)]
  congr 2
  funext b; apply Fin.ext
  match b with
  | ⟨0, _⟩ => rfl
  | ⟨1, _⟩ => rfl

theorem d6_start1 (idx : IVec Cert.ReferenceIdeal.S8000x2 32) (n : Fin 8000) (k : Fin 6) :
    d6.start (ix2 n k) idx 1 = (idx (ix2 n (1 : Fin 2))).toInt := by
  unfold ScatterDims.start
  rw [dif_pos (show (1 : Fin 3) ∈ d6.scatterDimsToOperandDims by show (1 : Fin 3) ∈ [0, 1]; decide)]
  congr 2
  funext b; apply Fin.ext
  match b with
  | ⟨0, _⟩ => rfl
  | ⟨1, _⟩ => rfl

theorem d6_start2 (idx : IVec Cert.ReferenceIdeal.S8000x2 32) (j : Cert.ReferenceIdeal.S8000x6.Idx) :
    d6.start j idx 2 = 0 := by
  unfold ScatterDims.start
  rw [dif_neg (show (2 : Fin 3) ∉ d6.scatterDimsToOperandDims by show (2 : Fin 3) ∉ [0, 1]; decide)]

theorem d6_window0 (j : Cert.ReferenceIdeal.S8000x6.Idx) : d6.window j 0 = 0 := by
  unfold ScatterDims.window
  rw [dif_neg (show (0 : Fin 3) ∉ d6.sKept by show (0 : Fin 3) ∉ Cert.ReferenceIdeal.S64x300x6.kept [0, 1]; decide)]

theorem d6_window1 (j : Cert.ReferenceIdeal.S8000x6.Idx) : d6.window j 1 = 0 := by
  unfold ScatterDims.window
  rw [dif_neg (show (1 : Fin 3) ∉ d6.sKept by show (1 : Fin 3) ∉ Cert.ReferenceIdeal.S64x300x6.kept [0, 1]; decide)]

theorem d6_window2 (n : Fin 8000) (k : Fin 6) : d6.window (ix2 n k) 2 = k.val := by
  unfold ScatterDims.window
  rw [dif_pos (show (2 : Fin 3) ∈ d6.sKept by show (2 : Fin 3) ∈ Cert.ReferenceIdeal.S64x300x6.kept [0, 1]; decide)]
  rfl

/-- Update (n, k) of the six-wide rows lands on (b, r, k') exactly when row `n`'s two index words are b and r and k' = k. -/
theorem d6_lands_iff (idx : IVec Cert.ReferenceIdeal.S8000x2 32) (n : Fin 8000) (k k' : Fin 6) (b : Fin 64) (r : Fin 300) :
    d6.resultIdx? (ix2 n k) idx = some (ix3 b r k')
      ↔ ((idx (ix2 n (0 : Fin 2))).toInt = (b.val : Int) ∧ (idx (ix2 n (1 : Fin 2))).toInt = (r.val : Int)) ∧ k = k' := by
  rw [resultIdx?_eq_some_iff]
  constructor
  · intro h
    have h0 := h 0
    have h1 := h 1
    have h2 := h 2
    rw [d6_start0, d6_window0] at h0
    rw [d6_start1, d6_window1] at h1
    rw [d6_start2, d6_window2] at h2
    refine ⟨⟨by simpa using h0, by simpa using h1⟩, Fin.ext ?_⟩
    have : ((k.val : Int)) = (k'.val : Int) := by simpa using h2
    exact_mod_cast this
  · rintro ⟨⟨h0, h1⟩, rfl⟩ a
    match a with
    | ⟨0, _⟩ =>
      show d6.start (ix2 n k) idx 0 + (d6.window (ix2 n k) 0 : Int) = _
      rw [d6_start0, d6_window0, h0]; simp
    | ⟨1, _⟩ =>
      show d6.start (ix2 n k) idx 1 + (d6.window (ix2 n k) 1 : Int) = _
      rw [d6_start1, d6_window1, h1]; simp
    | ⟨2, _⟩ =>
      show d6.start (ix2 n k) idx 2 + (d6.window (ix2 n k) 2 : Int) = _
      rw [d6_start2, d6_window2]; simp

/-! ## One slot -/

/-- Row `n` lands on slot (b, r): its two index words, read signed, are b and r. -/
def Lands (idx : IVec Cert.ReferenceIdeal.S8000x2 32) (b : Fin 64) (r : Fin 300) (n : Fin 8000) : Prop :=
  (idx (ix2 n (0 : Fin 2))).toInt = (b.val : Int) ∧ (idx (ix2 n (1 : Fin 2))).toInt = (r.val : Int)

/-- Among the rows landing on a slot, if there is one, there is a last one. -/
theorem exists_last {idx : IVec Cert.ReferenceIdeal.S8000x2 32} {b : Fin 64} {r : Fin 300} (h : ∃ n, Lands idx b r n) :
    ∃ n, Lands idx b r n ∧ ∀ n', n < n' → ¬ Lands idx b r n' := by
  classical
  obtain ⟨n0, hn0⟩ := h
  obtain ⟨n, hn, hmax⟩ := Finset.exists_max_image (Finset.univ.filter (Lands idx b r)) id
    ⟨n0, Finset.mem_filter.2 ⟨Finset.mem_univ _, hn0⟩⟩
  refine ⟨n, (Finset.mem_filter.1 hn).2, fun n' hlt hl => ?_⟩
  have := hmax n' (Finset.mem_filter.2 ⟨Finset.mem_univ _, hl⟩)
  exact absurd hlt (not_lt.2 this)

/-- No row lands on the slot: the scalar scatter keeps the operand's element. -/
theorem dK_miss (idx : IVec Cert.ReferenceIdeal.S8000x2 32) (b : Fin 64) (r : Fin 300) (h : ¬ ∃ n, Lands idx b r n)
    {α : Type} (x : Cert.KernelIdeal.S64x300.Idx → α) (u : Cert.KernelIdeal.S8000.Idx → α) :
    Host.scatter dK (fun _ v => v) x idx u (ix2 b r) = x (ix2 b r) := by
  rcases Host.scatter_set_cases dK x idx u (ix2 b r) with ⟨_, hx⟩ | ⟨j, hj, _, _⟩
  · exact hx
  · obtain ⟨m, rfl⟩ : ∃ m : Fin 8000, j = ix1 m := ⟨j 0, eq_ix1 j⟩
    exact absurd ⟨m, (dK_lands_iff idx m b r).1 hj⟩ h

/-- Row `n` is the last to land on the slot: the scalar scatter reads its update back. The scatter's own last update
    landing there is a row that lands, and neither of the two rows is before the other. -/
theorem dK_hit (idx : IVec Cert.ReferenceIdeal.S8000x2 32) (b : Fin 64) (r : Fin 300) (n : Fin 8000)
    (hn : Lands idx b r n) (hlast : ∀ n', n < n' → ¬ Lands idx b r n')
    {α : Type} (x : Cert.KernelIdeal.S64x300.Idx → α) (u : Cert.KernelIdeal.S8000.Idx → α) :
    Host.scatter dK (fun _ v => v) x idx u (ix2 b r) = u (ix1 n) := by
  rcases Host.scatter_set_cases dK x idx u (ix2 b r) with ⟨hno, _⟩ | ⟨j, hj, hlater, hv⟩
  · exact absurd ((dK_lands_iff idx n b r).2 hn) (hno (ix1 n))
  · obtain ⟨m, rfl⟩ : ∃ m : Fin 8000, j = ix1 m := ⟨j 0, eq_ix1 j⟩
    have hm : Lands idx b r m := (dK_lands_iff idx m b r).1 hj
    have hmn : m = n := by
      rcases lt_trichotomy m n with hlt | heq | hgt
      · exfalso
        refine hlater (ix1 n) ?_ ((dK_lands_iff idx n b r).2 hn)
        rw [Shape.rowMajor_val_one, Shape.rowMajor_val_one]
        exact hlt
      · exact heq
      · exact absurd hm (hlast m hgt)
    rw [hv, hmn]

/-- No row lands on the slot: the six-wide scatter keeps the operand's six elements. -/
theorem d6_miss (idx : IVec Cert.ReferenceIdeal.S8000x2 32) (b : Fin 64) (r : Fin 300) (h : ¬ ∃ n, Lands idx b r n)
    {β : Type} (x : Cert.ReferenceIdeal.S64x300x6.Idx → β) (rows : Cert.ReferenceIdeal.S8000x6.Idx → β) (k : Fin 6) :
    Host.scatter d6 (fun _ v => v) x idx rows (ix3 b r k) = x (ix3 b r k) := by
  rcases Host.scatter_set_cases d6 x idx rows (ix3 b r k) with ⟨_, hx⟩ | ⟨j, hj, _, _⟩
  · exact hx
  · obtain ⟨m, c, rfl⟩ : ∃ (m : Fin 8000) (c : Fin 6), j = ix2 m c := ⟨j 0, j 1, eq_ix2 j⟩
    exact absurd ⟨m, ((d6_lands_iff idx m c k b r).1 hj).1⟩ h

/-- Row `n` is the last to land on the slot: at column k the six-wide scatter reads update (n, k) back. Update (m, k)
    sits at position 6 m + k, so between two updates of column k the later position is the later row. -/
theorem d6_hit (idx : IVec Cert.ReferenceIdeal.S8000x2 32) (b : Fin 64) (r : Fin 300) (n : Fin 8000)
    (hn : Lands idx b r n) (hlast : ∀ n', n < n' → ¬ Lands idx b r n')
    {β : Type} (x : Cert.ReferenceIdeal.S64x300x6.Idx → β) (rows : Cert.ReferenceIdeal.S8000x6.Idx → β) (k : Fin 6) :
    Host.scatter d6 (fun _ v => v) x idx rows (ix3 b r k) = rows (ix2 n k) := by
  rcases Host.scatter_set_cases d6 x idx rows (ix3 b r k) with ⟨hno, _⟩ | ⟨j, hj, hlater, hv⟩
  · exact absurd ((d6_lands_iff idx n k k b r).2 ⟨hn, rfl⟩) (hno (ix2 n k))
  · obtain ⟨m, c, rfl⟩ : ∃ (m : Fin 8000) (c : Fin 6), j = ix2 m c := ⟨j 0, j 1, eq_ix2 j⟩
    obtain ⟨hm, hck⟩ := (d6_lands_iff idx m c k b r).1 hj
    subst hck
    have hmn : m = n := by
      rcases lt_trichotomy m n with hlt | heq | hgt
      · exfalso
        refine hlater (ix2 n c) ?_ ((d6_lands_iff idx n c c b r).2 ⟨hn, rfl⟩)
        rw [Shape.rowMajor_val_two, Shape.rowMajor_val_two]
        show m.val * 6 + c.val < n.val * 6 + c.val
        have : m.val < n.val := hlt
        omega
      · exact heq
      · exact absurd hm (hlast m hgt)
    rw [hv, hmn]

/-- Slot (b, r) under the index list `idx`: no row lands there and every set-scatter keeps its operand's element, or there is
    a last row `n` landing there — its index words are `b` and `r` read signed — and every set-scatter reads row `n`'s update back. -/
theorem slot_cases (idx : IVec Cert.ReferenceIdeal.S8000x2 32) (b : Fin 64) (r : Fin 300) :
    ((∀ {α : Type} (x : Cert.KernelIdeal.S64x300.Idx → α) (u : Cert.KernelIdeal.S8000.Idx → α),
          Host.scatter dK (fun _ v => v) x idx u (ix2 b r) = x (ix2 b r))
      ∧ (∀ {β : Type} (x : Cert.ReferenceIdeal.S64x300x6.Idx → β) (rows : Cert.ReferenceIdeal.S8000x6.Idx → β) (k : Fin 6),
          Host.scatter d6 (fun _ v => v) x idx rows (ix3 b r k) = x (ix3 b r k)))
    ∨ ∃ n : Fin 8000, (idx (ix2 n (0 : Fin 2))).toInt = (b.val : Int) ∧ (idx (ix2 n (1 : Fin 2))).toInt = (r.val : Int)
      ∧ (∀ {α : Type} (x : Cert.KernelIdeal.S64x300.Idx → α) (u : Cert.KernelIdeal.S8000.Idx → α),
          Host.scatter dK (fun _ v => v) x idx u (ix2 b r) = u (ix1 n))
      ∧ (∀ {β : Type} (x : Cert.ReferenceIdeal.S64x300x6.Idx → β) (rows : Cert.ReferenceIdeal.S8000x6.Idx → β) (k : Fin 6),
          Host.scatter d6 (fun _ v => v) x idx rows (ix3 b r k) = rows (ix2 n k)) := by
  by_cases h : ∃ n, Lands idx b r n
  · obtain ⟨n, hn, hlast⟩ := exists_last h
    exact Or.inr ⟨n, hn.1, hn.2, fun x u => dK_hit idx b r n hn hlast x u,
      fun x rows k => d6_hit idx b r n hn hlast x rows k⟩
  · exact Or.inl ⟨fun x u => dK_miss idx b r h x u, fun x rows k => d6_miss idx b r h x rows k⟩

end Cert.Slots

end
-- ==== Proof.Reads.lean ====
/-
  The specification's arrays read at explicit coordinates: a column of an index list built by a concatenate; a piece of
  the reference's six-wide row; a gather whose start words are in range; and the reshapes between [64, 300, ·] and the
  19200 flat slots, and between [64, 8192, ·] and the 524288 flat rows: slot (b, r) is 300·b + r, row (b, x) is 8192·b + x.
-/
import proofs.«418819_j44744969290053_2_alg».proof.Proof.Spec
import Idealize.ShloMosaic.Lib.Pipeline.Value
import Idealize.ShloMosaic.Lib.ValueLayout

noncomputable section

namespace Cert.Reads

open Idealize.ShloMosaic Idealize.ShloMosaic.ValueIdx Cert.Spec

variable [hR : Cert.ReferenceIdeal.Facts] [hK : Cert.KernelIdeal.Facts]
variable {F : FTy → Type} [FloatOps F]

/-- The flat slot of (image b, rank r). -/
def slot (b : Fin 64) (r : Fin 300) : Fin 19200 := ⟨300 * b.val + r.val, by omega⟩
/-- The flat row of (image b, box x). -/
def frow (b : Fin 64) (x : Fin 8192) : Fin 524288 := ⟨8192 * b.val + x.val, by omega⟩

section Columns
open Cert.ReferenceIdeal

/-- A length-8000 vector of any elements broadcast to a column reads, at (n, 0), the vector at n. -/
theorem bcastCol_at {α : Type} (x : S8000.Idx → α) (n : Fin 8000) :
    broadcastInDim S8000x1 ![0] Facts₀.bcast_S8000_S8000x1_0 x (ix2 n (0 : Fin 1)) = x (ix1 n) := by
  refine broadcastInDim_apply _ _ _ _ (ix1 n) fun a => ?_
  match a with
  | ⟨0, _⟩ => rfl

/-- A length-8000 vector as a column reads, at (n, 0), the vector at n. -/
theorem toCol_at (x : IVec S8000 32) (n : Fin 8000) : toCol x (ix2 n (0 : Fin 1)) = x (ix1 n) := by
  unfold toCol
  refine broadcastInDim_apply _ _ _ _ (ix1 n) fun a => ?_
  match a with
  | ⟨0, _⟩ => rfl

theorem sidx_at0 (sel : IVec S8000x3 32) (n : Fin 8000) : sidx sel (ix2 n (0 : Fin 2)) = wrapNeg 64#32 (bcol sel) (ix1 n) := by
  refine Eq.trans ?_ (toCol_at _ n)
  unfold sidx
  refine concatenate_apply_piece _ _ _ _ 0 ?hk S8000x1 _ ?hxk ?hr 0 ?hpre (ix2 n (0 : Fin 1)) (fun c hc => ?hi) ?ha
  case hk => simp
  case hxk => rfl
  case hr => rfl
  case hpre => rfl
  case ha => rfl
  case hi =>
    match c with
    | ⟨0, _⟩ => rfl
    | ⟨1, _⟩ => exact absurd rfl hc
theorem sidx_at1 (sel : IVec S8000x3 32) (n : Fin 8000) : sidx sel (ix2 n (1 : Fin 2)) = wrapNeg 300#32 (rankc sel) (ix1 n) := by
  refine Eq.trans ?_ (toCol_at _ n)
  unfold sidx
  refine concatenate_apply_piece _ _ _ _ 1 ?hk S8000x1 _ ?hxk ?hr 1 ?hpre (ix2 n (0 : Fin 1)) (fun c hc => ?hi) ?ha
  case hk => simp
  case hxk => rfl
  case hr => rfl
  case hpre => rfl
  case ha => rfl
  case hi =>
    match c with
    | ⟨0, _⟩ => rfl
    | ⟨1, _⟩ => exact absurd rfl hc
theorem gidx2_at0 (sel : IVec S8000x3 32) (n : Fin 8000) : gidx2 sel (ix2 n (0 : Fin 2)) = wrapNeg 64#32 (bcol sel) (ix1 n) := by
  refine Eq.trans ?_ (toCol_at _ n)
  unfold gidx2
  refine concatenate_apply_piece _ _ _ _ 0 ?hk S8000x1 _ ?hxk ?hr 0 ?hpre (ix2 n (0 : Fin 1)) (fun c hc => ?hi) ?ha
  case hk => simp
  case hxk => rfl
  case hr => rfl
  case hpre => rfl
  case ha => rfl
  case hi =>
    match c with
    | ⟨0, _⟩ => rfl
    | ⟨1, _⟩ => exact absurd rfl hc
theorem gidx2_at1 (sel : IVec S8000x3 32) (n : Fin 8000) : gidx2 sel (ix2 n (1 : Fin 2)) = wrapNeg 8192#32 (boxcol sel) (ix1 n) := by
  refine Eq.trans ?_ (toCol_at _ n)
  unfold gidx2
  refine concatenate_apply_piece _ _ _ _ 1 ?hk S8000x1 _ ?hxk ?hr 1 ?hpre (ix2 n (0 : Fin 1)) (fun c hc => ?hi) ?ha
  case hk => simp
  case hxk => rfl
  case hr => rfl
  case hpre => rfl
  case ha => rfl
  case hi =>
    match c with
    | ⟨0, _⟩ => rfl
    | ⟨1, _⟩ => exact absurd rfl hc
theorem gidx3_at0 (sel : IVec S8000x3 32) (n : Fin 8000) : gidx3 sel (ix2 n (0 : Fin 3)) = wrapNeg 64#32 (bcol sel) (ix1 n) := by
  refine Eq.trans ?_ (toCol_at _ n)
  unfold gidx3
  refine concatenate_apply_piece _ _ _ _ 0 ?hk S8000x1 _ ?hxk ?hr 0 ?hpre (ix2 n (0 : Fin 1)) (fun c hc => ?hi) ?ha
  case hk => simp
  case hxk => rfl
  case hr => rfl
  case hpre => rfl
  case ha => rfl
  case hi =>
    match c with
    | ⟨0, _⟩ => rfl
    | ⟨1, _⟩ => exact absurd rfl hc
theorem gidx3_at1 (sel : IVec S8000x3 32) (n : Fin 8000) : gidx3 sel (ix2 n (1 : Fin 3)) = wrapNeg 8192#32 (boxcol sel) (ix1 n) := by
  refine Eq.trans ?_ (toCol_at _ n)
  unfold gidx3
  refine concatenate_apply_piece _ _ _ _ 1 ?hk S8000x1 _ ?hxk ?hr 1 ?hpre (ix2 n (0 : Fin 1)) (fun c hc => ?hi) ?ha
  case hk => simp
  case hxk => rfl
  case hr => rfl
  case hpre => rfl
  case ha => rfl
  case hi =>
    match c with
    | ⟨0, _⟩ => rfl
    | ⟨1, _⟩ => exact absurd rfl hc
theorem gidx3_at2 (sel : IVec S8000x3 32) (n : Fin 8000) : gidx3 sel (ix2 n (2 : Fin 3)) = wrapNeg 91#32 (labcol sel) (ix1 n) := by
  refine Eq.trans ?_ (toCol_at _ n)
  unfold gidx3
  refine concatenate_apply_piece _ _ _ _ 2 ?hk S8000x1 _ ?hxk ?hr 2 ?hpre (ix2 n (0 : Fin 1)) (fun c hc => ?hi) ?ha
  case hk => simp
  case hxk => rfl
  case hr => rfl
  case hpre => rfl
  case ha => rfl
  case hi =>
    match c with
    | ⟨0, _⟩ => rfl
    | ⟨1, _⟩ => exact absurd rfl hc
/-- A word that is not negative is left alone by the wrap. -/
theorem wrapNeg_of_nonneg (w : BitVec 32) (x : IVec S8000 32) (i : S8000.Idx) (h : 0 ≤ (x i).toInt) : wrapNeg w x i = x i := by
  show Scalar.select (IntOp.cmpi .slt (x i) 0#32) (IntOp.addi (x i) w) (x i) = x i
  have hc : IntOp.cmpi .slt (x i) 0#32 = 0#1 := by
    have hs : (x i).slt 0#32 = false := by
      rw [BitVec.slt, decide_eq_false_iff_not]
      simpa using h
    show BitVec.ofBool ((x i).slt 0#32) = 0#1
    rw [hs]; rfl
  rw [hc, select_zero]

theorem refRows_box (boxes : FVec F S64x8192x4 .f32) (scores : FVec F S64x8192x91 .f32) (sel : IVec S8000x3 32) (n : Fin 8000) (k : Fin 4) :
    refRows boxes scores sel (ix2 n (⟨k.val, by omega⟩ : Fin 6))
      = Host.gather gather_S64x8192x4_S8000x2_S8000x4_1_01_n_n_01_1_114 boxes (gidx2 sel) (ix2 n k) := by
  unfold refRows
  refine concatenate_apply_piece _ _ _ _ 0 ?hk S8000x4 _ ?hxk ?hr 0 ?hpre (ix2 n k) (fun c hc => ?hi) ?ha
  case hk => simp
  case hxk => rfl
  case hr => rfl
  case hpre => rfl
  case ha => exact Nat.zero_add _
  case hi =>
    match c with
    | ⟨0, _⟩ => rfl
    | ⟨1, _⟩ => exact absurd rfl hc
theorem refRows_score (boxes : FVec F S64x8192x4 .f32) (scores : FVec F S64x8192x91 .f32) (sel : IVec S8000x3 32) (n : Fin 8000) :
    refRows boxes scores sel (ix2 n (4 : Fin 6))
      = Host.gather gather_S64x8192x91_S8000x3_S8000_n_012_n_n_012_1_111 scores (gidx3 sel) (ix1 n) := by
  unfold refRows
  refine Eq.trans ?_ (bcastCol_at _ n)
  refine concatenate_apply_piece _ _ _ _ 1 ?hk S8000x1 _ ?hxk ?hr 4 ?hpre (ix2 n (0 : Fin 1)) (fun c hc => ?hi) ?ha
  case hk => simp
  case hxk => rfl
  case hr => rfl
  case hpre => rfl
  case ha => rfl
  case hi =>
    match c with
    | ⟨0, _⟩ => rfl
    | ⟨1, _⟩ => exact absurd rfl hc
theorem refRows_label (boxes : FVec F S64x8192x4 .f32) (scores : FVec F S64x8192x91 .f32) (sel : IVec S8000x3 32) (n : Fin 8000) :
    refRows boxes scores sel (ix2 n (5 : Fin 6)) = FloatOps.sitofp .f32 (labcol sel (ix1 n)) := by
  unfold refRows
  refine Eq.trans ?_ (congrArg (FloatOps.sitofp .f32) (toCol_at (labcol sel) n))
  refine concatenate_apply_piece _ _ _ _ 2 ?hk S8000x1 (sitofp .f32 (toCol (labcol sel)) : FVec F S8000x1 .f32) ?hxk ?hr 5 ?hpre
    (ix2 n (0 : Fin 1)) (fun c hc => ?hi) ?ha
  case hk => simp
  case hxk => rfl
  case hr => rfl
  case hpre => rfl
  case ha => rfl
  case hi =>
    match c with
    | ⟨0, _⟩ => rfl
    | ⟨1, _⟩ => exact absurd rfl hc

/-! ### A gather's operand index, axis by axis -/

/-- The start of the slice on an axis the start index map names, when the start word read signed is a number `v` that
    leaves room for the slice: no clamp binds, and the start is `v`. -/
theorem gather_start_of_inRange {s si t : Shape} (d : GatherDims s si t) {w : Nat} (j : t.Idx) (idx : IVec si w) (a : Fin s.rank)
    (ha : a ∈ d.startIndexMap) (q : si.Idx)
    (hq : d.siIdx j ⟨d.startIndexMap.idxOf a, List.idxOf_lt_length_iff.2 ha⟩ = q) (v : Nat) (hv : (idx q).toInt = (v : Int))
    (hle : v ≤ s.size a - d.sliceSizes a) : d.start j idx a = v := by
  unfold GatherDims.start
  rw [dif_pos ha, hq, hv, Int.toNat_natCast]
  exact Nat.min_eq_left hle

/-- On a collapsed axis that is not a batching axis the operand coordinate is the start alone: the start word, when
    it is in range. -/
theorem gather_operandIdx_collapsed {s si t : Shape} (d : GatherDims s si t) {w : Nat} (j : t.Idx) (idx : IVec si w) (a : Fin s.rank)
    (ha : a ∈ d.startIndexMap) (hc : a ∈ d.collapsedSliceDims) (hnb : a ∉ d.operandBatchingDims) (q : si.Idx)
    (hq : d.siIdx j ⟨d.startIndexMap.idxOf a, List.idxOf_lt_length_iff.2 ha⟩ = q) (v : Nat) (hv : (idx q).toInt = (v : Int))
    (hle : v ≤ s.size a - d.sliceSizes a) : (d.operandIdx j idx a).val = v := by
  show d.start j idx a + d.batchCoord j a + d.offCoord j a = v
  rw [gather_start_of_inRange d j idx a ha q hq v hv hle, d.batchCoord_eq_zero j a hnb,
    d.offCoord_eq_zero j a (fun h => ((d.mem_sKept a).1 h).1 hc)]
  rfl

/-- On an axis that is kept (neither collapsed nor batching) and that the start index map does not name, the operand
    coordinate is the result's coordinate on the offset axis in the same position. -/
theorem gather_operandIdx_offset {s si t : Shape} (d : GatherDims s si t) {w : Nat} (j : t.Idx) (idx : IVec si w) (a : Fin s.rank)
    (ha : a ∉ d.startIndexMap) (hnb : a ∉ d.operandBatchingDims) (hk : a ∈ d.sKept) :
    (d.operandIdx j idx a).val
      = (j (d.offsetDims[d.sKept.idxOf a]'(by rw [d.offset_length]; exact List.idxOf_lt_length_iff.2 hk))).val := by
  show d.start j idx a + d.batchCoord j a + d.offCoord j a = _
  have hs : d.start j idx a = 0 := by unfold GatherDims.start; exact dif_neg ha
  have ho : d.offCoord j a
      = (j (d.offsetDims[d.sKept.idxOf a]'(by rw [d.offset_length]; exact List.idxOf_lt_length_iff.2 hk))).val := by
    unfold GatherDims.offCoord; exact dif_pos hk
  rw [hs, d.batchCoord_eq_zero j a hnb, ho, Nat.zero_add]

/-- A gather of one box row whose two start words are the image b and the box x: no clamp binds. -/
theorem gather_boxes (boxes : FVec F S64x8192x4 .f32) (idx : IVec S8000x2 32) (n : Fin 8000) (k : Fin 4) (b : Fin 64) (x : Fin 8192)
    (hb : (idx (ix2 n (0 : Fin 2))).toInt = (b.val : Int)) (hx : (idx (ix2 n (1 : Fin 2))).toInt = (x.val : Int)) :
    Host.gather gather_S64x8192x4_S8000x2_S8000x4_1_01_n_n_01_1_114 boxes idx (ix2 n k) = boxes (ix3 b x k) := by
  unfold Host.gather
  refine congrArg boxes (funext fun a => Fin.ext ?_)
  match a with
  | ⟨0, _⟩ =>
    refine gather_operandIdx_collapsed gather_S64x8192x4_S8000x2_S8000x4_1_01_n_n_01_1_114 (ix2 n k) idx (0 : Fin 3) ?ha ?hc ?hnb (ix2 n (0 : Fin 2)) ?hq b.val hb ?hle
    case ha => show (0 : Fin 3) ∈ [0, 1]; decide
    case hc => show (0 : Fin 3) ∈ [0, 1]; decide
    case hnb => exact List.not_mem_nil
    case hq =>
      funext c; refine Fin.ext ?_
      match c with
      | ⟨0, _⟩ => rfl
      | ⟨1, _⟩ => rfl
    case hle =>
      show b.val ≤ 64 - 1
      have := b.isLt; omega
  | ⟨1, _⟩ =>
    refine gather_operandIdx_collapsed gather_S64x8192x4_S8000x2_S8000x4_1_01_n_n_01_1_114 (ix2 n k) idx (1 : Fin 3) ?ha ?hc ?hnb (ix2 n (1 : Fin 2)) ?hq x.val hx ?hle
    case ha => show (1 : Fin 3) ∈ [0, 1]; decide
    case hc => show (1 : Fin 3) ∈ [0, 1]; decide
    case hnb => exact List.not_mem_nil
    case hq =>
      funext c; refine Fin.ext ?_
      match c with
      | ⟨0, _⟩ => rfl
      | ⟨1, _⟩ => rfl
    case hle =>
      show x.val ≤ 8192 - 1
      have := x.isLt; omega
  | ⟨2, _⟩ =>
    refine (gather_operandIdx_offset gather_S64x8192x4_S8000x2_S8000x4_1_01_n_n_01_1_114 (ix2 n k) idx (2 : Fin 3) ?ha ?hnb ?hk).trans ?_
    case ha => show (2 : Fin 3) ∉ [0, 1]; decide
    case hnb => exact List.not_mem_nil
    case hk => exact (GatherDims.mem_sKept _ _).2 ⟨(show (2 : Fin 3) ∉ [0, 1] by decide), List.not_mem_nil⟩
    rfl
/-- A gather of one score whose three start words are the image b, the box x and the label l. -/
theorem gather_scores (scores : FVec F S64x8192x91 .f32) (idx : IVec S8000x3 32) (n : Fin 8000) (b : Fin 64) (x : Fin 8192) (l : Fin 91)
    (hb : (idx (ix2 n (0 : Fin 3))).toInt = (b.val : Int)) (hx : (idx (ix2 n (1 : Fin 3))).toInt = (x.val : Int))
    (hl : (idx (ix2 n (2 : Fin 3))).toInt = (l.val : Int)) :
    Host.gather gather_S64x8192x91_S8000x3_S8000_n_012_n_n_012_1_111 scores idx (ix1 n) = scores (ix3 b x l) := by
  unfold Host.gather
  refine congrArg scores (funext fun a => Fin.ext ?_)
  match a with
  | ⟨0, _⟩ =>
    refine gather_operandIdx_collapsed gather_S64x8192x91_S8000x3_S8000_n_012_n_n_012_1_111 (ix1 n) idx (0 : Fin 3) ?ha ?hc ?hnb (ix2 n (0 : Fin 3)) ?hq b.val hb ?hle
    case ha => show (0 : Fin 3) ∈ [0, 1, 2]; decide
    case hc => show (0 : Fin 3) ∈ [0, 1, 2]; decide
    case hnb => exact List.not_mem_nil
    case hq =>
      funext c; refine Fin.ext ?_
      match c with
      | ⟨0, _⟩ => rfl
      | ⟨1, _⟩ => rfl
    case hle =>
      show b.val ≤ 64 - 1
      have := b.isLt; omega
  | ⟨1, _⟩ =>
    refine gather_operandIdx_collapsed gather_S64x8192x91_S8000x3_S8000_n_012_n_n_012_1_111 (ix1 n) idx (1 : Fin 3) ?ha ?hc ?hnb (ix2 n (1 : Fin 3)) ?hq x.val hx ?hle
    case ha => show (1 : Fin 3) ∈ [0, 1, 2]; decide
    case hc => show (1 : Fin 3) ∈ [0, 1, 2]; decide
    case hnb => exact List.not_mem_nil
    case hq =>
      funext c; refine Fin.ext ?_
      match c with
      | ⟨0, _⟩ => rfl
      | ⟨1, _⟩ => rfl
    case hle =>
      show x.val ≤ 8192 - 1
      have := x.isLt; omega
  | ⟨2, _⟩ =>
    refine gather_operandIdx_collapsed gather_S64x8192x91_S8000x3_S8000_n_012_n_n_012_1_111 (ix1 n) idx (2 : Fin 3) ?ha ?hc ?hnb (ix2 n (2 : Fin 3)) ?hq l.val hl ?hle
    case ha => show (2 : Fin 3) ∈ [0, 1, 2]; decide
    case hc => show (2 : Fin 3) ∈ [0, 1, 2]; decide
    case hnb => exact List.not_mem_nil
    case hq =>
      funext c; refine Fin.ext ?_
      match c with
      | ⟨0, _⟩ => rfl
      | ⟨1, _⟩ => rfl
    case hle =>
      show l.val ≤ 91 - 1
      have := l.isLt; omega

theorem refBoxes_at (boxes : FVec F S64x8192x4 .f32) (scores : FVec F S64x8192x91 .f32) (sel : IVec S8000x3 32) (b : Fin 64) (r : Fin 300) (k : Fin 4) :
    refBoxes boxes scores sel (ix3 b r k) = refBatched boxes scores sel (ix3 b r (⟨k.val, by omega⟩ : Fin 6)) := by
  unfold refBoxes
  refine extractStridedSlice_apply _ _ _ _ (ix3 b r (⟨k.val, by omega⟩ : Fin 6)) fun a => ?_
  match a with
  | ⟨0, _⟩ => exact (Nat.zero_add _).symm
  | ⟨1, _⟩ => exact (Nat.zero_add _).symm
  | ⟨2, _⟩ => exact (Nat.zero_add _).symm
theorem refScores_at (boxes : FVec F S64x8192x4 .f32) (scores : FVec F S64x8192x91 .f32) (sel : IVec S8000x3 32) (b : Fin 64) (r : Fin 300) :
    refScores boxes scores sel (ix2 b r) = refBatched boxes scores sel (ix3 b r (4 : Fin 6)) := by
  unfold refScores
  refine (shapeCast_apply _ _ _ (ix3 b r (0 : Fin 1)) ?_).trans ?_
  · rw [Shape.rowMajor_val_three, Shape.rowMajor_val_two]
    show (b.val * 300 + r.val) * 1 + 0 = b.val * 300 + r.val
    omega
  · refine extractStridedSlice_apply _ _ _ _ (ix3 b r (4 : Fin 6)) fun a => ?_
    match a with
    | ⟨0, _⟩ => exact (Nat.zero_add _).symm
    | ⟨1, _⟩ => exact (Nat.zero_add _).symm
    | ⟨2, _⟩ => rfl
theorem refClasses_at (boxes : FVec F S64x8192x4 .f32) (scores : FVec F S64x8192x91 .f32) (sel : IVec S8000x3 32) (b : Fin 64) (r : Fin 300) :
    refClasses boxes scores sel (ix2 b r) = FloatOps.fptosi 32 (refBatched boxes scores sel (ix3 b r (5 : Fin 6))) := by
  unfold refClasses
  refine congrArg (FloatOps.fptosi 32) ?_
  refine (shapeCast_apply _ _ _ (ix3 b r (0 : Fin 1)) ?_).trans ?_
  · rw [Shape.rowMajor_val_three, Shape.rowMajor_val_two]
    show (b.val * 300 + r.val) * 1 + 0 = b.val * 300 + r.val
    omega
  · refine extractStridedSlice_apply _ _ _ _ (ix3 b r (5 : Fin 6)) fun a => ?_
    match a with
    | ⟨0, _⟩ => exact (Nat.zero_add _).symm
    | ⟨1, _⟩ => exact (Nat.zero_add _).symm
    | ⟨2, _⟩ => rfl

end Columns

section Flat
open Cert.KernelIdeal

theorem kerBoxes_at (boxes : FVec F S64x8192x4 .f32) (sel : IVec S8000x3 32) (b : Fin 64) (r : Fin 300) (k : Fin 4) :
    kerBoxes boxes sel (ix3 b r k) = outB (flatT sel) (validT sel) (boxesFlat boxes) (ix3 (slot b r) (0 : Fin 1) k) := by
  unfold kerBoxes
  refine shapeCast_apply _ _ _ _ ?_
  rw [Shape.rowMajor_val_three, Shape.rowMajor_val_three]
  show ((300 * b.val + r.val) * 1 + 0) * 4 + k.val = (b.val * 300 + r.val) * 4 + k.val
  omega
theorem kerScores_at (scores : FVec F S64x8192x91 .f32) (sel : IVec S8000x3 32) (b : Fin 64) (r : Fin 300) :
    kerScores scores sel (ix2 b r) = outS (flatT sel) (labT sel) (validT sel) (scoresFlat scores) (ix3 (slot b r) (0 : Fin 1) (0 : Fin 1)) := by
  unfold kerScores
  refine shapeCast_apply _ _ _ _ ?_
  rw [Shape.rowMajor_val_three, Shape.rowMajor_val_two]
  show ((300 * b.val + r.val) * 1 + 0) * 1 + 0 = b.val * 300 + r.val
  omega
theorem kerClasses_at (sel : IVec S8000x3 32) (b : Fin 64) (r : Fin 300) :
    kerClasses (F := F) sel (ix2 b r) = outC (F := F) (labT sel) (validT sel) (ix3 (slot b r) (0 : Fin 1) (0 : Fin 1)) := by
  unfold kerClasses
  refine shapeCast_apply _ _ _ _ ?_
  rw [Shape.rowMajor_val_three, Shape.rowMajor_val_two]
  show ((300 * b.val + r.val) * 1 + 0) * 1 + 0 = b.val * 300 + r.val
  omega
theorem labT_at (sel : IVec S8000x3 32) (b : Fin 64) (r : Fin 300) :
    labT sel (ix1 (slot b r)) = slotTable (labcol sel) sel (ix2 b r) := by
  unfold labT
  refine shapeCast_apply _ _ _ _ ?_
  rw [Shape.rowMajor_val_two, Shape.rowMajor_val_one]
  show b.val * 300 + r.val = 300 * b.val + r.val
  omega
theorem validT_at (sel : IVec S8000x3 32) (b : Fin 64) (r : Fin 300) :
    validT sel (ix1 (slot b r)) = slotTable (broadcastInDim S8000 ![] Facts₀.bcast_S_S8000 (constantI S_ 32 1#32)) sel (ix2 b r) := by
  unfold validT
  refine shapeCast_apply _ _ _ _ ?_
  rw [Shape.rowMajor_val_two, Shape.rowMajor_val_one]
  show b.val * 300 + r.val = 300 * b.val + r.val
  omega
theorem flatT_at (sel : IVec S8000x3 32) (b : Fin 64) (r : Fin 300) :
    flatT sel (ix1 (slot b r)) = BitVec.ofNat 32 b.val * 8192#32 + slotTable (boxcol sel) sel (ix2 b r) := by
  unfold flatT
  refine (shapeCast_apply _ _ _ (ix2 b r) ?_).trans ?_
  · rw [Shape.rowMajor_val_two, Shape.rowMajor_val_one]
    show b.val * 300 + r.val = 300 * b.val + r.val
    omega
  · rfl
theorem boxesFlat_at (boxes : FVec F S64x8192x4 .f32) (b : Fin 64) (x : Fin 8192) (k : Fin 4) :
    boxesFlat boxes (ix3 (frow b x) (0 : Fin 1) k) = boxes (ix3 b x k) := by
  unfold boxesFlat
  refine shapeCast_apply _ _ _ _ ?_
  rw [Shape.rowMajor_val_three, Shape.rowMajor_val_three]
  show (b.val * 8192 + x.val) * 4 + k.val = ((8192 * b.val + x.val) * 1 + 0) * 4 + k.val
  omega
theorem scoresFlat_at (scores : FVec F S64x8192x91 .f32) (b : Fin 64) (x : Fin 8192) (l : Fin 91) :
    scoresFlat scores (ix3 (frow b x) (0 : Fin 1) l) = scores (ix3 b x l) := by
  unfold scoresFlat
  refine shapeCast_apply _ _ _ _ ?_
  rw [Shape.rowMajor_val_three, Shape.rowMajor_val_three]
  show (b.val * 8192 + x.val) * 91 + l.val = ((8192 * b.val + x.val) * 1 + 0) * 91 + l.val
  omega

end Flat

end Cert.Reads

end
-- ==== Proof.Bridge.lean ====
/-
  The kernel's values are the reference's. Both scatter to the same slots in the same order, so a slot's last row n is the
  same for the reference's six-wide rows and for the kernel's three integer tables: the kernel's row number at the slot is
  image·8192 + box n, the row the reference gathered for n; its one-hot sum over the 91 scores of that row is the entry
  at label n; the label as a float converts back to the label; and a slot no row reached holds zeros on both sides.
-/
import proofs.«418819_j44744969290053_2_alg».proof.Proof.Spec
import proofs.«418819_j44744969290053_2_alg».proof.Proof.LibScatter
import proofs.«418819_j44744969290053_2_alg».proof.Proof.Slots
import proofs.«418819_j44744969290053_2_alg».proof.Proof.Reads
import Idealize.ShloMosaic.PureOps.Ideal.Laws
import Idealize.ShloMosaic.Lib.Pipeline.Value
import Idealize.ShloMosaic.Lib.ValueLayout

noncomputable section

namespace Cert.Bridge

open Idealize.ShloMosaic Idealize.ShloMosaic.ValueIdx Cert.Spec Cert.Reads

variable [hR : Cert.ReferenceIdeal.Facts] [hK : Cert.KernelIdeal.Facts]

/-! ## Words -/

section Words

/-- A 32-bit word whose signed reading lies in [0, k), k at most 2³¹, is that natural number. -/
theorem toNat_of_range (x : BitVec 32) (k : Nat) (hk : k ≤ 2147483648) (h0 : 0 ≤ x.toInt) (h1 : x.toInt < k) :
    x.toNat < k ∧ x.toInt = (x.toNat : Int) := by
  have e := BitVec.toInt_eq_toNat_cond x
  have := x.isLt
  omega

/-- The row number image·8192 + box does not wrap. -/
theorem flat_toNat (b : Fin 64) (w : BitVec 32) (hw : w.toNat < 8192) :
    (BitVec.ofNat 32 b.val * 8192#32 + w).toNat = 8192 * b.val + w.toNat := by
  have hb := b.isLt
  rw [BitVec.toNat_add, BitVec.toNat_mul, BitVec.toNat_ofNat]
  show ((b.val % 4294967296) * 8192 % 4294967296 + w.toNat) % 4294967296 = _
  omega

/-- So the table word of a slot hit by a row whose box is x names the flat row of (b, x). -/
theorem rowOf_flat (b : Fin 64) (x : Fin 8192) (w : BitVec 32) (hw : w.toNat = x.val) :
    rowOf (BitVec.ofNat 32 b.val * 8192#32 + w) = frow b x := by
  refine Fin.ext ?_
  show (BitVec.ofNat 32 b.val * 8192#32 + w).toNat % 524288 = 8192 * b.val + x.val
  rw [flat_toNat b w (by have := x.isLt; omega), hw]
  have := b.isLt; have := x.isLt
  omega

/-- A label as a float converts back to the label: the float is an exact integer inside the 32-bit range. -/
theorem fptosi_sitofp (x : BitVec 32) : FloatOps.fptosi 32 (FloatOps.sitofp .f32 x : Ideal .f32) = x := by
  show Ideal.fptosi 32 (((x.toInt : ℝ) : EReal)) = x
  unfold Ideal.fptosi
  rw [Ideal.toIntClamped_coe]
  have h1 := BitVec.le_toInt x
  have h2 := BitVec.toInt_lt (x := x)
  simp only [Int.floor_intCast, Int.ceil_intCast, ite_self]
  rw [min_eq_right (by norm_num at h1 h2 ⊢; omega), max_eq_right (by norm_num at h1 h2 ⊢; omega)]
  exact BitVec.ofInt_toInt

/-- The zero float converts to the zero word. -/
theorem fptosi_zero : FloatOps.fptosi 32 (Ideal.ofBits .f32 0x00000000#32 : Ideal .f32) = 0#32 := by
  rw [Ideal.ofBits_zero_f32]
  show Ideal.fptosi 32 (((0 : ℝ) : EReal)) = 0#32
  rw [Ideal.fptosi, Ideal.toIntClamped_coe]
  norm_num

/-- A compare-equal bit widened and converted is 1 where the words agree and 0 where they do not. -/
theorem onehot_factor (x lab : BitVec 32) :
    (FloatOps.sitofp .f32 ((IntOp.cmpi .eq x lab).setWidth 32) : Ideal .f32) = if x = lab then 1 else 0 := by
  show (((((BitVec.ofBool (x == lab)).setWidth 32).toInt : ℝ)) : EReal) = _
  by_cases h : x = lab
  · subst h
    rw [if_pos rfl, beq_self_eq_true, show ((BitVec.ofBool true).setWidth 32).toInt = 1 from by decide]
    norm_num
  · rw [if_neg h, beq_eq_false_iff_ne.mpr h]
    norm_num

end Words

/-! ## The body's stored values at an index -/

section Payloads
open Cert.KernelIdeal Cert.KernelIdeal.Gen

theorem sgt_one : Scalar.cmpi .sgt 1#32 0#32 = 1#1 := by decide
theorem sgt_zero : Scalar.cmpi .sgt 0#32 0#32 = 0#1 := by decide

/-- A hit slot's box payload is the loaded row. -/
theorem pay1_hit (v5 : Vec Ideal S1x1x4 .f32) (k : Fin 4) :
    k0_pay1 (F := Ideal) 1#32 v5 (ix3 (0 : Fin 1) (0 : Fin 1) k) = v5 (ix3 (0 : Fin 1) (0 : Fin 1) k) := by
  simp only [k0_pay1]
  rw [sgt_one, select_one, shapeCast_self]

/-- A slot no row reached stores the zero float. -/
theorem pay1_miss (v5 : Vec Ideal S1x1x4 .f32) (k : Fin 4) :
    k0_pay1 (F := Ideal) 0#32 v5 (ix3 (0 : Fin 1) (0 : Fin 1) k) = Ideal.ofBits .f32 0x00000000#32 := by
  simp only [k0_pay1]
  rw [sgt_zero, select_zero]
  rfl

theorem pay2_miss (lab : BitVec 32) (v7 : Vec Ideal S1x1x91 .f32) :
    k0_pay2 (F := Ideal) 0#32 lab v7 (ix3 (0 : Fin 1) (0 : Fin 1) (0 : Fin 1)) = Ideal.ofBits .f32 0x00000000#32 := by
  simp only [k0_pay2]
  rw [sgt_zero, select_zero]
  rfl

theorem pay3_hit (lab : BitVec 32) :
    k0_pay3 (F := Ideal) 1#32 lab (ix3 (0 : Fin 1) (0 : Fin 1) (0 : Fin 1)) = lab := by
  simp only [k0_pay3]
  rw [sgt_one, select_one]
  rfl

theorem pay3_miss (lab : BitVec 32) :
    k0_pay3 (F := Ideal) 0#32 lab (ix3 (0 : Fin 1) (0 : Fin 1) (0 : Fin 1)) = 0#32 := by
  simp only [k0_pay3]
  rw [sgt_zero, select_zero]
  rfl

/-- A hit slot's score payload: the lane sum of the 91 scores of the row against the one-hot of the label is the
    score at the label. -/
theorem pay2_hit (lab : BitVec 32) (v7 : Vec Ideal S1x1x91 .f32) (l : Fin 91) (hl : lab.toNat = l.val) :
    k0_pay2 (F := Ideal) 1#32 lab v7 (ix3 (0 : Fin 1) (0 : Fin 1) (0 : Fin 1)) = v7 (ix3 (0 : Fin 1) (0 : Fin 1) l) := by
  simp only [k0_pay2]
  rw [sgt_one, select_one, shapeCast_self, shapeCast_ab_1ab_apply]
  refine (Ideal.multiReduction_add_single (s := S1x1x91) (t := S1x1) _ _ reduces_S1x1x91_S1x1 _ _ (ix2 (0 : Fin 1) (0 : Fin 1))).trans ?_
  have hterm : ∀ c : Fin 91,
      mulf (F := Ideal) (φ := .f32) v7 (sitofp .f32 (extui 32 (cmpi .eq (iota .tc S1x1x91 32 [2] iota_S1x1x91_d2_w32) (broadcast S1x1x91 lab)) natLt_1_32))
        (reduces_S1x1x91_S1x1.lift (ix2 (0 : Fin 1) (0 : Fin 1)) c)
      = v7 (ix3 (0 : Fin 1) (0 : Fin 1) c) * (if c = l then 1 else 0) := by
    intro c
    have hidx : reduces_S1x1x91_S1x1.lift (ix2 (0 : Fin 1) (0 : Fin 1)) c = ix3 (0 : Fin 1) (0 : Fin 1) c := by
      funext a
      refine Fin.ext ?_
      match a with
      | ⟨0, _⟩ => rfl
      | ⟨1, _⟩ => rfl
      | ⟨2, _⟩ => rfl
    rw [hidx]
    show v7 (ix3 (0 : Fin 1) (0 : Fin 1) c)
      * FloatOps.sitofp (F := Ideal) .f32 ((IntOp.cmpi .eq (iota .tc S1x1x91 32 [2] iota_S1x1x91_d2_w32 (ix3 (0 : Fin 1) (0 : Fin 1) c)) lab).setWidth 32) = _
    rw [iota_single_apply, onehot_factor]
    congr 1
    have hc := c.isLt
    refine if_congr ⟨fun h => Fin.ext ?_, fun h => BitVec.eq_of_toNat_eq ?_⟩ rfl rfl
    · have := congrArg BitVec.toNat h
      rw [BitVec.toNat_ofNat] at this
      show c.val = l.val
      have e : (ix3 (0 : Fin 1) (0 : Fin 1) c (2 : Fin 3)).val = c.val := rfl
      rw [e] at this
      omega
    · rw [BitVec.toNat_ofNat, h]
      show l.val % 2 ^ 32 = lab.toNat
      have := l.isLt
      omega
  refine (Finset.sum_eq_single (l : Fin 91) (fun c _ hc => ?_) (fun h => absurd (Finset.mem_univ _) h)).trans ?_
  · rw [hterm c, if_neg hc, mul_zero]
  · rw [hterm l, if_pos rfl, mul_one]

end Payloads

/-! ## One slot: no row, or its last row -/

section Slot
open Cert.KernelIdeal Cert.KernelIdeal.Facts₀

/-- Slot (b, r): either no row lands there — every integer table holds 0 and the reference's array its zero — or there is
    a last row n, whose first index word reads b, and the tables hold row n's entries, the reference's array row n. -/
theorem slot_split (sel : IVec S8000x3 32) (b : Fin 64) (r : Fin 300) :
    ((∀ u : IVec S8000 32, slotTable u sel (ix2 b r) = 0#32)
      ∧ ∀ (boxes : FVec Ideal S64x8192x4 .f32) (scores : FVec Ideal S64x8192x91 .f32) (k : Fin 6),
          refBatched (F := Ideal) boxes scores sel (ix3 b r k) = Ideal.ofBits .f32 0x00000000#32)
    ∨ ∃ n : Fin 8000, (sidx sel (ix2 n (0 : Fin 2))).toInt = (b.val : Int)
      ∧ (∀ u : IVec S8000 32, slotTable u sel (ix2 b r) = u (ix1 n))
      ∧ ∀ (boxes : FVec Ideal S64x8192x4 .f32) (scores : FVec Ideal S64x8192x91 .f32) (k : Fin 6),
          refBatched (F := Ideal) boxes scores sel (ix3 b r k) = refRows boxes scores sel (ix2 n k) := by
  rcases Cert.Slots.slot_cases (sidx sel) b r with ⟨hK', hR'⟩ | ⟨n, h0, _, hK', hR'⟩
  · exact Or.inl ⟨fun u => hK' _ u, fun boxes scores k => hR' _ _ k⟩
  · exact Or.inr ⟨n, h0, fun u => hK' _ u, fun boxes scores k => hR' _ _ k⟩

/-- A box index in range is a box number: the word's natural and signed readings. -/
theorem box_fin (sel : IVec S8000x3 32) (hb : BoxOk sel) (n : Fin 8000) :
    ∃ x : Fin 8192, (boxcol sel (ix1 n)).toNat = x.val ∧ (boxcol sel (ix1 n)).toInt = (x.val : Int)
      ∧ 0 ≤ (boxcol sel (ix1 n)).toInt := by
  obtain ⟨h0, h1⟩ := hb (ix1 n)
  obtain ⟨hlt, he⟩ := toNat_of_range _ 8192 (by norm_num) h0 (by exact_mod_cast h1)
  exact ⟨⟨_, hlt⟩, rfl, he, h0⟩

/-- A label in range is a class number. -/
theorem lab_fin (sel : IVec S8000x3 32) (hl : LabOk sel) (n : Fin 8000) :
    ∃ l : Fin 91, (labcol sel (ix1 n)).toNat = l.val ∧ (labcol sel (ix1 n)).toInt = (l.val : Int)
      ∧ 0 ≤ (labcol sel (ix1 n)).toInt := by
  obtain ⟨h0, h1⟩ := hl (ix1 n)
  obtain ⟨hlt, he⟩ := toNat_of_range _ 91 (by norm_num) h0 (by exact_mod_cast h1)
  exact ⟨⟨_, hlt⟩, rfl, he, h0⟩

/-- The region's three outputs at flat slot t: the payloads of the slot's table words. -/
theorem outB_at (flat valid : IVec S19200 32) (bf : FVec Ideal S524288x1x4 .f32) (t : Fin 19200) (k : Fin 4) :
    outB flat valid bf (ix3 t (0 : Fin 1) k)
      = Gen.k0_pay1 (valid (ix1 t)) (fun y => bf (ix3 (rowOf (flat (ix1 t))) (y 1) (y 2))) (ix3 (0 : Fin 1) (0 : Fin 1) k) := rfl
theorem outS_at (flat lab valid : IVec S19200 32) (sf : FVec Ideal S524288x1x91 .f32) (t : Fin 19200) :
    outS flat lab valid sf (ix3 t (0 : Fin 1) (0 : Fin 1))
      = Gen.k0_pay2 (valid (ix1 t)) (lab (ix1 t)) (fun y => sf (ix3 (rowOf (flat (ix1 t))) (y 1) (y 2))) (ix3 (0 : Fin 1) (0 : Fin 1) (0 : Fin 1)) := rfl
theorem outC_at (lab valid : IVec S19200 32) (t : Fin 19200) :
    outC (F := Ideal) lab valid (ix3 t (0 : Fin 1) (0 : Fin 1))
      = Gen.k0_pay3 (F := Ideal) (valid (ix1 t)) (lab (ix1 t)) (ix3 (0 : Fin 1) (0 : Fin 1) (0 : Fin 1)) := rfl

/-- The hit mark's update list holds 1 at every row. -/
theorem ones_apply (n : Fin 8000) : (broadcastInDim S8000 ![] bcast_S_S8000 (constantI S_ 32 1#32) : IVec S8000 32) (ix1 n) = 1#32 := rfl

end Slot

/-! ## The four statements -/

/-- With every box index in range, every word of the kernel's first table is a row number of the flattened inputs. -/
theorem flat_lt (sel : IVec Cert.ReferenceIdeal.S8000x3 32) (hb : BoxOk sel) :
    ∀ i : Cert.KernelIdeal.S19200.Idx, (flatT sel i).toNat < 524288 := by
  intro i
  obtain ⟨t, rfl⟩ : ∃ t : Fin 19200, i = ix1 t := ⟨i 0, eq_ix1 i⟩
  obtain ⟨b, r, rfl⟩ : ∃ (b : Fin 64) (r : Fin 300), t = slot b r :=
    ⟨⟨t.val / 300, by have := t.isLt; omega⟩, ⟨t.val % 300, Nat.mod_lt _ (by decide)⟩, Fin.ext (by
      show t.val = 300 * (t.val / 300) + t.val % 300
      omega)⟩
  rw [flatT_at]
  have hbl := b.isLt
  rcases slot_split sel b r with ⟨hK', _⟩ | ⟨n, _, hK', _⟩
  · rw [hK', flat_toNat b 0#32 (by decide)]
    show 8192 * b.val + 0 < 524288
    omega
  · obtain ⟨x, hx, _, _⟩ := box_fin sel hb n
    rw [hK', flat_toNat b _ (by rw [hx]; exact x.isLt), hx]
    have := x.isLt
    omega

theorem boxes_eq (boxes : FVec Ideal Cert.ReferenceIdeal.S64x8192x4 .f32) (scores : FVec Ideal Cert.ReferenceIdeal.S64x8192x91 .f32)
    (sel : IVec Cert.ReferenceIdeal.S8000x3 32) (hb : BoxOk sel) :
    kerBoxes (F := Ideal) boxes sel = refBoxes (F := Ideal) boxes scores sel := by
  funext j
  obtain ⟨b, r, k, rfl⟩ : ∃ (b : Fin 64) (r : Fin 300) (k : Fin 4), j = ix3 b r k := ⟨j 0, j 1, j 2, eq_ix3 j⟩
  rw [kerBoxes_at, refBoxes_at, outB_at, validT_at, flatT_at]
  rcases slot_split sel b r with ⟨hK', hR'⟩ | ⟨n, h0, hK', hR'⟩
  · rw [hK', hR', pay1_miss]
  · obtain ⟨x, hx, hxi, hx0⟩ := box_fin sel hb n
    rw [hK', hK', hR', ones_apply, pay1_hit, rowOf_flat b x _ hx, refRows_box]
    refine (boxesFlat_at boxes b x k).trans (Eq.symm ?_)
    refine gather_boxes boxes (gidx2 sel) n k b x ?_ ?_
    · rw [gidx2_at0, ← sidx_at0]; exact h0
    · rw [gidx2_at1, wrapNeg_of_nonneg _ _ _ hx0]; exact hxi

theorem scores_eq (boxes : FVec Ideal Cert.ReferenceIdeal.S64x8192x4 .f32) (scores : FVec Ideal Cert.ReferenceIdeal.S64x8192x91 .f32)
    (sel : IVec Cert.ReferenceIdeal.S8000x3 32) (hb : BoxOk sel) (hl : LabOk sel) :
    kerScores (F := Ideal) scores sel = refScores (F := Ideal) boxes scores sel := by
  funext j
  obtain ⟨b, r, rfl⟩ : ∃ (b : Fin 64) (r : Fin 300), j = ix2 b r := ⟨j 0, j 1, eq_ix2 j⟩
  rw [kerScores_at, refScores_at, outS_at, validT_at, flatT_at, labT_at]
  rcases slot_split sel b r with ⟨hK', hR'⟩ | ⟨n, h0, hK', hR'⟩
  · rw [hK', hR', pay2_miss]
  · obtain ⟨x, hx, hxi, hx0⟩ := box_fin sel hb n
    obtain ⟨l, hlv, hli, hl0⟩ := lab_fin sel hl n
    rw [hK', hK', hK', hR', ones_apply, pay2_hit _ _ l hlv, rowOf_flat b x _ hx, refRows_score]
    refine (scoresFlat_at scores b x l).trans (Eq.symm ?_)
    refine gather_scores scores (gidx3 sel) n b x l ?_ ?_ ?_
    · rw [gidx3_at0, ← sidx_at0]; exact h0
    · rw [gidx3_at1, wrapNeg_of_nonneg _ _ _ hx0]; exact hxi
    · rw [gidx3_at2, wrapNeg_of_nonneg _ _ _ hl0]; exact hli

theorem classes_eq (boxes : FVec Ideal Cert.ReferenceIdeal.S64x8192x4 .f32) (scores : FVec Ideal Cert.ReferenceIdeal.S64x8192x91 .f32)
    (sel : IVec Cert.ReferenceIdeal.S8000x3 32) :
    kerClasses (F := Ideal) sel = refClasses (F := Ideal) boxes scores sel := by
  funext j
  obtain ⟨b, r, rfl⟩ : ∃ (b : Fin 64) (r : Fin 300), j = ix2 b r := ⟨j 0, j 1, eq_ix2 j⟩
  rw [kerClasses_at, refClasses_at, outC_at, validT_at, labT_at]
  rcases slot_split sel b r with ⟨hK', hR'⟩ | ⟨n, h0, hK', hR'⟩
  · rw [hK', hK', hR', pay3_miss, fptosi_zero]
  · rw [hK', hK', hR', ones_apply, pay3_hit, refRows_label, fptosi_sitofp]

end Cert.Bridge

end
-- ==== Proof.KIOkOfPre.lean ====
/-
  The tables' side condition from the box range: the first table's word at every slot is a row number of the flattened
  inputs, so the one-row block the two index maps name lies inside its array; a row of f32 words is whole words.
-/
import proofs.«418819_j44744969290053_2_alg».proof.Proof.KITables
import proofs.«418819_j44744969290053_2_alg».proof.Proof.Bridge

noncomputable section

namespace Cert.KernelIdeal.OkOfPre

open Idealize.ShloMosaic Idealize.ShloMosaic.TcCoe Idealize.SL.Sem
open Cert.KernelIdeal Cert.KernelIdeal.Gen Cert.KernelIdeal.GenP

variable [hR : Cert.ReferenceIdeal.Facts] [hK : Cert.KernelIdeal.Facts] [hP : Cert.KernelIdeal.Facts]
variable {F : FTy → Type} [FloatOps F]

theorem ok_of_boxOk (m : (ℓ : Loc nD τ sig) → Buf (Elt F) ℓ)
    (hb : Cert.Spec.BoxOk (m (((0 : Dev nD) : Thread nD τ).loc main_arg2))) : GenP.Ok m := by
  -- the first table's word at any slot, read unsigned, is a row number of the flattened inputs
  have hl : ∀ x : S19200.Idx, (GenP.tbl m 0 x).toNat < 524288 := fun x => by
    rw [Tables.tbl0 m]; exact Cert.Bridge.flat_lt _ hb x
  refine ⟨fun i => ?_, fun i => ?_⟩
  · -- window 0: the block of one row, at row w, of the [524288, 1, 4] array
    obtain ⟨w, hw, e⟩ : ∃ w : BitVec 32, w.toNat < 524288
        ∧ cc0_transform_0 k0_off1_inb numel1_S1 (GenP.tbl m) i = ![w.toNat, 0, 0] := ⟨_, hl _, rfl⟩
    refine ⟨fun a => ?_, Or.inl rfl⟩
    rw [e]
    fin_cases a <;> simp [S1x1x4, S524288x1x4] <;> omega
  · -- window 1: the same row of the [524288, 1, 91] array
    obtain ⟨w, hw, e⟩ : ∃ w : BitVec 32, w.toNat < 524288
        ∧ cc0_transform_1 k0_off1_inb numel1_S1 (GenP.tbl m) i = ![w.toNat, 0, 0] := ⟨_, hl _, rfl⟩
    refine ⟨fun a => ?_, Or.inl rfl⟩
    rw [e]
    fin_cases a <;> simp [S1x1x91, S524288x1x91] <;> omega

end Cert.KernelIdeal.OkOfPre

end
-- ==== Proof.KTables.lean ====
/-
  What the region finds in its first prefetched table when it is entered, at the word level: the specification's flattened
  table of row numbers, a function of the selection argument alone: the host operations before the region, composed.

  The operations are taken in two stretches. The first ends at each row's clamped rank; it leaves the columns of the
  selection and that rank. The second builds the slot list (the two columns (image, rank) side by side), scatters the box
  over it, adds each image's offset, and flattens; it is read over what the first left.
-/
import proofs.«418819_j44744969290053_2_alg».proof.Proof.KFrame
import proofs.«418819_j44744969290053_2_alg».proof.Proof.Spec
import Idealize.ShloMosaic.Lib.StableHlo.Run

noncomputable section

namespace Cert.Kernel.Tables

open Idealize.ShloMosaic Idealize.ShloMosaic.TcCoe Idealize.SL.Sem
open Cert.Kernel Cert.Kernel.Gen Cert.Kernel.GenP
open Idealize.ShloMosaic.StableHlo

variable [hR : Cert.ReferenceIdeal.Facts] [hK : Cert.KernelIdeal.Facts] [hP : Cert.Kernel.Facts]
variable {F : FTy → Type} [FloatOps F]
variable (m : (ℓ : Loc nD τ sig) → Buf (Elt F) ℓ)

/-! ## Two columns side by side -/

/-- Two [8000, 1] columns side by side: the [8000, 2] list whose row n is (a n, b n). -/
def cat2 {α : Type} (a b : S8000x1.Idx → α) : S8000x2.Idx → α :=
  concatenate S8000x2 1 [⟨S8000x1, a⟩, ⟨S8000x1, b⟩] concatenates_S8000x1_S8000x1_S8000x2_d1
/-- The concatenate of two columns along axis 1, whatever the proof of its side condition, is that list: as a function
    of the two columns alone, each of them can be rewritten in place. -/
theorem cat2_fold {α : Type} (a b : S8000x1.Idx → α) (h : Shape.Concatenates [S8000x1, S8000x1] S8000x2 1) :
    concatenate S8000x2 1 [⟨S8000x1, a⟩, ⟨S8000x1, b⟩] h = cat2 a b := rfl

/-- The buffers after a line of operations, read at one of them: each operation's result at its own buffer is its
    function's value, at any other buffer what was there; a concatenate of two columns is `cat2` of them. -/
local macro "results" : tactic =>
  `(tactic| simp (disch := decide) only [after_cons, after_nil, cat2_fold,
      nullary_result', unary_result', binary_result', ternary_result', reshape_result',
      nullary_result_ne', unary_result_ne', binary_result_ne', ternary_result_ne', reshape_result_ne'])

/-! ## The first stretch: the columns and the clamped rank -/

/-- The buffers after the host operations up to each row's clamped rank (everything before the slot lists). -/
def W (c : Dev nD) : Valuation τ sig (Elt F) :=
  after (List.flatten [hostOps0, hostOps0_1, hostOps0_2, hostOps0_3, hostOps0_4, hostOps0_5]) (fun b => m (c, b))

/-- The region is entered after the second stretch run over the first. -/
theorem V0_eq (c : Dev nD) : GenP.V0 m c = after hostOps0_6 (W m c) := by
  show after (List.flatten ([hostOps0, hostOps0_1, hostOps0_2, hostOps0_3, hostOps0_4, hostOps0_5] ++ [hostOps0_6])) _ = _
  rw [List.flatten_append, after_append]
  simp only [List.flatten_cons, List.flatten_nil, List.append_nil]
  rfl

/-- Column 0 of the selection: the image. -/
theorem W_v1 (c : Dev nD) : W m c (Proc.devRef .tc main_v1) = Cert.Spec.bcol (m ((c : Thread nD τ).loc main_arg2)) := by
  unfold W
  simp only [hostOps0, hostOps0_1, hostOps0_2, hostOps0_3, hostOps0_4, hostOps0_5, List.flatten_cons, List.flatten_nil, List.append_nil, List.cons_append, List.nil_append]
  results
  rfl
/-- Column 2: the box. -/
theorem W_v5 (c : Dev nD) : W m c (Proc.devRef .tc main_v5) = Cert.Spec.boxcol (m ((c : Thread nD τ).loc main_arg2)) := by
  unfold W
  simp only [hostOps0, hostOps0_1, hostOps0_2, hostOps0_3, hostOps0_4, hostOps0_5, List.flatten_cons, List.flatten_nil, List.append_nil, List.cons_append, List.nil_append]
  results
  rfl

set_option maxHeartbeats 1000000 in
/-- Each row's rank inside its image, clamped at 300: the running count of the one-hot image columns, read back at the
    row's own image, minus one (the three callees' operations stand in line; a typed reference's transport of contents
    is the identity). -/
theorem W_v21 (c : Dev nD) : W m c (Proc.devRef .tc main_v21) = Cert.Spec.rankc (m ((c : Thread nD τ).loc main_arg2)) := by
  unfold W
  simp only [hostOps0, hostOps0_1, hostOps0_2, hostOps0_3, hostOps0_4, hostOps0_5, List.flatten_cons, List.flatten_nil, List.append_nil, List.cons_append, List.nil_append]
  results
  simp only [TRef.ofBuf, TRef.toBuf, cast_eq]
  rfl

/-! ## The second stretch: the slot list, the scatter of the boxes, the flattening -/

set_option maxHeartbeats 1000000 in
theorem tbl0 : GenP.tbl m 0 = Cert.Spec.flatT (m (((0 : Dev nD) : Thread nD τ).loc main_arg2)) := by
  unfold GenP.tbl
  show GenP.V0 m 0 (Proc.devRef .tc main_v72) = _
  rw [V0_eq]
  simp only [hostOps0_6]
  results
  rw [W_v1, W_v21, W_v5]
  rfl

end Cert.Kernel.Tables

end
-- ==== Proof.KOkOfPre.lean ====
/-
  The tables' side condition from the box range: the first table's word at every slot is a row number of the flattened
  inputs, so the one-row block the two index maps name lies inside its array; a row of f32 words is whole words.
-/
import proofs.«418819_j44744969290053_2_alg».proof.Proof.KTables
import proofs.«418819_j44744969290053_2_alg».proof.Proof.Bridge

noncomputable section

namespace Cert.Kernel.OkOfPre

open Idealize.ShloMosaic Idealize.ShloMosaic.TcCoe Idealize.SL.Sem
open Cert.Kernel Cert.Kernel.Gen Cert.Kernel.GenP

variable [hR : Cert.ReferenceIdeal.Facts] [hK : Cert.KernelIdeal.Facts] [hP : Cert.Kernel.Facts]
variable {F : FTy → Type} [FloatOps F]

theorem ok_of_boxOk (m : (ℓ : Loc nD τ sig) → Buf (Elt F) ℓ)
    (hb : Cert.Spec.BoxOk (m (((0 : Dev nD) : Thread nD τ).loc main_arg2))) : GenP.Ok m := by
  -- the first table's word at any slot, read unsigned, is a row number of the flattened inputs
  have hl : ∀ x : S19200.Idx, (GenP.tbl m 0 x).toNat < 524288 := fun x => by
    rw [Tables.tbl0 m]; exact Cert.Bridge.flat_lt _ hb x
  refine ⟨fun i => ?_, fun i => ?_⟩
  · -- window 0: the block of one row, at row w, of the [524288, 1, 4] array
    obtain ⟨w, hw, e⟩ : ∃ w : BitVec 32, w.toNat < 524288
        ∧ cc0_transform_0 k0_off1_inb numel1_S1 (GenP.tbl m) i = ![w.toNat, 0, 0] := ⟨_, hl _, rfl⟩
    refine ⟨fun a => ?_, Or.inl rfl⟩
    rw [e]
    fin_cases a <;> simp [S1x1x4, S524288x1x4] <;> omega
  · -- window 1: the same row of the [524288, 1, 91] array
    obtain ⟨w, hw, e⟩ : ∃ w : BitVec 32, w.toNat < 524288
        ∧ cc0_transform_1 k0_off1_inb numel1_S1 (GenP.tbl m) i = ![w.toNat, 0, 0] := ⟨_, hl _, rfl⟩
    refine ⟨fun a => ?_, Or.inl rfl⟩
    rw [e]
    fin_cases a <;> simp [S1x1x91, S524288x1x91] <;> omega

end Cert.Kernel.OkOfPre

end
-- ==== Proof.PreDecode.lean ====
/-
  The precondition read back: it is the conjunction of four `all`s over the inputs, each a reduction by `and` that
  comes out 1 only if every element compared true. The last two say, of every row of the selection table, that its label
  is at least 0 and below 91 and its box at least 0 and below 8192, as signed words.
-/
import proofs.«418819_j44744969290053_2_alg».proof.Pre_finite_inputs
import proofs.«418819_j44744969290053_2_alg».proof.Proof.Spec
import Idealize.ShloMosaic.Lib.ReduceAll
import Idealize.ShloMosaic.Lib.ValueIdx

noncomputable section

namespace Cert.PreDecode

open Idealize.ShloMosaic

variable [hR : Cert.ReferenceIdeal.Facts] [hK : Cert.KernelIdeal.Facts] [hPre : Cert.Pre_finite_inputs.Facts]
variable {F : FTy → Type} [FloatOps F]

/-- The scalar shape has one index. -/
instance : Subsingleton Cert.Pre_finite_inputs.S_.Idx := ⟨fun a b => funext fun d => d.elim0⟩

/-- A signed word that compares `≥ 0` and `< n` lies in `[0, n)`. -/
theorem range_of_cmp (w : BitVec 32) (n : BitVec 32) (h0 : IntOp.cmpi .sge w 0#32 = 1#1) (hn : IntOp.cmpi .slt w n = 1#1) :
    0 ≤ w.toInt ∧ w.toInt < n.toInt := by
  unfold IntOp.cmpi at h0 hn
  have ob : ∀ b : Bool, BitVec.ofBool b = 1#1 → b = true := by intro b; cases b <;> decide
  have h0' := ob _ h0
  have hn' := ob _ hn
  simp only [BitVec.slt, BitVec.sle, decide_eq_true_eq] at h0' hn'
  exact ⟨by simpa using h0', hn'⟩

theorem decode (a0 : FVec F Cert.Pre_finite_inputs.S64x8192x4 .f32) (a1 : FVec F Cert.Pre_finite_inputs.S64x8192x91 .f32)
    (sel : IVec Cert.Pre_finite_inputs.S8000x3 32)
    (h : Cert.Pre_finite_inputs.fn (F := F) a0 a1 sel = fun _ => 1#1) : Cert.Spec.BoxOk sel ∧ Cert.Spec.LabOk sel := by
  have e := congrFun h ValueIdx.ix0
  unfold Cert.Pre_finite_inputs.fn Cert.Pre_finite_inputs.fn_part1 at e
  dsimp only at e
  -- the outer conjunction: (finite boxes ∧ finite scores ∧ labels in range) ∧ boxes in range
  obtain ⟨e12, ebox⟩ := IntOp.andi_eq_one.1 (show IntOp.andi _ _ = 1#1 from e)
  obtain ⟨-, elbl⟩ := IntOp.andi_eq_one.1 (show IntOp.andi _ _ = 1#1 from e12)
  have h8192 : (8192#32 : BitVec 32).toInt = 8192 := by decide
  have h91 : (91#32 : BitVec 32).toInt = 91 := by decide
  refine ⟨fun n => ?_, fun n => ?_⟩
  · -- row n of the box column compared true twice
    have hn := Host.reduce_andi_all _ _ _ _ _ ebox n
    obtain ⟨h0, h1⟩ := IntOp.andi_eq_one.1 (show IntOp.andi _ _ = 1#1 from hn)
    have := range_of_cmp (Cert.Spec.boxcol sel n) 8192#32 h0 h1
    rw [h8192] at this; exact this
  · have hn := Host.reduce_andi_all _ _ _ _ _ elbl n
    obtain ⟨h0, h1⟩ := IntOp.andi_eq_one.1 (show IntOp.andi _ _ = 1#1 from hn)
    have := range_of_cmp (Cert.Spec.labcol sel n) 91#32 h0 h1
    rw [h91] at this; exact this

end Cert.PreDecode

end
-- ==== Proof.RefRun.lean ====
/-
  The reference's run: @main of the reference is a straight line of host operations (its outlined functions run at
  their calls), so every weakly fair execution ends with each result buffer at the value the operations compose,
  which is the specification's function of the three argument arrays.

  The line has 131 operations: @main's own 103 and, at their calls, @cumsum's 3 (through @cumsum_0), @take_along_axis's
  22 and @_where's 3, each callee's operations over the buffers of its call. It is taken in six consecutive stretches.
  What a stretch leaves in a buffer is read off its own operations alone, over any contents before it; the buffers
  a later stretch reads are carried forward as equations in the specification's terms (the three columns of the
  selection table, the index lists, the gathered rows, the running count read back, the rank, the slot list, the
  scattered array), so the specification's definitions are met one at a time, each against the few operations that
  compute it.
-/
import proofs.«418819_j44744969290053_2_alg».proof.Proof.Spec
import Idealize.ShloMosaic.Lib.StableHlo.Run
import Idealize.ShloMosaic.Lib.Pipeline.Frame

noncomputable section

namespace Cert.ReferenceIdeal.RefRun

open Idealize.ShloMosaic Idealize.ShloMosaic.TcCoe Idealize.SL.Sem
open Cert.ReferenceIdeal

variable [hR : Cert.ReferenceIdeal.Facts] [hK : Cert.KernelIdeal.Facts]
variable {F : FTy → Type} [FloatOps F]

section Line

open Idealize.ShloMosaic.StableHlo Cert.ReferenceIdeal.Facts₀

/-! ## The operations

@main's operations in order, its three calls replaced by their callees' operations over each call's buffer
record. The list is cut into six consecutive stretches. -/

/-- The operand buffers of the three calls, typed as the callees take them. -/
abbrev t46 : TRef sig ⟨S8000x64, .i32⟩ := .of main_v46
abbrev t47 : TRef sig ⟨S8000x64, .i32⟩ := .of main_v47
abbrev t48 : TRef sig ⟨S8000x1, .i32⟩ := .of main_v48
abbrev t58 : TRef sig ⟨S8000, .i1⟩ := .of main_v58
abbrev t52 : TRef sig ⟨S8000, .i32⟩ := .of main_v52
abbrev tc11 : TRef sig ⟨S_, .i32⟩ := .of main_c_11

/-- The three columns of the selection table, and the first gather's two index columns (%0 … %17). -/
abbrev opsA : List (HloOp τ sig (Elt F)) :=
  [ StableHlo.unary main_arg2 main_v0 ((extractStridedSlice S8000x1 ![0, 0] · slices_S8000x3_S8000x1_0_0) : (⟨S8000x3, .i32⟩ : BufTy).Contents (Elt F) → (⟨S8000x1, .i32⟩ : BufTy).Contents (Elt F)),
    StableHlo.reshape main_v0 main_v1 rfl shapeCasts_S8000x1_S8000,
    StableHlo.unary main_arg2 main_v2 ((extractStridedSlice S8000x1 ![0, 1] · slices_S8000x3_S8000x1_0_1) : (⟨S8000x3, .i32⟩ : BufTy).Contents (Elt F) → (⟨S8000x1, .i32⟩ : BufTy).Contents (Elt F)),
    StableHlo.reshape main_v2 main_v3 rfl shapeCasts_S8000x1_S8000,
    StableHlo.unary main_arg2 main_v4 ((extractStridedSlice S8000x1 ![0, 2] · slices_S8000x3_S8000x1_0_2) : (⟨S8000x3, .i32⟩ : BufTy).Contents (Elt F) → (⟨S8000x1, .i32⟩ : BufTy).Contents (Elt F)),
    StableHlo.reshape main_v4 main_v5 rfl shapeCasts_S8000x1_S8000,
    StableHlo.nullary main_c (constantI S_ 32 0#32),
    StableHlo.unary main_c main_v6 (broadcastInDim S8000 ![] bcast_S_S8000 : (⟨S_, .i32⟩ : BufTy).Contents (Elt F) → (⟨S8000, .i32⟩ : BufTy).Contents (Elt F)),
    StableHlo.binary main_v1 main_v6 main_v7 (cmpi .slt : (⟨S8000, .i32⟩ : BufTy).Contents (Elt F) → (⟨S8000, .i32⟩ : BufTy).Contents (Elt F) → (⟨S8000, .i1⟩ : BufTy).Contents (Elt F)),
    StableHlo.nullary main_c_0 (constantI S_ 32 64#32),
    StableHlo.unary main_c_0 main_v8 (broadcastInDim S8000 ![] bcast_S_S8000 : (⟨S_, .i32⟩ : BufTy).Contents (Elt F) → (⟨S8000, .i32⟩ : BufTy).Contents (Elt F)),
    StableHlo.binary main_v1 main_v8 main_v9 (addi : (⟨S8000, .i32⟩ : BufTy).Contents (Elt F) → (⟨S8000, .i32⟩ : BufTy).Contents (Elt F) → (⟨S8000, .i32⟩ : BufTy).Contents (Elt F)),
    StableHlo.ternary main_v7 main_v9 main_v1 main_v10 (select : (⟨S8000, .i1⟩ : BufTy).Contents (Elt F) → (⟨S8000, .i32⟩ : BufTy).Contents (Elt F) → (⟨S8000, .i32⟩ : BufTy).Contents (Elt F) → (⟨S8000, .i32⟩ : BufTy).Contents (Elt F)),
    StableHlo.nullary main_c_1 (constantI S_ 32 0#32),
    StableHlo.unary main_c_1 main_v11 (broadcastInDim S8000 ![] bcast_S_S8000 : (⟨S_, .i32⟩ : BufTy).Contents (Elt F) → (⟨S8000, .i32⟩ : BufTy).Contents (Elt F)),
    StableHlo.binary main_v5 main_v11 main_v12 (cmpi .slt : (⟨S8000, .i32⟩ : BufTy).Contents (Elt F) → (⟨S8000, .i32⟩ : BufTy).Contents (Elt F) → (⟨S8000, .i1⟩ : BufTy).Contents (Elt F)),
    StableHlo.nullary main_c_2 (constantI S_ 32 8192#32),
    StableHlo.unary main_c_2 main_v13 (broadcastInDim S8000 ![] bcast_S_S8000 : (⟨S_, .i32⟩ : BufTy).Contents (Elt F) → (⟨S8000, .i32⟩ : BufTy).Contents (Elt F)),
    StableHlo.binary main_v5 main_v13 main_v14 (addi : (⟨S8000, .i32⟩ : BufTy).Contents (Elt F) → (⟨S8000, .i32⟩ : BufTy).Contents (Elt F) → (⟨S8000, .i32⟩ : BufTy).Contents (Elt F)),
    StableHlo.ternary main_v12 main_v14 main_v5 main_v15 (select : (⟨S8000, .i1⟩ : BufTy).Contents (Elt F) → (⟨S8000, .i32⟩ : BufTy).Contents (Elt F) → (⟨S8000, .i32⟩ : BufTy).Contents (Elt F) → (⟨S8000, .i32⟩ : BufTy).Contents (Elt F)),
    StableHlo.unary main_v10 main_v16 (broadcastInDim S8000x1 ![0] bcast_S8000_S8000x1_0 : (⟨S8000, .i32⟩ : BufTy).Contents (Elt F) → (⟨S8000x1, .i32⟩ : BufTy).Contents (Elt F)),
    StableHlo.unary main_v15 main_v17 (broadcastInDim S8000x1 ![0] bcast_S8000_S8000x1_0 : (⟨S8000, .i32⟩ : BufTy).Contents (Elt F) → (⟨S8000x1, .i32⟩ : BufTy).Contents (Elt F)) ]

/-- The (image, box) index list and the gather of the boxes; the three index columns of the second gather (%18 … %37). -/
abbrev opsB : List (HloOp τ sig (Elt F)) :=
  [ StableHlo.binary main_v16 main_v17 main_v18 ((fun a b => concatenate S8000x2 1 [⟨S8000x1, a⟩, ⟨S8000x1, b⟩] concatenates_S8000x1_S8000x1_S8000x2_d1) : (⟨S8000x1, .i32⟩ : BufTy).Contents (Elt F) → (⟨S8000x1, .i32⟩ : BufTy).Contents (Elt F) → (⟨S8000x2, .i32⟩ : BufTy).Contents (Elt F)),
    StableHlo.binary main_arg0 main_v18 main_v19 ((fun x i => Host.gather gather_S64x8192x4_S8000x2_S8000x4_1_01_n_n_01_1_114 x i) : (⟨S64x8192x4, .f32⟩ : BufTy).Contents (Elt F) → (⟨S8000x2, .i32⟩ : BufTy).Contents (Elt F) → (⟨S8000x4, .f32⟩ : BufTy).Contents (Elt F)),
    StableHlo.nullary main_c_3 (constantI S_ 32 0#32),
    StableHlo.unary main_c_3 main_v20 (broadcastInDim S8000 ![] bcast_S_S8000 : (⟨S_, .i32⟩ : BufTy).Contents (Elt F) → (⟨S8000, .i32⟩ : BufTy).Contents (Elt F)),
    StableHlo.binary main_v1 main_v20 main_v21 (cmpi .slt : (⟨S8000, .i32⟩ : BufTy).Contents (Elt F) → (⟨S8000, .i32⟩ : BufTy).Contents (Elt F) → (⟨S8000, .i1⟩ : BufTy).Contents (Elt F)),
    StableHlo.nullary main_c_4 (constantI S_ 32 64#32),
    StableHlo.unary main_c_4 main_v22 (broadcastInDim S8000 ![] bcast_S_S8000 : (⟨S_, .i32⟩ : BufTy).Contents (Elt F) → (⟨S8000, .i32⟩ : BufTy).Contents (Elt F)),
    StableHlo.binary main_v1 main_v22 main_v23 (addi : (⟨S8000, .i32⟩ : BufTy).Contents (Elt F) → (⟨S8000, .i32⟩ : BufTy).Contents (Elt F) → (⟨S8000, .i32⟩ : BufTy).Contents (Elt F)),
    StableHlo.ternary main_v21 main_v23 main_v1 main_v24 (select : (⟨S8000, .i1⟩ : BufTy).Contents (Elt F) → (⟨S8000, .i32⟩ : BufTy).Contents (Elt F) → (⟨S8000, .i32⟩ : BufTy).Contents (Elt F) → (⟨S8000, .i32⟩ : BufTy).Contents (Elt F)),
    StableHlo.nullary main_c_5 (constantI S_ 32 0#32),
    StableHlo.unary main_c_5 main_v25 (broadcastInDim S8000 ![] bcast_S_S8000 : (⟨S_, .i32⟩ : BufTy).Contents (Elt F) → (⟨S8000, .i32⟩ : BufTy).Contents (Elt F)),
    StableHlo.binary main_v5 main_v25 main_v26 (cmpi .slt : (⟨S8000, .i32⟩ : BufTy).Contents (Elt F) → (⟨S8000, .i32⟩ : BufTy).Contents (Elt F) → (⟨S8000, .i1⟩ : BufTy).Contents (Elt F)),
    StableHlo.nullary main_c_6 (constantI S_ 32 8192#32),
    StableHlo.unary main_c_6 main_v27 (broadcastInDim S8000 ![] bcast_S_S8000 : (⟨S_, .i32⟩ : BufTy).Contents (Elt F) → (⟨S8000, .i32⟩ : BufTy).Contents (Elt F)),
    StableHlo.binary main_v5 main_v27 main_v28 (addi : (⟨S8000, .i32⟩ : BufTy).Contents (Elt F) → (⟨S8000, .i32⟩ : BufTy).Contents (Elt F) → (⟨S8000, .i32⟩ : BufTy).Contents (Elt F)),
    StableHlo.ternary main_v26 main_v28 main_v5 main_v29 (select : (⟨S8000, .i1⟩ : BufTy).Contents (Elt F) → (⟨S8000, .i32⟩ : BufTy).Contents (Elt F) → (⟨S8000, .i32⟩ : BufTy).Contents (Elt F) → (⟨S8000, .i32⟩ : BufTy).Contents (Elt F)),
    StableHlo.nullary main_c_7 (constantI S_ 32 0#32),
    StableHlo.unary main_c_7 main_v30 (broadcastInDim S8000 ![] bcast_S_S8000 : (⟨S_, .i32⟩ : BufTy).Contents (Elt F) → (⟨S8000, .i32⟩ : BufTy).Contents (Elt F)),
    StableHlo.binary main_v3 main_v30 main_v31 (cmpi .slt : (⟨S8000, .i32⟩ : BufTy).Contents (Elt F) → (⟨S8000, .i32⟩ : BufTy).Contents (Elt F) → (⟨S8000, .i1⟩ : BufTy).Contents (Elt F)),
    StableHlo.nullary main_c_8 (constantI S_ 32 91#32),
    StableHlo.unary main_c_8 main_v32 (broadcastInDim S8000 ![] bcast_S_S8000 : (⟨S_, .i32⟩ : BufTy).Contents (Elt F) → (⟨S8000, .i32⟩ : BufTy).Contents (Elt F)),
    StableHlo.binary main_v3 main_v32 main_v33 (addi : (⟨S8000, .i32⟩ : BufTy).Contents (Elt F) → (⟨S8000, .i32⟩ : BufTy).Contents (Elt F) → (⟨S8000, .i32⟩ : BufTy).Contents (Elt F)),
    StableHlo.ternary main_v31 main_v33 main_v3 main_v34 (select : (⟨S8000, .i1⟩ : BufTy).Contents (Elt F) → (⟨S8000, .i32⟩ : BufTy).Contents (Elt F) → (⟨S8000, .i32⟩ : BufTy).Contents (Elt F) → (⟨S8000, .i32⟩ : BufTy).Contents (Elt F)),
    StableHlo.unary main_v24 main_v35 (broadcastInDim S8000x1 ![0] bcast_S8000_S8000x1_0 : (⟨S8000, .i32⟩ : BufTy).Contents (Elt F) → (⟨S8000x1, .i32⟩ : BufTy).Contents (Elt F)),
    StableHlo.unary main_v29 main_v36 (broadcastInDim S8000x1 ![0] bcast_S8000_S8000x1_0 : (⟨S8000, .i32⟩ : BufTy).Contents (Elt F) → (⟨S8000x1, .i32⟩ : BufTy).Contents (Elt F)),
    StableHlo.unary main_v34 main_v37 (broadcastInDim S8000x1 ![0] bcast_S8000_S8000x1_0 : (⟨S8000, .i32⟩ : BufTy).Contents (Elt F) → (⟨S8000x1, .i32⟩ : BufTy).Contents (Elt F)) ]

/-- The (image, box, label) index list and the gather of the scores; the one-hot of the images, its running count (@cumsum) and the count read back at each row's own image (@take_along_axis) (%38 … %49). -/
abbrev opsC : List (HloOp τ sig (Elt F)) :=
  [ StableHlo.nary ![main_v35, main_v36, main_v37] main_v38 (fun u => concatenate S8000x3 1 [⟨S8000x1, u 0⟩, ⟨S8000x1, u 1⟩, ⟨S8000x1, u 2⟩] concatenates_S8000x1_S8000x1_S8000x1_S8000x3_d1),
    StableHlo.binary main_arg1 main_v38 main_v39 ((fun x i => Host.gather gather_S64x8192x91_S8000x3_S8000_n_012_n_n_012_1_111 x i) : (⟨S64x8192x91, .f32⟩ : BufTy).Contents (Elt F) → (⟨S8000x3, .i32⟩ : BufTy).Contents (Elt F) → (⟨S8000, .f32⟩ : BufTy).Contents (Elt F)),
    StableHlo.unary main_v1 main_v40 (broadcastInDim S8000x1 ![0] bcast_S8000_S8000x1_0 : (⟨S8000, .i32⟩ : BufTy).Contents (Elt F) → (⟨S8000x1, .i32⟩ : BufTy).Contents (Elt F)),
    StableHlo.nullary main_v41 (iotaInDim S64 32 0),
    StableHlo.unary main_v41 main_v42 (broadcastInDim S1x64 ![1] bcast_S64_S1x64_1 : (⟨S64, .i32⟩ : BufTy).Contents (Elt F) → (⟨S1x64, .i32⟩ : BufTy).Contents (Elt F)),
    StableHlo.unary main_v40 main_v43 (broadcastInDim S8000x64 ![0, 1] bcast_S8000x1_S8000x64_0_1 : (⟨S8000x1, .i32⟩ : BufTy).Contents (Elt F) → (⟨S8000x64, .i32⟩ : BufTy).Contents (Elt F)),
    StableHlo.unary main_v42 main_v44 (broadcastInDim S8000x64 ![0, 1] bcast_S1x64_S8000x64_0_1 : (⟨S1x64, .i32⟩ : BufTy).Contents (Elt F) → (⟨S8000x64, .i32⟩ : BufTy).Contents (Elt F)),
    StableHlo.binary main_v43 main_v44 main_v45 (cmpi .eq : (⟨S8000x64, .i32⟩ : BufTy).Contents (Elt F) → (⟨S8000x64, .i32⟩ : BufTy).Contents (Elt F) → (⟨S8000x64, .i1⟩ : BufTy).Contents (Elt F)),
    StableHlo.unary main_v45 main_v46 ((extui 32 · natLt_1_32) : (⟨S8000x64, .i1⟩ : BufTy).Contents (Elt F) → (⟨S8000x64, .i32⟩ : BufTy).Contents (Elt F)),
    StableHlo.TRef.nullary main_call0.call0.c (constantI S_ 32 0#32),
    StableHlo.TRef.unary main_call0.call0.c main_call0.call0.v0 (broadcastInDim S_ ![] bcast_S_S_),
    StableHlo.TRef.binary t46 main_call0.call0.v0 main_call0.call0.v1 (fun x v => Host.reduceWindow IntOp.addi ![8000, 1] ![1, 1] ![7999, 0] ![0, 0] x v reduceWindows_S8000x64_S8000x64_w8000s1p7999_0_w1s1p0_0 h_S_),
    StableHlo.unary main_v1 main_v48 (broadcastInDim S8000x1 ![0] bcast_S8000_S8000x1_0 : (⟨S8000, .i32⟩ : BufTy).Contents (Elt F) → (⟨S8000x1, .i32⟩ : BufTy).Contents (Elt F)),
    StableHlo.TRef.nullary main_call1.c (constantI S_ 32 0#32),
    StableHlo.TRef.unary main_call1.c main_call1.v0 (broadcastInDim S8000x1 ![] bcast_S_S8000x1),
    StableHlo.TRef.binary t48 main_call1.v0 main_call1.v1 (cmpi .slt),
    StableHlo.TRef.nullary main_call1.c_0 (constantI S_ 32 64#32),
    StableHlo.TRef.unary main_call1.c_0 main_call1.v2 (broadcastInDim S8000x1 ![] bcast_S_S8000x1),
    StableHlo.TRef.binary t48 main_call1.v2 main_call1.v3 addi,
    StableHlo.TRef.ternary main_call1.v1 main_call1.v3 t48 main_call1.v4 select,
    StableHlo.TRef.reshape main_call1.v4 main_call1.v5 rfl shapeCasts_S8000x1_S8000x1x1,
    StableHlo.TRef.nullary main_call1.c_1 (constantI S1 32 63#32),
    StableHlo.TRef.nullary main_call1.c_2 (constantI S_ 32 0#32),
    StableHlo.TRef.unary main_call1.c_2 main_call1.v6 (broadcastInDim S8000x1x1 ![] bcast_S_S8000x1x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S8000x1x1 ![0, 1, 2] bcast_S1x1x1_S8000x1x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S8000x1x1_S8000x1_d2 h_S_),
    StableHlo.TRef.binary t47 main_call1.v5 main_call1.v13 (fun x i => Host.gather gather_S8000x64_S8000x1x1_S8000x1_n_1_0_0_1_2_11 x i),
    StableHlo.TRef.nullary main_call1.c_4 (constantI S_ 32 2147483648#32),
    StableHlo.TRef.unary main_call1.c_4 main_call1.v14 (broadcastInDim S8000x1 ![] bcast_S_S8000x1),
    StableHlo.TRef.ternary main_call1.v12 main_call1.v13 main_call1.v14 main_call1.v15 select ]

/-- The ranks, the six-wide rows, the ranks clamped to 300 (@_where), the zero array and the two slot columns (%50 … %72). -/
abbrev opsD : List (HloOp τ sig (Elt F)) :=
  [ StableHlo.reshape main_v49 main_v50 rfl shapeCasts_S8000x1_S8000,
    StableHlo.nullary main_c_9 (constantI S_ 32 1#32),
    StableHlo.unary main_c_9 main_v51 (broadcastInDim S8000 ![] bcast_S_S8000 : (⟨S_, .i32⟩ : BufTy).Contents (Elt F) → (⟨S8000, .i32⟩ : BufTy).Contents (Elt F)),
    StableHlo.binary main_v50 main_v51 main_v52 (subi : (⟨S8000, .i32⟩ : BufTy).Contents (Elt F) → (⟨S8000, .i32⟩ : BufTy).Contents (Elt F) → (⟨S8000, .i32⟩ : BufTy).Contents (Elt F)),
    StableHlo.unary main_v39 main_v53 (broadcastInDim S8000x1 ![0] bcast_S8000_S8000x1_0 : (⟨S8000, .f32⟩ : BufTy).Contents (Elt F) → (⟨S8000x1, .f32⟩ : BufTy).Contents (Elt F)),
    StableHlo.unary main_v3 main_v54 (broadcastInDim S8000x1 ![0] bcast_S8000_S8000x1_0 : (⟨S8000, .i32⟩ : BufTy).Contents (Elt F) → (⟨S8000x1, .i32⟩ : BufTy).Contents (Elt F)),
    StableHlo.unary main_v54 main_v55 (sitofp .f32 : (⟨S8000x1, .i32⟩ : BufTy).Contents (Elt F) → (⟨S8000x1, .f32⟩ : BufTy).Contents (Elt F)),
    StableHlo.nary ![main_v19, main_v53, main_v55] main_v56 (fun u => concatenate S8000x6 1 [⟨S8000x4, u 0⟩, ⟨S8000x1, u 1⟩, ⟨S8000x1, u 2⟩] concatenates_S8000x4_S8000x1_S8000x1_S8000x6_d1),
    StableHlo.nullary main_c_10 (constantI S_ 32 300#32),
    StableHlo.unary main_c_10 main_v57 (broadcastInDim S8000 ![] bcast_S_S8000 : (⟨S_, .i32⟩ : BufTy).Contents (Elt F) → (⟨S8000, .i32⟩ : BufTy).Contents (Elt F)),
    StableHlo.binary main_v52 main_v57 main_v58 (cmpi .slt : (⟨S8000, .i32⟩ : BufTy).Contents (Elt F) → (⟨S8000, .i32⟩ : BufTy).Contents (Elt F) → (⟨S8000, .i1⟩ : BufTy).Contents (Elt F)),
    StableHlo.nullary main_c_11 (constantI S_ 32 300#32),
    StableHlo.TRef.unary tc11 main_call2.v0 id,
    StableHlo.TRef.unary main_call2.v0 main_call2.v1 (broadcastInDim S8000 ![] bcast_S_S8000),
    StableHlo.TRef.ternary t58 t52 main_call2.v1 main_call2.v2 select,
    StableHlo.nullary main_cst (constant S_ .f32 0x00000000#32),
    StableHlo.unary main_cst main_v60 (broadcastInDim S64x300x6 ![] bcast_S_S64x300x6 : (⟨S_, .f32⟩ : BufTy).Contents (Elt F) → (⟨S64x300x6, .f32⟩ : BufTy).Contents (Elt F)),
    StableHlo.nullary main_c_12 (constantI S_ 32 0#32),
    StableHlo.unary main_c_12 main_v61 (broadcastInDim S8000 ![] bcast_S_S8000 : (⟨S_, .i32⟩ : BufTy).Contents (Elt F) → (⟨S8000, .i32⟩ : BufTy).Contents (Elt F)),
    StableHlo.binary main_v1 main_v61 main_v62 (cmpi .slt : (⟨S8000, .i32⟩ : BufTy).Contents (Elt F) → (⟨S8000, .i32⟩ : BufTy).Contents (Elt F) → (⟨S8000, .i1⟩ : BufTy).Contents (Elt F)),
    StableHlo.nullary main_c_13 (constantI S_ 32 64#32),
    StableHlo.unary main_c_13 main_v63 (broadcastInDim S8000 ![] bcast_S_S8000 : (⟨S_, .i32⟩ : BufTy).Contents (Elt F) → (⟨S8000, .i32⟩ : BufTy).Contents (Elt F)),
    StableHlo.binary main_v1 main_v63 main_v64 (addi : (⟨S8000, .i32⟩ : BufTy).Contents (Elt F) → (⟨S8000, .i32⟩ : BufTy).Contents (Elt F) → (⟨S8000, .i32⟩ : BufTy).Contents (Elt F)),
    StableHlo.ternary main_v62 main_v64 main_v1 main_v65 (select : (⟨S8000, .i1⟩ : BufTy).Contents (Elt F) → (⟨S8000, .i32⟩ : BufTy).Contents (Elt F) → (⟨S8000, .i32⟩ : BufTy).Contents (Elt F) → (⟨S8000, .i32⟩ : BufTy).Contents (Elt F)),
    StableHlo.nullary main_c_14 (constantI S_ 32 0#32),
    StableHlo.unary main_c_14 main_v66 (broadcastInDim S8000 ![] bcast_S_S8000 : (⟨S_, .i32⟩ : BufTy).Contents (Elt F) → (⟨S8000, .i32⟩ : BufTy).Contents (Elt F)),
    StableHlo.binary main_v59 main_v66 main_v67 (cmpi .slt : (⟨S8000, .i32⟩ : BufTy).Contents (Elt F) → (⟨S8000, .i32⟩ : BufTy).Contents (Elt F) → (⟨S8000, .i1⟩ : BufTy).Contents (Elt F)),
    StableHlo.nullary main_c_15 (constantI S_ 32 300#32),
    StableHlo.unary main_c_15 main_v68 (broadcastInDim S8000 ![] bcast_S_S8000 : (⟨S_, .i32⟩ : BufTy).Contents (Elt F) → (⟨S8000, .i32⟩ : BufTy).Contents (Elt F)),
    StableHlo.binary main_v59 main_v68 main_v69 (addi : (⟨S8000, .i32⟩ : BufTy).Contents (Elt F) → (⟨S8000, .i32⟩ : BufTy).Contents (Elt F) → (⟨S8000, .i32⟩ : BufTy).Contents (Elt F)),
    StableHlo.ternary main_v67 main_v69 main_v59 main_v70 (select : (⟨S8000, .i1⟩ : BufTy).Contents (Elt F) → (⟨S8000, .i32⟩ : BufTy).Contents (Elt F) → (⟨S8000, .i32⟩ : BufTy).Contents (Elt F) → (⟨S8000, .i32⟩ : BufTy).Contents (Elt F)),
    StableHlo.unary main_v65 main_v71 (broadcastInDim S8000x1 ![0] bcast_S8000_S8000x1_0 : (⟨S8000, .i32⟩ : BufTy).Contents (Elt F) → (⟨S8000x1, .i32⟩ : BufTy).Contents (Elt F)),
    StableHlo.unary main_v70 main_v72 (broadcastInDim S8000x1 ![0] bcast_S8000_S8000x1_0 : (⟨S8000, .i32⟩ : BufTy).Contents (Elt F) → (⟨S8000x1, .i32⟩ : BufTy).Contents (Elt F)) ]

/-- The slot list, the scatter of the rows, and the per-image count (%73 … %78). -/
abbrev opsE : List (HloOp τ sig (Elt F)) :=
  [ StableHlo.binary main_v71 main_v72 main_v73 ((fun a b => concatenate S8000x2 1 [⟨S8000x1, a⟩, ⟨S8000x1, b⟩] concatenates_S8000x1_S8000x1_S8000x2_d1) : (⟨S8000x1, .i32⟩ : BufTy).Contents (Elt F) → (⟨S8000x1, .i32⟩ : BufTy).Contents (Elt F) → (⟨S8000x2, .i32⟩ : BufTy).Contents (Elt F)),
    StableHlo.ternary main_v60 main_v73 main_v56 main_v74 ((fun x i u => Host.scatter scatter_S64x300x6_S8000x2_S8000x6_1_01_01_1 (fun _ b => b) x i u) : (⟨S64x300x6, .f32⟩ : BufTy).Contents (Elt F) → (⟨S8000x2, .i32⟩ : BufTy).Contents (Elt F) → (⟨S8000x6, .f32⟩ : BufTy).Contents (Elt F) → (⟨S64x300x6, .f32⟩ : BufTy).Contents (Elt F)),
    StableHlo.nullary main_c_16 (constantI S_ 32 1#32),
    StableHlo.unary main_c_16 main_v75 (broadcastInDim S8000 ![] bcast_S_S8000 : (⟨S_, .i32⟩ : BufTy).Contents (Elt F) → (⟨S8000, .i32⟩ : BufTy).Contents (Elt F)),
    StableHlo.nullary main_c_17 (constantI S_ 32 0#32),
    StableHlo.unary main_c_17 main_v76 (broadcastInDim S64 ![] bcast_S_S64 : (⟨S_, .i32⟩ : BufTy).Contents (Elt F) → (⟨S64, .i32⟩ : BufTy).Contents (Elt F)),
    StableHlo.unary main_v1 main_v77 (broadcastInDim S8000x1 ![0] bcast_S8000_S8000x1_0 : (⟨S8000, .i32⟩ : BufTy).Contents (Elt F) → (⟨S8000x1, .i32⟩ : BufTy).Contents (Elt F)),
    StableHlo.ternary main_v76 main_v77 main_v75 main_v78 ((fun x i u => Host.scatter scatter_S64_S8000x1_S8000_n_0_0_1 IntOp.addi x i u) : (⟨S64, .i32⟩ : BufTy).Contents (Elt F) → (⟨S8000x1, .i32⟩ : BufTy).Contents (Elt F) → (⟨S8000, .i32⟩ : BufTy).Contents (Elt F) → (⟨S64, .i32⟩ : BufTy).Contents (Elt F)) ]

/-- The slices of the scattered array, the label's conversion back to an integer, and the count as a column (%79 … %85). -/
abbrev opsG : List (HloOp τ sig (Elt F)) :=
  [ StableHlo.unary main_v74 main_v79 ((extractStridedSlice S64x300x4 ![0, 0, 0] · slices_S64x300x6_S64x300x4_0_0_0) : (⟨S64x300x6, .f32⟩ : BufTy).Contents (Elt F) → (⟨S64x300x4, .f32⟩ : BufTy).Contents (Elt F)),
    StableHlo.unary main_v74 main_v80 ((extractStridedSlice S64x300x1 ![0, 0, 4] · slices_S64x300x6_S64x300x1_0_0_4) : (⟨S64x300x6, .f32⟩ : BufTy).Contents (Elt F) → (⟨S64x300x1, .f32⟩ : BufTy).Contents (Elt F)),
    StableHlo.reshape main_v80 main_v81 rfl shapeCasts_S64x300x1_S64x300,
    StableHlo.unary main_v74 main_v82 ((extractStridedSlice S64x300x1 ![0, 0, 5] · slices_S64x300x6_S64x300x1_0_0_5) : (⟨S64x300x6, .f32⟩ : BufTy).Contents (Elt F) → (⟨S64x300x1, .f32⟩ : BufTy).Contents (Elt F)),
    StableHlo.reshape main_v82 main_v83 rfl shapeCasts_S64x300x1_S64x300,
    StableHlo.unary main_v83 main_v84 (fptosi 32 : (⟨S64x300, .f32⟩ : BufTy).Contents (Elt F) → (⟨S64x300, .i32⟩ : BufTy).Contents (Elt F)),
    StableHlo.unary main_v78 main_v85 (broadcastInDim S64x1 ![0] bcast_S64_S64x1_0 : (⟨S64, .i32⟩ : BufTy).Contents (Elt F) → (⟨S64x1, .i32⟩ : BufTy).Contents (Elt F)) ]

/-- @main_part0's operations, @main_part1's, and all of @main's. -/
abbrev ops0 : List (HloOp τ sig (Elt F)) := opsA ++ opsB ++ opsC
abbrev ops1 : List (HloOp τ sig (Elt F)) := opsD ++ opsE ++ opsG
abbrev ops : List (HloOp τ sig (Elt F)) := ops0 ++ ops1

/-! ## @main is that straight line -/

/-- The first window: the two callees' bodies unfolded at their calls, sequencing reassociated. -/
theorem part0_eq (c : Dev nD) : main_part0 (F := F) c = seq ops0 := by
  simp only [main_part0, fn_cumsum.body, fn_cumsum_0.body, fn_take_along_axis.body, seq_append, seq, bind_assoc, pure_bind]

/-- The second window. -/
theorem part1_eq (c : Dev nD) : main_part1 (F := F) c = seq ops1 := by
  simp only [main_part1, fn_where.body, seq_append, seq, bind_assoc, pure_bind]

/-- @main runs the two windows in order. -/
theorem main_eq (c : Dev nD) : main (F := F) c = seq ops := by
  rw [show (ops : List (HloOp τ sig (Elt F))) = ops0 ++ ops1 from rfl, seq_append, ← part0_eq c, ← part1_eq c]
  rfl

/-! ## What the run asks of the operations -/

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

theorem A_sub : (opsA : List (HloOp τ sig (Elt F))).Forall fun op => op.bufs ⊆ tcRefs τ sig :=
  ⟨unary_bufs_sub .., reshape_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub ..⟩
theorem A_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl⟩

theorem B_sub : (opsB : List (HloOp τ sig (Elt F))).Forall fun op => op.bufs ⊆ tcRefs τ sig :=
  ⟨binary_bufs_sub .., binary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., unary_bufs_sub ..⟩
theorem B_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl⟩

theorem C_sub : (opsC : List (HloOp τ sig (Elt F))).Forall fun op => op.bufs ⊆ tcRefs τ sig :=
  ⟨nary_bufs_sub .., binary_bufs_sub .., unary_bufs_sub .., nullary_bufs_sub .., unary_bufs_sub .., unary_bufs_sub ..,
    unary_bufs_sub .., binary_bufs_sub .., unary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., ternary_bufs_sub .., reshape_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., nullary_bufs_sub .., unary_bufs_sub .., ternary_bufs_sub ..⟩
theorem C_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

theorem D_sub : (opsD : List (HloOp τ sig (Elt F))).Forall fun op => op.bufs ⊆ tcRefs τ sig :=
  ⟨reshape_bufs_sub .., nullary_bufs_sub .., unary_bufs_sub .., binary_bufs_sub .., unary_bufs_sub .., unary_bufs_sub ..,
    unary_bufs_sub .., nary_bufs_sub .., nullary_bufs_sub .., unary_bufs_sub .., binary_bufs_sub .., nullary_bufs_sub ..,
    unary_bufs_sub .., unary_bufs_sub .., ternary_bufs_sub .., nullary_bufs_sub .., unary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub ..⟩
theorem D_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

theorem E_sub : (opsE : List (HloOp τ sig (Elt F))).Forall fun op => op.bufs ⊆ tcRefs τ sig :=
  ⟨binary_bufs_sub .., ternary_bufs_sub .., nullary_bufs_sub .., unary_bufs_sub .., nullary_bufs_sub .., unary_bufs_sub ..,
    unary_bufs_sub .., ternary_bufs_sub ..⟩
theorem E_fresh : (opsE : List (HloOp τ sig (Elt F))).Forall fun op => op.fresh = ∅ :=
  ⟨rfl, rfl, rfl, rfl, rfl, rfl, rfl, rfl⟩

theorem G_sub : (opsG : List (HloOp τ sig (Elt F))).Forall fun op => op.bufs ⊆ tcRefs τ sig :=
  ⟨unary_bufs_sub .., unary_bufs_sub .., reshape_bufs_sub .., unary_bufs_sub .., reshape_bufs_sub .., unary_bufs_sub ..,
    unary_bufs_sub ..⟩
theorem G_fresh : (opsG : List (HloOp τ sig (Elt F))).Forall fun op => op.fresh = ∅ :=
  ⟨rfl, rfl, rfl, rfl, rfl, rfl, rfl⟩

/-- Every operation touches TensorCore references only. -/
theorem ops_sub : (ops : List (HloOp τ sig (Elt F))).Forall fun op => op.bufs ⊆ tcRefs τ sig :=
  forall_append (forall_append (forall_append A_sub B_sub) C_sub) (forall_append (forall_append D_sub E_sub) G_sub)
/-- Every operation determines its result. -/
theorem ops_fresh : ∀ op ∈ (ops : List (HloOp τ sig (Elt F))), op.fresh = ∅ :=
  List.forall_iff_forall_mem.1
    (forall_append (forall_append (forall_append A_fresh B_fresh) C_fresh) (forall_append (forall_append D_fresh E_fresh) G_fresh))

/-! ## What each stretch leaves in the buffers later stretches read

Each fact is the fold of one stretch's results over ANY contents `W` before it, unrolled and read off at one
buffer: which operation writes the buffer, and the identity of the typed references' casts at these literal
references, are computation. The operands that an earlier stretch wrote come as hypotheses in the
specification's own terms. The whole-array host operations stay folded: no equation here looks inside them. -/

section Values
attribute [local irreducible] Host.reduceWindow Host.reduce Host.gather Host.scatter concatenate

theorem A_v1 (W : Valuation τ sig (Elt F)) : after opsA W (main_v1 : DevRef τ sig) = Spec.bcol (W (main_arg2 : DevRef τ sig)) := by
  simp only [after_cons, after_nil]
  rfl

theorem A_v3 (W : Valuation τ sig (Elt F)) : after opsA W (main_v3 : DevRef τ sig) = Spec.labcol (W (main_arg2 : DevRef τ sig)) := by
  simp only [after_cons, after_nil]
  rfl

theorem A_v5 (W : Valuation τ sig (Elt F)) : after opsA W (main_v5 : DevRef τ sig) = Spec.boxcol (W (main_arg2 : DevRef τ sig)) := by
  simp only [after_cons, after_nil]
  rfl

theorem A_v16 (W : Valuation τ sig (Elt F)) : after opsA W (main_v16 : DevRef τ sig) = Spec.toCol (Spec.wrapNeg 64#32 (Spec.bcol (W (main_arg2 : DevRef τ sig)))) := by
  simp only [after_cons, after_nil]
  rfl

theorem A_v17 (W : Valuation τ sig (Elt F)) : after opsA W (main_v17 : DevRef τ sig) = Spec.toCol (Spec.wrapNeg 8192#32 (Spec.boxcol (W (main_arg2 : DevRef τ sig)))) := by
  simp only [after_cons, after_nil]
  rfl

theorem A_arg0 (W : Valuation τ sig (Elt F)) :
    after opsA W (main_arg0 : DevRef τ sig) = W (main_arg0 : DevRef τ sig) := by
  simp only [after_cons, after_nil]
  rfl

theorem A_arg1 (W : Valuation τ sig (Elt F)) :
    after opsA W (main_arg1 : DevRef τ sig) = W (main_arg1 : DevRef τ sig) := by
  simp only [after_cons, after_nil]
  rfl

theorem A_arg2 (W : Valuation τ sig (Elt F)) :
    after opsA W (main_arg2 : DevRef τ sig) = W (main_arg2 : DevRef τ sig) := by
  simp only [after_cons, after_nil]
  rfl

theorem B_v19 (W : Valuation τ sig (Elt F)) (boxes : FVec F S64x8192x4 .f32) (sel : IVec S8000x3 32)
    (h0 : W (main_arg0 : DevRef τ sig) = boxes) (h16 : W (main_v16 : DevRef τ sig) = Spec.toCol (Spec.wrapNeg 64#32 (Spec.bcol sel)))
    (h17 : W (main_v17 : DevRef τ sig) = Spec.toCol (Spec.wrapNeg 8192#32 (Spec.boxcol sel))) :
    after opsB W (main_v19 : DevRef τ sig) = Host.gather gather_S64x8192x4_S8000x2_S8000x4_1_01_n_n_01_1_114 boxes (Spec.gidx2 sel) := by
  subst h0
  unfold Spec.gidx2
  rw [← h16, ← h17]
  simp only [after_cons, after_nil]
  rfl

theorem B_v35 (W : Valuation τ sig (Elt F)) (sel : IVec S8000x3 32) (h1 : W (main_v1 : DevRef τ sig) = Spec.bcol sel) :
    after opsB W (main_v35 : DevRef τ sig) = Spec.toCol (Spec.wrapNeg 64#32 (Spec.bcol sel)) := by
  rw [← h1]
  simp only [after_cons, after_nil]
  rfl

theorem B_v36 (W : Valuation τ sig (Elt F)) (sel : IVec S8000x3 32) (h5 : W (main_v5 : DevRef τ sig) = Spec.boxcol sel) :
    after opsB W (main_v36 : DevRef τ sig) = Spec.toCol (Spec.wrapNeg 8192#32 (Spec.boxcol sel)) := by
  rw [← h5]
  simp only [after_cons, after_nil]
  rfl

theorem B_v37 (W : Valuation τ sig (Elt F)) (sel : IVec S8000x3 32) (h3 : W (main_v3 : DevRef τ sig) = Spec.labcol sel) :
    after opsB W (main_v37 : DevRef τ sig) = Spec.toCol (Spec.wrapNeg 91#32 (Spec.labcol sel)) := by
  rw [← h3]
  simp only [after_cons, after_nil]
  rfl

theorem B_v1 (W : Valuation τ sig (Elt F)) :
    after opsB W (main_v1 : DevRef τ sig) = W (main_v1 : DevRef τ sig) := by
  simp only [after_cons, after_nil]
  rfl

theorem B_v3 (W : Valuation τ sig (Elt F)) :
    after opsB W (main_v3 : DevRef τ sig) = W (main_v3 : DevRef τ sig) := by
  simp only [after_cons, after_nil]
  rfl

theorem B_arg0 (W : Valuation τ sig (Elt F)) :
    after opsB W (main_arg0 : DevRef τ sig) = W (main_arg0 : DevRef τ sig) := by
  simp only [after_cons, after_nil]
  rfl

theorem B_arg1 (W : Valuation τ sig (Elt F)) :
    after opsB W (main_arg1 : DevRef τ sig) = W (main_arg1 : DevRef τ sig) := by
  simp only [after_cons, after_nil]
  rfl

theorem B_arg2 (W : Valuation τ sig (Elt F)) :
    after opsB W (main_arg2 : DevRef τ sig) = W (main_arg2 : DevRef τ sig) := by
  simp only [after_cons, after_nil]
  rfl

theorem C_v39 (W : Valuation τ sig (Elt F)) (scores : FVec F S64x8192x91 .f32) (sel : IVec S8000x3 32)
    (h1 : W (main_arg1 : DevRef τ sig) = scores) (h35 : W (main_v35 : DevRef τ sig) = Spec.toCol (Spec.wrapNeg 64#32 (Spec.bcol sel)))
    (h36 : W (main_v36 : DevRef τ sig) = Spec.toCol (Spec.wrapNeg 8192#32 (Spec.boxcol sel))) (h37 : W (main_v37 : DevRef τ sig) = Spec.toCol (Spec.wrapNeg 91#32 (Spec.labcol sel))) :
    after opsC W (main_v39 : DevRef τ sig) = Host.gather gather_S64x8192x91_S8000x3_S8000_n_012_n_n_012_1_111 scores (Spec.gidx3 sel) := by
  subst h1
  unfold Spec.gidx3
  rw [← h35, ← h36, ← h37]
  simp only [after_cons, after_nil]
  rfl

theorem C_v49 (W : Valuation τ sig (Elt F)) (sel : IVec S8000x3 32) (h1 : W (main_v1 : DevRef τ sig) = Spec.bcol sel) :
    after opsC W (main_v49 : DevRef τ sig) = Spec.ownCount sel := by
  unfold Spec.ownCount Spec.running Spec.sameImage
  rw [← h1]
  after_results_simp
  simp only [TRef.ofBuf, TRef.toBuf, cast_eq]
  rfl

theorem C_v1 (W : Valuation τ sig (Elt F)) :
    after opsC W (main_v1 : DevRef τ sig) = W (main_v1 : DevRef τ sig) := by
  simp only [after_cons, after_nil]
  rfl

theorem C_v3 (W : Valuation τ sig (Elt F)) :
    after opsC W (main_v3 : DevRef τ sig) = W (main_v3 : DevRef τ sig) := by
  simp only [after_cons, after_nil]
  rfl

theorem C_v19 (W : Valuation τ sig (Elt F)) :
    after opsC W (main_v19 : DevRef τ sig) = W (main_v19 : DevRef τ sig) := by
  simp only [after_cons, after_nil]
  rfl

theorem C_arg0 (W : Valuation τ sig (Elt F)) :
    after opsC W (main_arg0 : DevRef τ sig) = W (main_arg0 : DevRef τ sig) := by
  simp only [after_cons, after_nil]
  rfl

theorem C_arg1 (W : Valuation τ sig (Elt F)) :
    after opsC W (main_arg1 : DevRef τ sig) = W (main_arg1 : DevRef τ sig) := by
  simp only [after_cons, after_nil]
  rfl

theorem C_arg2 (W : Valuation τ sig (Elt F)) :
    after opsC W (main_arg2 : DevRef τ sig) = W (main_arg2 : DevRef τ sig) := by
  simp only [after_cons, after_nil]
  rfl

theorem D_v56 (W : Valuation τ sig (Elt F)) (boxes : FVec F S64x8192x4 .f32) (scores : FVec F S64x8192x91 .f32) (sel : IVec S8000x3 32)
    (h19 : W (main_v19 : DevRef τ sig) = Host.gather gather_S64x8192x4_S8000x2_S8000x4_1_01_n_n_01_1_114 boxes (Spec.gidx2 sel))
    (h39 : W (main_v39 : DevRef τ sig) = Host.gather gather_S64x8192x91_S8000x3_S8000_n_012_n_n_012_1_111 scores (Spec.gidx3 sel))
    (h3 : W (main_v3 : DevRef τ sig) = Spec.labcol sel) :
    after opsD W (main_v56 : DevRef τ sig) = Spec.refRows boxes scores sel := by
  unfold Spec.refRows
  rw [← h19, ← h39, ← h3]
  simp only [after_cons, after_nil]
  rfl

theorem D_v60 (W : Valuation τ sig (Elt F)) : after opsD W (main_v60 : DevRef τ sig) = (broadcastInDim S64x300x6 ![] bcast_S_S64x300x6 (constant S_ .f32 0x00000000#32) : FVec F S64x300x6 .f32) := by
  simp only [after_cons, after_nil]
  rfl

theorem D_v71 (W : Valuation τ sig (Elt F)) (sel : IVec S8000x3 32) (h1 : W (main_v1 : DevRef τ sig) = Spec.bcol sel) :
    after opsD W (main_v71 : DevRef τ sig) = Spec.toCol (Spec.wrapNeg 64#32 (Spec.bcol sel)) := by
  rw [← h1]
  simp only [after_cons, after_nil]
  rfl

theorem D_v72 (W : Valuation τ sig (Elt F)) (sel : IVec S8000x3 32) (h49 : W (main_v49 : DevRef τ sig) = Spec.ownCount sel) :
    after opsD W (main_v72 : DevRef τ sig) = Spec.toCol (Spec.wrapNeg 300#32 (Spec.rankc sel)) := by
  unfold Spec.rankc
  rw [← h49]
  after_results_simp
  simp only [TRef.ofBuf, TRef.toBuf, cast_eq]
  rfl

theorem D_v1 (W : Valuation τ sig (Elt F)) :
    after opsD W (main_v1 : DevRef τ sig) = W (main_v1 : DevRef τ sig) := by
  simp only [after_cons, after_nil]
  rfl

theorem D_arg0 (W : Valuation τ sig (Elt F)) :
    after opsD W (main_arg0 : DevRef τ sig) = W (main_arg0 : DevRef τ sig) := by
  simp only [after_cons, after_nil]
  rfl

theorem D_arg1 (W : Valuation τ sig (Elt F)) :
    after opsD W (main_arg1 : DevRef τ sig) = W (main_arg1 : DevRef τ sig) := by
  simp only [after_cons, after_nil]
  rfl

theorem D_arg2 (W : Valuation τ sig (Elt F)) :
    after opsD W (main_arg2 : DevRef τ sig) = W (main_arg2 : DevRef τ sig) := by
  simp only [after_cons, after_nil]
  rfl

theorem E_v74 (W : Valuation τ sig (Elt F)) (boxes : FVec F S64x8192x4 .f32) (scores : FVec F S64x8192x91 .f32) (sel : IVec S8000x3 32)
    (h60 : W (main_v60 : DevRef τ sig) = (broadcastInDim S64x300x6 ![] bcast_S_S64x300x6 (constant S_ .f32 0x00000000#32) : FVec F S64x300x6 .f32))
    (h71 : W (main_v71 : DevRef τ sig) = Spec.toCol (Spec.wrapNeg 64#32 (Spec.bcol sel))) (h72 : W (main_v72 : DevRef τ sig) = Spec.toCol (Spec.wrapNeg 300#32 (Spec.rankc sel)))
    (h56 : W (main_v56 : DevRef τ sig) = Spec.refRows boxes scores sel) :
    after opsE W (main_v74 : DevRef τ sig) = Spec.refBatched boxes scores sel := by
  unfold Spec.refBatched Spec.sidx
  rw [← h60, ← h71, ← h72, ← h56]
  after_results_simp

theorem E_v78 (W : Valuation τ sig (Elt F)) (sel : IVec S8000x3 32) (h1 : W (main_v1 : DevRef τ sig) = Spec.bcol sel) :
    after opsE W (main_v78 : DevRef τ sig) = Host.scatter scatter_S64_S8000x1_S8000_n_0_0_1 IntOp.addi (broadcastInDim S64 ![] bcast_S_S64 (constantI S_ 32 0#32)) (Spec.toCol (Spec.bcol sel)) (Spec.splat 1#32) := by
  rw [← h1]
  after_results_simp
  rfl

theorem E_arg0 (W : Valuation τ sig (Elt F)) :
    after opsE W (main_arg0 : DevRef τ sig) = W (main_arg0 : DevRef τ sig) := by
  simp only [after_cons, after_nil]
  rfl

theorem E_arg1 (W : Valuation τ sig (Elt F)) :
    after opsE W (main_arg1 : DevRef τ sig) = W (main_arg1 : DevRef τ sig) := by
  simp only [after_cons, after_nil]
  rfl

theorem E_arg2 (W : Valuation τ sig (Elt F)) :
    after opsE W (main_arg2 : DevRef τ sig) = W (main_arg2 : DevRef τ sig) := by
  simp only [after_cons, after_nil]
  rfl

theorem G_v79 (W : Valuation τ sig (Elt F)) (boxes : FVec F S64x8192x4 .f32) (scores : FVec F S64x8192x91 .f32) (sel : IVec S8000x3 32)
    (h74 : W (main_v74 : DevRef τ sig) = Spec.refBatched boxes scores sel) :
    after opsG W (main_v79 : DevRef τ sig) = Spec.refBoxes boxes scores sel := by
  unfold Spec.refBoxes
  rw [← h74]
  simp only [after_cons, after_nil]
  rfl

theorem G_v81 (W : Valuation τ sig (Elt F)) (boxes : FVec F S64x8192x4 .f32) (scores : FVec F S64x8192x91 .f32) (sel : IVec S8000x3 32)
    (h74 : W (main_v74 : DevRef τ sig) = Spec.refBatched boxes scores sel) :
    after opsG W (main_v81 : DevRef τ sig) = Spec.refScores boxes scores sel := by
  unfold Spec.refScores
  rw [← h74]
  simp only [after_cons, after_nil]
  rfl

theorem G_v84 (W : Valuation τ sig (Elt F)) (boxes : FVec F S64x8192x4 .f32) (scores : FVec F S64x8192x91 .f32) (sel : IVec S8000x3 32)
    (h74 : W (main_v74 : DevRef τ sig) = Spec.refBatched boxes scores sel) :
    after opsG W (main_v84 : DevRef τ sig) = Spec.refClasses boxes scores sel := by
  unfold Spec.refClasses
  rw [← h74]
  simp only [after_cons, after_nil]
  rfl

theorem G_v85 (W : Valuation τ sig (Elt F)) (sel : IVec S8000x3 32) (h78 : W (main_v78 : DevRef τ sig) = Host.scatter scatter_S64_S8000x1_S8000_n_0_0_1 IntOp.addi (broadcastInDim S64 ![] bcast_S_S64 (constantI S_ 32 0#32)) (Spec.toCol (Spec.bcol sel)) (Spec.splat 1#32)) :
    after opsG W (main_v85 : DevRef τ sig) = Spec.numPred sel := by
  unfold Spec.numPred
  rw [← h78]
  simp only [after_cons, after_nil]
  rfl

theorem G_arg0 (W : Valuation τ sig (Elt F)) :
    after opsG W (main_arg0 : DevRef τ sig) = W (main_arg0 : DevRef τ sig) := by
  simp only [after_cons, after_nil]
  rfl

theorem G_arg1 (W : Valuation τ sig (Elt F)) :
    after opsG W (main_arg1 : DevRef τ sig) = W (main_arg1 : DevRef τ sig) := by
  simp only [after_cons, after_nil]
  rfl

theorem G_arg2 (W : Valuation τ sig (Elt F)) :
    after opsG W (main_arg2 : DevRef τ sig) = W (main_arg2 : DevRef τ sig) := by
  simp only [after_cons, after_nil]
  rfl

end Values

/-! ## The whole line

The six stretches in order; each buffer a result reads is carried from the stretch that writes it, through the
stretches that leave it alone, to the stretch that reads it. -/

/-- The fold over all of @main is the six stretches' folds, one after the other. -/
theorem after_ops (V : Valuation τ sig (Elt F)) :
    after ops V = after opsG (after opsE (after opsD (after opsC (after opsB (after opsA V))))) := by
  show after (((opsA ++ opsB) ++ opsC) ++ ((opsD ++ opsE) ++ opsG)) V = _
  rw [StableHlo.after_append, StableHlo.after_append, StableHlo.after_append, StableHlo.after_append, StableHlo.after_append]

/-- After all of @main: the four results at the specification's functions of the three arguments' contents before
    it, and the arguments as they were. -/
theorem results (V : Valuation τ sig (Elt F)) :
    after ops V (main_v85 : DevRef τ sig) = Spec.numPred (V (main_arg2 : DevRef τ sig))
    ∧ after ops V (main_v79 : DevRef τ sig) = Spec.refBoxes (F := F) (V (main_arg0 : DevRef τ sig)) (V (main_arg1 : DevRef τ sig)) (V (main_arg2 : DevRef τ sig))
    ∧ after ops V (main_v81 : DevRef τ sig) = Spec.refScores (F := F) (V (main_arg0 : DevRef τ sig)) (V (main_arg1 : DevRef τ sig)) (V (main_arg2 : DevRef τ sig))
    ∧ after ops V (main_v84 : DevRef τ sig) = Spec.refClasses (F := F) (V (main_arg0 : DevRef τ sig)) (V (main_arg1 : DevRef τ sig)) (V (main_arg2 : DevRef τ sig))
    ∧ after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig) := by
  rw [after_ops]
  -- the first stretch: the columns
  have a1 := A_v1 V
  have a3 := A_v3 V
  have a5 := A_v5 V
  have a16 := A_v16 V
  have a17 := A_v17 V
  have aA0 := A_arg0 V
  have aA1 := A_arg1 V
  have aA2 := A_arg2 V
  -- the second: the gathered boxes, the second gather's columns
  have b19 := B_v19 (after opsA V) _ _ aA0 a16 a17
  have b35 := B_v35 (after opsA V) _ a1
  have b36 := B_v36 (after opsA V) _ a5
  have b37 := B_v37 (after opsA V) _ a3
  have b1 := (B_v1 (after opsA V)).trans a1
  have b3 := (B_v3 (after opsA V)).trans a3
  have bA0 := (B_arg0 (after opsA V)).trans aA0
  have bA1 := (B_arg1 (after opsA V)).trans aA1
  have bA2 := (B_arg2 (after opsA V)).trans aA2
  -- the third: the gathered scores, the count at each row's own image
  have c39 := C_v39 (after opsB (after opsA V)) _ _ bA1 b35 b36 b37
  have c49 := C_v49 (after opsB (after opsA V)) _ b1
  have c1 := (C_v1 (after opsB (after opsA V))).trans b1
  have c3 := (C_v3 (after opsB (after opsA V))).trans b3
  have c19 := (C_v19 (after opsB (after opsA V))).trans b19
  have cA0 := (C_arg0 (after opsB (after opsA V))).trans bA0
  have cA1 := (C_arg1 (after opsB (after opsA V))).trans bA1
  have cA2 := (C_arg2 (after opsB (after opsA V))).trans bA2
  -- the fourth: the rows, the zero array, the slot columns
  have d56 := D_v56 (after opsC (after opsB (after opsA V))) _ _ _ c19 c39 c3
  have d60 := D_v60 (after opsC (after opsB (after opsA V)))
  have d71 := D_v71 (after opsC (after opsB (after opsA V))) _ c1
  have d72 := D_v72 (after opsC (after opsB (after opsA V))) _ c49
  have d1 := (D_v1 (after opsC (after opsB (after opsA V)))).trans c1
  have dA0 := (D_arg0 (after opsC (after opsB (after opsA V)))).trans cA0
  have dA1 := (D_arg1 (after opsC (after opsB (after opsA V)))).trans cA1
  have dA2 := (D_arg2 (after opsC (after opsB (after opsA V)))).trans cA2
  -- the fifth: the scattered rows, the count per image
  have e74 := E_v74 (after opsD (after opsC (after opsB (after opsA V)))) _ _ _ d60 d71 d72 d56
  have e78 := E_v78 (after opsD (after opsC (after opsB (after opsA V)))) _ d1
  have eA0 := (E_arg0 (after opsD (after opsC (after opsB (after opsA V))))).trans dA0
  have eA1 := (E_arg1 (after opsD (after opsC (after opsB (after opsA V))))).trans dA1
  have eA2 := (E_arg2 (after opsD (after opsC (after opsB (after opsA V))))).trans dA2
  -- the sixth: the results
  exact ⟨G_v85 _ _ e78, G_v79 _ _ _ _ e74, G_v81 _ _ _ _ e74, G_v84 _ _ _ _ e74,
    (G_arg0 _).trans eA0, (G_arg1 _).trans eA1, (G_arg2 _).trans eA2⟩

/-! ## The run -/

/-- Every weakly fair execution of @main terminates with every TensorCore buffer at the fold of the operations
    over its launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Line

/-- Every weakly fair execution of the reference terminates without a fault, with its four results at the
    specification's values of the launch arrays and the three arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v85) = Cert.Spec.numPred (m ((c.tc : Thread nD τ).loc main_arg2))
      ∧ r.2.mem ((c.tc : Thread nD τ).loc main_v79) = Cert.Spec.refBoxes (F := F) (m ((c.tc : Thread nD τ).loc main_arg0)) (m ((c.tc : Thread nD τ).loc main_arg1)) (m ((c.tc : Thread nD τ).loc main_arg2))
      ∧ r.2.mem ((c.tc : Thread nD τ).loc main_v81) = Cert.Spec.refScores (F := F) (m ((c.tc : Thread nD τ).loc main_arg0)) (m ((c.tc : Thread nD τ).loc main_arg1)) (m ((c.tc : Thread nD τ).loc main_arg2))
      ∧ r.2.mem ((c.tc : Thread nD τ).loc main_v84) = Cert.Spec.refClasses (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      have R := results (StableHlo.launchContents m c)
      ⟨(h c main_v85).trans R.1, (h c main_v79).trans R.2.1, (h c main_v81).trans R.2.2.1, (h c main_v84).trans R.2.2.2.1,
        (h c main_arg0).trans R.2.2.2.2.1, (h c main_arg1).trans R.2.2.2.2.2.1, (h c main_arg2).trans R.2.2.2.2.2.2⟩)
    (run_main m ρ)

end Cert.ReferenceIdeal.RefRun

end
-- ==== Proof.KerPieces.lean ====
/-
  What one grid point stores. At point i the body reads the hit mark and the label at slot i of the second and third
  tables and the two staged rows, and stores one value into each output block: the box row where the slot was hit and
  zeros where not, the labelled entry of the score row picked by a one-hot sum under the same select, and the label
  under the same select. Each stored value is the generated payload of those words and rows.
-/
import proofs.«418819_j44744969290053_2_alg».proof.Proof.KIFrame
import Idealize.ShloMosaic.Lib.Pipeline.Value
import Idealize.ShloMosaic.Lib.ValueIdx
import Idealize.ShloMosaic.Lib.Tactic

noncomputable section

namespace Cert.KernelIdeal.KerArrays

open Idealize.ShloMosaic Idealize.ShloMosaic.TcCoe Idealize.SL.Sem Idealize.ShloMosaic.ValueIdx
open Cert.KernelIdeal Cert.KernelIdeal.Gen Cert.KernelIdeal.GenP

variable [hK : Cert.KernelIdeal.Facts]
variable {F : FTy → Type} [FloatOps F]

/-- The zero offsets of a rank-3 block, as the constant function. -/
theorem hz3 : (![0, 0, 0] : Fin 3 → Nat) = fun _ => 0 := funext fun a => by fin_cases a <;> rfl

/-- The grid point's one coordinate as a slot of the 19200-slot tables. -/
def slotOf (i : grid0.Coords) : Fin 19200 := ⟨(i 0).val, (i 0).isLt⟩

/-- The one-word rectangle at offset n of a 19200-slot table names slot n. -/
theorem slot_idx (n : Fin 19200) (off : Fin 1 → Nat) (hoff : off 0 = n.val) (inb : ∀ a, off a + S1.size a ≤ S19200.size a)
    (h1 : 0 < S1.numel) : (Rect.unit (s := S19200) off S1.size inb).idx (Shape.Idx.first h1) = ix1 n := by
  funext a
  apply Fin.ext
  match a with
  | ⟨0, _⟩ =>
    show off 0 + 1 * (Shape.Idx.first h1 (0 : Fin 1)).val = n.val
    have h0 : (Shape.Idx.first h1 (0 : Fin 1)).val = 0 := by
      have := (Shape.Idx.first h1 (0 : Fin 1)).isLt
      have e : S1.size (0 : Fin 1) = 1 := by decide
      omega
    rw [h0, hoff]; omega

/-- The offset the body computes from the grid coordinate is the coordinate itself: it is below 2^32. -/
theorem off_slot (i : grid0.Coords) : k0_off1 i 0 = (slotOf i).val := by
  show (BitVec.ofNat 32 (i 0).val).toNat = (i 0).val
  have h : (i 0).val < 19200 := (i 0).isLt
  rw [BitVec.toNat_ofNat]
  exact Nat.mod_eq_of_lt (by omega)

/-- A table read at the body's one-word rectangle is the table's word at the point's slot. -/
theorem word_at (i : grid0.Coords) (xt : S19200.Idx → Elt F .i32) (inb : ∀ a, k0_off1 i a + S1.size a ≤ S19200.size a)
    (h1 : 0 < S1.numel) :
    View.ld (Val := Elt F) (e' := .i32) xt (Rect.unit (s := S19200) (k0_off1 i) S1.size inb) (Shape.Idx.first h1) = xt (ix1 (slotOf i)) :=
  congrArg xt (slot_idx (slotOf i) _ (off_slot i) inb h1)

set_option maxHeartbeats 400000 in
/-- Output 2's block after the body: the box payload of the hit mark at the point's slot and of the staged box row. -/
theorem boxPiece (c : Dev nD) (i : grid0.Coords) (arg4 : Memref sig .tc .vmem S1x1x4 .f32) (harg4 : arg4.IsWhole) (arg5 : Memref sig .tc .vmem S1x1x91 .f32) (harg5 : arg5.IsWhole) (arg6 : Memref sig .tc .vmem S1x1x4 .f32) (harg6 : arg6.IsWhole) (arg7 : Memref sig .tc .vmem S1x1x1 .f32) (harg7 : arg7.IsWhole) (arg8 : Memref sig .tc .vmem S1x1x1 .i32) (harg8 : arg8.IsWhole)
    (x0 : Vec F S1x1x4 .f32) (x1 : Vec F S1x1x91 .f32) (xt0 : TbBuf0 (F := F) c tbM0_0) (xt1 : TbBuf0 (F := F) c tbM0_1) (xt2 : TbBuf0 (F := F) c tbM0_2) :
    out0_A_2 c i arg4 harg4 arg5 harg5 arg6 harg6 arg7 harg7 arg8 harg8 x0 x1 xt0 xt1 xt2 = Gen.k0_pay1 (xt2 (ix1 (slotOf i))) x0 := by
  unfold out0_A_2
  rw [View.read_writes_eq_canon _ _ _ (cover0_A_2 c i arg4 harg4 arg5 harg5 arg6 harg6 arg7 harg7 arg8 harg8 x0 x1 xt0 xt1 xt2)]
  unfold kernelRun0_A
  dsimp only
  sl_unfold_run_names
  rw [View.canon_unit_zero hz3]
  simp only [View.readAt_eq_ld, harg4.read_unread, View.ld_unit_zero (S := S1x1x4) hz3, View.read_whole]
  rw [word_at i xt2]

set_option maxHeartbeats 400000 in
/-- Output 3's block: the score payload of the hit mark, the label and the staged score row. -/
theorem scorePiece (c : Dev nD) (i : grid0.Coords) (arg4 : Memref sig .tc .vmem S1x1x4 .f32) (harg4 : arg4.IsWhole) (arg5 : Memref sig .tc .vmem S1x1x91 .f32) (harg5 : arg5.IsWhole) (arg6 : Memref sig .tc .vmem S1x1x4 .f32) (harg6 : arg6.IsWhole) (arg7 : Memref sig .tc .vmem S1x1x1 .f32) (harg7 : arg7.IsWhole) (arg8 : Memref sig .tc .vmem S1x1x1 .i32) (harg8 : arg8.IsWhole)
    (x0 : Vec F S1x1x4 .f32) (x1 : Vec F S1x1x91 .f32) (xt0 : TbBuf0 (F := F) c tbM0_0) (xt1 : TbBuf0 (F := F) c tbM0_1) (xt2 : TbBuf0 (F := F) c tbM0_2) :
    out0_A_3 c i arg4 harg4 arg5 harg5 arg6 harg6 arg7 harg7 arg8 harg8 x0 x1 xt0 xt1 xt2 = Gen.k0_pay2 (xt2 (ix1 (slotOf i))) (xt1 (ix1 (slotOf i))) x1 := by
  unfold out0_A_3
  rw [View.read_writes_eq_canon _ _ _ (cover0_A_3 c i arg4 harg4 arg5 harg5 arg6 harg6 arg7 harg7 arg8 harg8 x0 x1 xt0 xt1 xt2)]
  unfold kernelRun0_A
  dsimp only
  sl_unfold_run_names
  rw [View.canon_unit_zero hz3]
  simp only [View.readAt_eq_ld, harg5.read_unread, View.ld_unit_zero (S := S1x1x91) hz3, View.read_whole]
  rw [word_at i xt2, word_at i xt1]

set_option maxHeartbeats 400000 in
/-- Output 4's block: the class payload of the hit mark and the label. -/
theorem classPiece (c : Dev nD) (i : grid0.Coords) (arg4 : Memref sig .tc .vmem S1x1x4 .f32) (harg4 : arg4.IsWhole) (arg5 : Memref sig .tc .vmem S1x1x91 .f32) (harg5 : arg5.IsWhole) (arg6 : Memref sig .tc .vmem S1x1x4 .f32) (harg6 : arg6.IsWhole) (arg7 : Memref sig .tc .vmem S1x1x1 .f32) (harg7 : arg7.IsWhole) (arg8 : Memref sig .tc .vmem S1x1x1 .i32) (harg8 : arg8.IsWhole)
    (x0 : Vec F S1x1x4 .f32) (x1 : Vec F S1x1x91 .f32) (xt0 : TbBuf0 (F := F) c tbM0_0) (xt1 : TbBuf0 (F := F) c tbM0_1) (xt2 : TbBuf0 (F := F) c tbM0_2) :
    out0_A_4 c i arg4 harg4 arg5 harg5 arg6 harg6 arg7 harg7 arg8 harg8 x0 x1 xt0 xt1 xt2 = Gen.k0_pay3 (F := F) (xt2 (ix1 (slotOf i))) (xt1 (ix1 (slotOf i))) := by
  unfold out0_A_4
  rw [View.read_writes_eq_canon _ _ _ (cover0_A_4 c i arg4 harg4 arg5 harg5 arg6 harg6 arg7 harg7 arg8 harg8 x0 x1 xt0 xt1 xt2)]
  unfold kernelRun0_A
  dsimp only
  sl_unfold_run_names
  rw [View.canon_unit_zero hz3]
  simp only [View.readAt_eq_ld, View.read_whole]
  rw [word_at i xt2, word_at i xt1]

end Cert.KernelIdeal.KerArrays

end
-- ==== Proof.KerArrays.lean ====
/-
  The region's three output arrays after the run. Grid point t stores, into block t of each output, the body's values of
  the slot's table words and of the rows the first table names; the 19200 one-slot blocks tile each array. So each array
  is the specification's slot-by-slot function of the tables and of the two staged inputs as the region found them.

  In order: the index maps in closed form at any contents of the tables (the two inputs' block index is the first
  table's word at the point's slot, which the tables' side condition keeps below the 524288 rows; the outputs' is the
  slot itself); each window's block read off its array; what a point writes back as a block of the specification's
  array; the tiling; the arrays.
-/
import proofs.«418819_j44744969290053_2_alg».proof.Proof.KIFrame
import proofs.«418819_j44744969290053_2_alg».proof.Proof.KerPieces
import proofs.«418819_j44744969290053_2_alg».proof.Proof.Spec
import Idealize.ShloMosaic.Lib.Pipeline.Value

noncomputable section

namespace Cert.KernelIdeal.KerArrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable [hR : Cert.ReferenceIdeal.Facts] [hK : Cert.KernelIdeal.Facts]
variable {F : FTy → Type} [FloatOps F]

/-! ## The index maps, at any contents of the tables -/

/-- The word an input's index map reads is the first table's word at the point's slot. -/
theorem map_word (pf : pre0.Contents (Elt F)) (i : grid0.Coords) :
    pf.at 0 (Rect.unit (s := S19200) (k0_off1 i) S1.size (k0_off1_inb i)) numel1_S1 = pf 0 (ix1 (slotOf i)) :=
  congrArg (pf 0) (slot_idx (slotOf i) _ (off_slot i) _ _)

/-- The box input's block index at point i: the row the first table names at the point's slot, then zeros. -/
theorem rowMap0 (pf : pre0.Contents (Elt F)) (i : grid0.Coords) :
    cc0_transform_0 k0_off1_inb numel1_S1 pf i = ![(pf 0 (ix1 (slotOf i))).toNat, 0, 0] := by
  show ![(pf.at 0 (Rect.unit (s := S19200) (k0_off1 i) S1.size (k0_off1_inb i)) numel1_S1).toNat, (0#32).toNat, (0#32).toNat] = _
  rw [map_word]; rfl

/-- The score input's block index at point i: the same row. -/
theorem rowMap1 (pf : pre0.Contents (Elt F)) (i : grid0.Coords) :
    cc0_transform_1 k0_off1_inb numel1_S1 pf i = ![(pf 0 (ix1 (slotOf i))).toNat, 0, 0] := by
  show ![(pf.at 0 (Rect.unit (s := S19200) (k0_off1 i) S1.size (k0_off1_inb i)) numel1_S1).toNat, (0#32).toNat, (0#32).toNat] = _
  rw [map_word]; rfl

/-- Under the tables' side condition the named row is one of the 524288 rows. -/
theorem row_lt (a : (pcfg0 (F := F)).Adm) (i : grid0.Coords) : (a.1 0 (ix1 (slotOf i))).toNat < 524288 := by
  have h := (a.2.1 i).elim fun h _ => h 0
  rw [rowMap0] at h
  have h' : ((a.1 0 (ix1 (slotOf i))).toNat + 1) * 1 ≤ 524288 := h
  omega

/-- So the specification's row number of that word is the word itself. -/
theorem rowOf_val (a : (pcfg0 (F := F)).Adm) (i : grid0.Coords) :
    (Cert.Spec.rowOf (a.1 0 (ix1 (slotOf i)))).val = (a.1 0 (ix1 (slotOf i))).toNat :=
  Nat.mod_eq_of_lt (row_lt a i)

/-- The three outputs' block index at point i: the point's slot, then zeros. -/
theorem slotMap2 (i : grid0.Coords) : cc0_transform_2 i = ![(slotOf i).val, 0, 0] := by
  show ![(BitVec.ofNat 32 (i 0).val).toNat, (0#32).toNat, (0#32).toNat] = _
  rw [show (BitVec.ofNat 32 (i 0).val).toNat = (slotOf i).val from off_slot i]; rfl
theorem slotMap3 (i : grid0.Coords) : cc0_transform_3 i = ![(slotOf i).val, 0, 0] := by
  show ![(BitVec.ofNat 32 (i 0).val).toNat, (0#32).toNat, (0#32).toNat] = _
  rw [show (BitVec.ofNat 32 (i 0).val).toNat = (slotOf i).val from off_slot i]; rfl
theorem slotMap4 (i : grid0.Coords) : cc0_transform_4 i = ![(slotOf i).val, 0, 0] := by
  show ![(BitVec.ofNat 32 (i 0).val).toNat, (0#32).toNat, (0#32).toNat] = _
  rw [show (BitVec.ofNat 32 (i 0).val).toNat = (slotOf i).val from off_slot i]; rfl

/-- The windows' block indices at point t, at any admissible contents a of the tables. -/
theorem index0 (a : (pcfg0 (F := F)).Adm) (t : Fin (cfg0 a).N) :
    ((cfg0 a).win 0).index t = ![(a.1 0 (ix1 (slotOf (grid0.coords t)))).toNat, 0, 0] := rowMap0 a.1 (grid0.coords t)
theorem index1 (a : (pcfg0 (F := F)).Adm) (t : Fin (cfg0 a).N) :
    ((cfg0 a).win 1).index t = ![(a.1 0 (ix1 (slotOf (grid0.coords t)))).toNat, 0, 0] := rowMap1 a.1 (grid0.coords t)
theorem index2 (a : (pcfg0 (F := F)).Adm) (t : Fin (cfg0 a).N) :
    ((cfg0 a).win 2).index t = ![(slotOf (grid0.coords t)).val, 0, 0] := slotMap2 (grid0.coords t)
theorem index3 (a : (pcfg0 (F := F)).Adm) (t : Fin (cfg0 a).N) :
    ((cfg0 a).win 3).index t = ![(slotOf (grid0.coords t)).val, 0, 0] := slotMap3 (grid0.coords t)
theorem index4 (a : (pcfg0 (F := F)).Adm) (t : Fin (cfg0 a).N) :
    ((cfg0 a).win 4).index t = ![(slotOf (grid0.coords t)).val, 0, 0] := slotMap4 (grid0.coords t)

/-! ## The blocks -/

/-- The box input's block at point t is the row the first table names at the point's slot: entry (0, 0, q) of the
    block is entry (row, 0, q) of the array. -/
theorem boxBlock (a : (pcfg0 (F := F)).Adm) (G : FVec F S524288x1x4 .f32) (t : Fin (cfg0 a).N) :
    (((cfg0 a).win 0).blk t).view.read (Elt F) G
      = fun y : S1x1x4.Idx => G (ix3 (Cert.Spec.rowOf (a.1 0 (ix1 (slotOf (grid0.coords t))))) (y 1) (y 2)) := by
  refine funext fun (y : S1x1x4.Idx) => ?_
  show G ((((cfg0 a).win 0).blk t).view.emb y) = G _
  refine congrArg G ?_
  funext ax
  apply Fin.ext
  have hi := index0 a t
  have hr := rowOf_val a (grid0.coords t)
  have hy0 : (y 0).val < 1 := (y 0).isLt
  match ax with
  | ⟨0, _⟩ =>
    show ((cfg0 a).win 0).index t (0 : Fin 3) * 1 + 1 * (y 0).val = (Cert.Spec.rowOf (a.1 0 (ix1 (slotOf (grid0.coords t))))).val
    rw [hi, hr]
    show (a.1 0 (ix1 (slotOf (grid0.coords t)))).toNat * 1 + 1 * (y 0).val = _
    omega
  | ⟨1, _⟩ =>
    show ((cfg0 a).win 0).index t (1 : Fin 3) * 1 + 1 * (y 1).val = (y 1).val
    rw [hi]
    show 0 * 1 + 1 * (y 1).val = _
    omega
  | ⟨2, _⟩ =>
    show ((cfg0 a).win 0).index t (2 : Fin 3) * 4 + 1 * (y 2).val = (y 2).val
    rw [hi]
    show 0 * 4 + 1 * (y 2).val = _
    omega

/-- The score input's block at point t is the same row of the scores. -/
theorem scoreBlock (a : (pcfg0 (F := F)).Adm) (G : FVec F S524288x1x91 .f32) (t : Fin (cfg0 a).N) :
    (((cfg0 a).win 1).blk t).view.read (Elt F) G
      = fun y : S1x1x91.Idx => G (ix3 (Cert.Spec.rowOf (a.1 0 (ix1 (slotOf (grid0.coords t))))) (y 1) (y 2)) := by
  refine funext fun (y : S1x1x91.Idx) => ?_
  show G ((((cfg0 a).win 1).blk t).view.emb y) = G _
  refine congrArg G ?_
  funext ax
  apply Fin.ext
  have hi := index1 a t
  have hr := rowOf_val a (grid0.coords t)
  have hy0 : (y 0).val < 1 := (y 0).isLt
  match ax with
  | ⟨0, _⟩ =>
    show ((cfg0 a).win 1).index t (0 : Fin 3) * 1 + 1 * (y 0).val = (Cert.Spec.rowOf (a.1 0 (ix1 (slotOf (grid0.coords t))))).val
    rw [hi, hr]
    show (a.1 0 (ix1 (slotOf (grid0.coords t)))).toNat * 1 + 1 * (y 0).val = _
    omega
  | ⟨1, _⟩ =>
    show ((cfg0 a).win 1).index t (1 : Fin 3) * 1 + 1 * (y 1).val = (y 1).val
    rw [hi]
    show 0 * 1 + 1 * (y 1).val = _
    omega
  | ⟨2, _⟩ =>
    show ((cfg0 a).win 1).index t (2 : Fin 3) * 91 + 1 * (y 2).val = (y 2).val
    rw [hi]
    show 0 * 91 + 1 * (y 2).val = _
    omega

/-- The boxes output's block at point t is the point's slot of the array. -/
theorem outBlock2 (a : (pcfg0 (F := F)).Adm) (G : FVec F S19200x1x4 .f32) (t : Fin (cfg0 a).N) :
    (((cfg0 a).win 2).blk t).view.read (Elt F) G
      = fun y : S1x1x4.Idx => G (ix3 (slotOf (grid0.coords t)) (y 1) (y 2)) := by
  refine funext fun (y : S1x1x4.Idx) => ?_
  show G ((((cfg0 a).win 2).blk t).view.emb y) = G _
  refine congrArg G ?_
  funext ax
  apply Fin.ext
  have hi := index2 a t
  have hy0 : (y 0).val < 1 := (y 0).isLt
  match ax with
  | ⟨0, _⟩ =>
    show ((cfg0 a).win 2).index t (0 : Fin 3) * 1 + 1 * (y 0).val = (slotOf (grid0.coords t)).val
    rw [hi]
    show (slotOf (grid0.coords t)).val * 1 + 1 * (y 0).val = _
    omega
  | ⟨1, _⟩ =>
    show ((cfg0 a).win 2).index t (1 : Fin 3) * 1 + 1 * (y 1).val = (y 1).val
    rw [hi]
    show 0 * 1 + 1 * (y 1).val = _
    omega
  | ⟨2, _⟩ =>
    show ((cfg0 a).win 2).index t (2 : Fin 3) * 4 + 1 * (y 2).val = (y 2).val
    rw [hi]
    show 0 * 4 + 1 * (y 2).val = _
    omega

/-- The scores output's block at point t is the point's slot of the array. -/
theorem outBlock3 (a : (pcfg0 (F := F)).Adm) (G : FVec F S19200x1x1 .f32) (t : Fin (cfg0 a).N) :
    (((cfg0 a).win 3).blk t).view.read (Elt F) G
      = fun y : S1x1x1.Idx => G (ix3 (slotOf (grid0.coords t)) (y 1) (y 2)) := by
  refine funext fun (y : S1x1x1.Idx) => ?_
  show G ((((cfg0 a).win 3).blk t).view.emb y) = G _
  refine congrArg G ?_
  funext ax
  apply Fin.ext
  have hi := index3 a t
  have hy0 : (y 0).val < 1 := (y 0).isLt
  match ax with
  | ⟨0, _⟩ =>
    show ((cfg0 a).win 3).index t (0 : Fin 3) * 1 + 1 * (y 0).val = (slotOf (grid0.coords t)).val
    rw [hi]
    show (slotOf (grid0.coords t)).val * 1 + 1 * (y 0).val = _
    omega
  | ⟨1, _⟩ =>
    show ((cfg0 a).win 3).index t (1 : Fin 3) * 1 + 1 * (y 1).val = (y 1).val
    rw [hi]
    show 0 * 1 + 1 * (y 1).val = _
    omega
  | ⟨2, _⟩ =>
    show ((cfg0 a).win 3).index t (2 : Fin 3) * 1 + 1 * (y 2).val = (y 2).val
    rw [hi]
    show 0 * 1 + 1 * (y 2).val = _
    omega

/-- The classes output's block at point t is the point's slot of the array. -/
theorem outBlock4 (a : (pcfg0 (F := F)).Adm) (G : IVec S19200x1x1 32) (t : Fin (cfg0 a).N) :
    (((cfg0 a).win 4).blk t).view.read (Elt F) G
      = fun y : S1x1x1.Idx => G (ix3 (slotOf (grid0.coords t)) (y 1) (y 2)) := by
  refine funext fun (y : S1x1x1.Idx) => ?_
  show G ((((cfg0 a).win 4).blk t).view.emb y) = G _
  refine congrArg G ?_
  funext ax
  apply Fin.ext
  have hi := index4 a t
  have hy0 : (y 0).val < 1 := (y 0).isLt
  match ax with
  | ⟨0, _⟩ =>
    show ((cfg0 a).win 4).index t (0 : Fin 3) * 1 + 1 * (y 0).val = (slotOf (grid0.coords t)).val
    rw [hi]
    show (slotOf (grid0.coords t)).val * 1 + 1 * (y 0).val = _
    omega
  | ⟨1, _⟩ =>
    show ((cfg0 a).win 4).index t (1 : Fin 3) * 1 + 1 * (y 1).val = (y 1).val
    rw [hi]
    show 0 * 1 + 1 * (y 1).val = _
    omega
  | ⟨2, _⟩ =>
    show ((cfg0 a).win 4).index t (2 : Fin 3) * 1 + 1 * (y 2).val = (y 2).val
    rw [hi]
    show 0 * 1 + 1 * (y 2).val = _
    omega

/-! ## A block's index, and a point's slot -/

/-- A block's index is (0, p, q): its first coordinate ranges over one value. -/
theorem blockIdx {n1 n2 : Nat} (j : (⟨3, ![1, n1, n2]⟩ : Shape).Idx) : ix3 (0 : Fin 1) (j 1) (j 2) = j := by
  funext ax
  match ax with
  | ⟨0, _⟩ => exact Fin.ext (by have h : (j 0).val < 1 := (j 0).isLt; show 0 = (j 0).val; omega)
  | ⟨1, _⟩ => rfl
  | ⟨2, _⟩ => rfl

/-- The point t of the grid sits at slot t. -/
theorem slot_coords (t : Fin grid0.N) : (slotOf (grid0.coords t)).val = t.val := by
  have ht : t.val < 19200 := Nat.lt_of_lt_of_eq t.isLt N_0
  show t.val / grid0.stride 0 % grid0.bound 0 = t.val
  have hs : grid0.stride 0 = 1 := by decide
  have hb : grid0.bound 0 = 19200 := rfl
  rw [hs, hb, Nat.div_one]
  exact Nat.mod_eq_of_lt ht

/-! ## The blocks tile the arrays: slot n of an output is written by point n -/

/-- Every entry of the boxes output lies in the block of the point at its slot, and every point writes back. -/
theorem cover2 (a : (pcfg0 (F := F)).Adm) (i : S19200x1x4.Idx) :
    ∃ t : Fin (cfg0 a).N, ((cfg0 a).win 2).flush t = true ∧ i ∈ (((cfg0 a).win 2).blk t).view.set := by
  have hi0 : (i 0).val < 19200 := (i 0).isLt
  have h1 : (i 1).val < 1 := (i 1).isLt
  have h2 : (i 2).val < 4 := (i 2).isLt
  obtain ⟨T, hT⟩ : ∃ T : Fin (cfg0 a).N, T.val = (i 0).val := ⟨⟨(i 0).val, Nat.lt_of_lt_of_eq hi0 N_0.symm⟩, rfl⟩
  refine ⟨T, flush0_2 a T, ?_⟩
  have e := View.set_slice_whole main_v77_0 (((cfg0 a).win 2).rect T)
  refine (Finset.ext_iff.mp e i).mpr (Rect.mem_set_unit.mpr fun ax => ?_)
  have hidx := index2 a T
  have hs : (slotOf (grid0.coords T)).val = T.val := slot_coords T
  match ax with
  | ⟨0, _⟩ =>
    show ((cfg0 a).win 2).index T (0 : Fin 3) * 1 ≤ (i 0).val ∧ (i 0).val < ((cfg0 a).win 2).index T (0 : Fin 3) * 1 + 1
    rw [hidx]
    show (slotOf (grid0.coords T)).val * 1 ≤ (i 0).val ∧ (i 0).val < (slotOf (grid0.coords T)).val * 1 + 1
    omega
  | ⟨1, _⟩ =>
    show ((cfg0 a).win 2).index T (1 : Fin 3) * 1 ≤ (i 1).val ∧ (i 1).val < ((cfg0 a).win 2).index T (1 : Fin 3) * 1 + 1
    rw [hidx]
    show 0 * 1 ≤ (i 1).val ∧ (i 1).val < 0 * 1 + 1
    omega
  | ⟨2, _⟩ =>
    show ((cfg0 a).win 2).index T (2 : Fin 3) * 4 ≤ (i 2).val ∧ (i 2).val < ((cfg0 a).win 2).index T (2 : Fin 3) * 4 + 4
    rw [hidx]
    show 0 * 4 ≤ (i 2).val ∧ (i 2).val < 0 * 4 + 4
    omega

/-- Every entry of the scores output lies in the block of the point at its slot. -/
theorem cover3 (a : (pcfg0 (F := F)).Adm) (i : S19200x1x1.Idx) :
    ∃ t : Fin (cfg0 a).N, ((cfg0 a).win 3).flush t = true ∧ i ∈ (((cfg0 a).win 3).blk t).view.set := by
  have hi0 : (i 0).val < 19200 := (i 0).isLt
  have h1 : (i 1).val < 1 := (i 1).isLt
  have h2 : (i 2).val < 1 := (i 2).isLt
  obtain ⟨T, hT⟩ : ∃ T : Fin (cfg0 a).N, T.val = (i 0).val := ⟨⟨(i 0).val, Nat.lt_of_lt_of_eq hi0 N_0.symm⟩, rfl⟩
  refine ⟨T, flush0_3 a T, ?_⟩
  have e := View.set_slice_whole main_v77_1 (((cfg0 a).win 3).rect T)
  refine (Finset.ext_iff.mp e i).mpr (Rect.mem_set_unit.mpr fun ax => ?_)
  have hidx := index3 a T
  have hs : (slotOf (grid0.coords T)).val = T.val := slot_coords T
  match ax with
  | ⟨0, _⟩ =>
    show ((cfg0 a).win 3).index T (0 : Fin 3) * 1 ≤ (i 0).val ∧ (i 0).val < ((cfg0 a).win 3).index T (0 : Fin 3) * 1 + 1
    rw [hidx]
    show (slotOf (grid0.coords T)).val * 1 ≤ (i 0).val ∧ (i 0).val < (slotOf (grid0.coords T)).val * 1 + 1
    omega
  | ⟨1, _⟩ =>
    show ((cfg0 a).win 3).index T (1 : Fin 3) * 1 ≤ (i 1).val ∧ (i 1).val < ((cfg0 a).win 3).index T (1 : Fin 3) * 1 + 1
    rw [hidx]
    show 0 * 1 ≤ (i 1).val ∧ (i 1).val < 0 * 1 + 1
    omega
  | ⟨2, _⟩ =>
    show ((cfg0 a).win 3).index T (2 : Fin 3) * 1 ≤ (i 2).val ∧ (i 2).val < ((cfg0 a).win 3).index T (2 : Fin 3) * 1 + 1
    rw [hidx]
    show 0 * 1 ≤ (i 2).val ∧ (i 2).val < 0 * 1 + 1
    omega

/-- Every entry of the classes output lies in the block of the point at its slot. -/
theorem cover4 (a : (pcfg0 (F := F)).Adm) (i : S19200x1x1.Idx) :
    ∃ t : Fin (cfg0 a).N, ((cfg0 a).win 4).flush t = true ∧ i ∈ (((cfg0 a).win 4).blk t).view.set := by
  have hi0 : (i 0).val < 19200 := (i 0).isLt
  have h1 : (i 1).val < 1 := (i 1).isLt
  have h2 : (i 2).val < 1 := (i 2).isLt
  obtain ⟨T, hT⟩ : ∃ T : Fin (cfg0 a).N, T.val = (i 0).val := ⟨⟨(i 0).val, Nat.lt_of_lt_of_eq hi0 N_0.symm⟩, rfl⟩
  refine ⟨T, flush0_4 a T, ?_⟩
  have e := View.set_slice_whole main_v77_2 (((cfg0 a).win 4).rect T)
  refine (Finset.ext_iff.mp e i).mpr (Rect.mem_set_unit.mpr fun ax => ?_)
  have hidx := index4 a T
  have hs : (slotOf (grid0.coords T)).val = T.val := slot_coords T
  match ax with
  | ⟨0, _⟩ =>
    show ((cfg0 a).win 4).index T (0 : Fin 3) * 1 ≤ (i 0).val ∧ (i 0).val < ((cfg0 a).win 4).index T (0 : Fin 3) * 1 + 1
    rw [hidx]
    show (slotOf (grid0.coords T)).val * 1 ≤ (i 0).val ∧ (i 0).val < (slotOf (grid0.coords T)).val * 1 + 1
    omega
  | ⟨1, _⟩ =>
    show ((cfg0 a).win 4).index T (1 : Fin 3) * 1 ≤ (i 1).val ∧ (i 1).val < ((cfg0 a).win 4).index T (1 : Fin 3) * 1 + 1
    rw [hidx]
    show 0 * 1 ≤ (i 1).val ∧ (i 1).val < 0 * 1 + 1
    omega
  | ⟨2, _⟩ =>
    show ((cfg0 a).win 4).index T (2 : Fin 3) * 1 ≤ (i 2).val ∧ (i 2).val < ((cfg0 a).win 4).index T (2 : Fin 3) * 1 + 1
    rw [hidx]
    show 0 * 1 ≤ (i 2).val ∧ (i 2).val < 0 * 1 + 1
    omega

variable (m : (ℓ : Loc nD τ sig) → Buf (Elt F) ℓ)

/-! ## What each point writes back -/

/-- Point t writes back, into the boxes output, block t of the specification's array. -/
theorem flushed2_eq (hO : GenP.Ok m) (c : Dev nD) (t : Fin (cfgM m hO).N) :
    (dats m hO 0 c).flushed 2 t
      = (((cfgM m hO).win 2).blk t).view.read (Elt F) (Cert.Spec.outB (F := F) (tbl m 0) (tbl m 2) (V m c main_v75)) := by
  have e2 : (outsAt0 m hO c t).1 = k0_pay1 (tbl m 2 (ix1 (slotOf (grid0.coords t)))) (iblk m hO c 0 t) :=
    boxPiece c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (tbl m 0) (tbl m 1) (tbl m 2)
  have e3 : (iblk m hO c 0 t : Vec F S1x1x4 .f32)
      = fun y : S1x1x4.Idx => V m c main_v75 (ix3 (Cert.Spec.rowOf (tbl m 0 (ix1 (slotOf (grid0.coords t))))) (y 1) (y 2)) :=
    boxBlock (adm m hO) (V m c main_v75) t
  show ((cfgM m hO).win 2).cut ((cfgM m hO).grid.coords t) ((dats m hO 0 c).after 2 t) = _
  rw [after0_2, e2, e3, outBlock2 (adm m hO) _ t]
  refine funext fun (j : S1x1x4.Idx) => ?_
  exact (congrArg (k0_pay1 (tbl m 2 (ix1 (slotOf (grid0.coords t))))
    (fun y : S1x1x4.Idx => V m c main_v75 (ix3 (Cert.Spec.rowOf (tbl m 0 (ix1 (slotOf (grid0.coords t))))) (y 1) (y 2))))
    (blockIdx (n1 := 1) (n2 := 4) j)).symm

/-- Point t writes back, into the scores output, block t of the specification's array. -/
theorem flushed3_eq (hO : GenP.Ok m) (c : Dev nD) (t : Fin (cfgM m hO).N) :
    (dats m hO 0 c).flushed 3 t
      = (((cfgM m hO).win 3).blk t).view.read (Elt F) (Cert.Spec.outS (F := F) (tbl m 0) (tbl m 1) (tbl m 2) (V m c main_v76)) := by
  have e2 : (outsAt0 m hO c t).2.1 = k0_pay2 (tbl m 2 (ix1 (slotOf (grid0.coords t)))) (tbl m 1 (ix1 (slotOf (grid0.coords t)))) (iblk m hO c 1 t) :=
    scorePiece c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (tbl m 0) (tbl m 1) (tbl m 2)
  have e3 : (iblk m hO c 1 t : Vec F S1x1x91 .f32)
      = fun y : S1x1x91.Idx => V m c main_v76 (ix3 (Cert.Spec.rowOf (tbl m 0 (ix1 (slotOf (grid0.coords t))))) (y 1) (y 2)) :=
    scoreBlock (adm m hO) (V m c main_v76) t
  show ((cfgM m hO).win 3).cut ((cfgM m hO).grid.coords t) ((dats m hO 0 c).after 3 t) = _
  rw [after0_3, e2, e3, outBlock3 (adm m hO) _ t]
  refine funext fun (j : S1x1x1.Idx) => ?_
  exact (congrArg (k0_pay2 (tbl m 2 (ix1 (slotOf (grid0.coords t)))) (tbl m 1 (ix1 (slotOf (grid0.coords t))))
    (fun y : S1x1x91.Idx => V m c main_v76 (ix3 (Cert.Spec.rowOf (tbl m 0 (ix1 (slotOf (grid0.coords t))))) (y 1) (y 2))))
    (blockIdx (n1 := 1) (n2 := 1) j)).symm

/-- Point t writes back, into the classes output, block t of the specification's array. -/
theorem flushed4_eq (hO : GenP.Ok m) (c : Dev nD) (t : Fin (cfgM m hO).N) :
    (dats m hO 0 c).flushed 4 t
      = (((cfgM m hO).win 4).blk t).view.read (Elt F) (Cert.Spec.outC (F := F) (tbl m 1) (tbl m 2)) := by
  have e2 : (outsAt0 m hO c t).2.2 = k0_pay3 (F := F) (tbl m 2 (ix1 (slotOf (grid0.coords t)))) (tbl m 1 (ix1 (slotOf (grid0.coords t)))) :=
    classPiece c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (tbl m 0) (tbl m 1) (tbl m 2)
  show ((cfgM m hO).win 4).cut ((cfgM m hO).grid.coords t) ((dats m hO 0 c).after 4 t) = _
  rw [after0_4, e2, outBlock4 (adm m hO) _ t]
  refine funext fun (j : S1x1x1.Idx) => ?_
  exact (congrArg (k0_pay3 (F := F) (tbl m 2 (ix1 (slotOf (grid0.coords t)))) (tbl m 1 (ix1 (slotOf (grid0.coords t)))))
    (blockIdx (n1 := 1) (n2 := 1) j)).symm

/-! ## The arrays after the run -/

/-- The boxes output: slot by slot the stored select of the row the first table names. -/
theorem final2 (hO : GenP.Ok m) (c : Dev nD) :
    (GenP.dats m hO 0 c).arrAt 2 (GenP.cfgM m hO).N
      = Cert.Spec.outB (F := F) (GenP.tbl m 0) (GenP.tbl m 2) (GenP.V m c main_v75) :=
  (dats m hO 0 c).arrAt_eq_of_cover 2 _ (fun t _ => flushed2_eq m hO c t) (cover2 (adm m hO))
/-- The scores output: slot by slot the stored select of the one-hot sum over the row the first table names. -/
theorem final3 (hO : GenP.Ok m) (c : Dev nD) :
    (GenP.dats m hO 0 c).arrAt 3 (GenP.cfgM m hO).N
      = Cert.Spec.outS (F := F) (GenP.tbl m 0) (GenP.tbl m 1) (GenP.tbl m 2) (GenP.V m c main_v76) :=
  (dats m hO 0 c).arrAt_eq_of_cover 3 _ (fun t _ => flushed3_eq m hO c t) (cover3 (adm m hO))
/-- The classes output: slot by slot the stored select of the label word. -/
theorem final4 (hO : GenP.Ok m) (c : Dev nD) :
    (GenP.dats m hO 0 c).arrAt 4 (GenP.cfgM m hO).N
      = Cert.Spec.outC (F := F) (GenP.tbl m 1) (GenP.tbl m 2) :=
  (dats m hO 0 c).arrAt_eq_of_cover 4 _ (fun t _ => flushed4_eq m hO c t) (cover4 (adm m hO))

end Cert.KernelIdeal.KerArrays

end
-- ==== Proof.KerValue.lean ====
/-
  The kernel's values: the frame run of the idealized kernel has every output array of the region named; each grid
  point writes back the body's stored values of the slot's table words and of the rows the first table names, the
  points' blocks tile the three output arrays, and the host operations after the region only reshape them. So the four
  results are the specification's functions of the three argument arrays.
-/
import proofs.«418819_j44744969290053_2_alg».proof.Proof.KIFrame
import proofs.«418819_j44744969290053_2_alg».proof.Proof.Spec
import proofs.«418819_j44744969290053_2_alg».proof.Proof.KerArrays
import proofs.«418819_j44744969290053_2_alg».proof.Proof.KITables
import Idealize.ShloMosaic.Lib.Pipeline.Value
import Idealize.ShloMosaic.Lib.StableHlo.Run

noncomputable section

namespace Cert.KernelIdeal.KerValue

open Idealize.ShloMosaic Idealize.ShloMosaic.TcCoe Idealize.SL.Sem
open Cert.KernelIdeal Cert.KernelIdeal.Gen Cert.KernelIdeal.GenP

variable [hR : Cert.ReferenceIdeal.Facts] [hK : Cert.KernelIdeal.Facts]
variable {F : FTy → Type} [FloatOps F]

section Tail
variable (m : (ℓ : Loc nD τ sig) → Buf (Elt F) ℓ)

/-- Where the lines after the region start from, an output array of the region holds what the region left in it. -/
theorem exit_arr (hO : GenP.Ok m) (w : Fin 5) :
    Pipeline.withArrays (Pipeline.pin pcfgs (fun _ => adm m hO) 0).spec (0 : Dev nD) (V0 m 0)
        (fun w => (dats m hO 0 0).arrAt w (Pipeline.pin pcfgs (fun _ => adm m hO) 0).N) (Proc.devRef .tc (Pipeline.arrRef spec0 w))
      = (dats m hO 0 0).arrAt w (cfgM m hO).N :=
  Pipeline.withArrays_arr spec0 winFacts0.arr_inj (0 : Dev nD) _ _ w

/-- The boxes result: the region's first output array, regrouped into 64 images of 300 slots. -/
theorem tail_v78 (hO : GenP.Ok m) (c : Dev nD) :
    Pipeline.afterTail pcfgs (fun _ => adm m hO) (dats m hO) 0 (V0 m) [hostOps1] c main_v78
      = Cert.Spec.kerBoxes (F := F) (m ((c.tc : Thread nD τ).loc main_arg0)) (m ((c.tc : Thread nD τ).loc main_arg2)) := by
  obtain rfl : c = 0 := Subsingleton.elim _ _
  unfold Pipeline.afterTail
  show StableHlo.after hostOps1 _ (Proc.devRef .tc main_v78) = _
  open StableHlo in after_results
  rw [exit_arr m hO 2, KerArrays.final2 m hO 0, Tables.tbl0, Tables.tbl2, Tables.V_boxesFlat]
  rfl

/-- The scores result: the second output array, regrouped. -/
theorem tail_v79 (hO : GenP.Ok m) (c : Dev nD) :
    Pipeline.afterTail pcfgs (fun _ => adm m hO) (dats m hO) 0 (V0 m) [hostOps1] c main_v79
      = Cert.Spec.kerScores (F := F) (m ((c.tc : Thread nD τ).loc main_arg1)) (m ((c.tc : Thread nD τ).loc main_arg2)) := by
  obtain rfl : c = 0 := Subsingleton.elim _ _
  unfold Pipeline.afterTail
  show StableHlo.after hostOps1 _ (Proc.devRef .tc main_v79) = _
  open StableHlo in after_results
  rw [exit_arr m hO 3, KerArrays.final3 m hO 0, Tables.tbl0, Tables.tbl1, Tables.tbl2, Tables.V_scoresFlat]
  rfl

/-- The classes result: the third output array, regrouped. -/
theorem tail_v80 (hO : GenP.Ok m) (c : Dev nD) :
    Pipeline.afterTail pcfgs (fun _ => adm m hO) (dats m hO) 0 (V0 m) [hostOps1] c main_v80
      = Cert.Spec.kerClasses (F := F) (m ((c.tc : Thread nD τ).loc main_arg2)) := by
  obtain rfl : c = 0 := Subsingleton.elim _ _
  unfold Pipeline.afterTail
  show StableHlo.after hostOps1 _ (Proc.devRef .tc main_v80) = _
  open StableHlo in after_results
  rw [exit_arr m hO 4, KerArrays.final4 m hO 0, Tables.tbl1, Tables.tbl2]
  rfl

/-- The two programs' records of the per-image count's scatter are the same dimension numbers. -/
theorem count_dims : Cert.KernelIdeal.scatter_S64_S8000x1_S8000_n_0_0_1 = Cert.ReferenceIdeal.scatter_S64_S8000x1_S8000_n_0_0_1 := rfl

/-- The count result: ones added up per image over the selection's image column, which the region does not touch. -/
theorem tail_v85 (hO : GenP.Ok m) (c : Dev nD) :
    Pipeline.afterTail pcfgs (fun _ => adm m hO) (dats m hO) 0 (V0 m) [hostOps1] c main_v85
      = Cert.Spec.numPred (m ((c.tc : Thread nD τ).loc main_arg2)) := by
  unfold Pipeline.afterTail
  show StableHlo.after hostOps1 _ (Proc.devRef .tc main_v85) = _
  open StableHlo in after_results
  rw [Pipeline.withArrays_of_ne _ c (V0 m c) _ main_v1 (by exact (by decide : ∀ w, Pipeline.arrRef spec0 w ≠ main_v1)),
    show V0 m c (Proc.devRef .tc main_v1) = Cert.Spec.bcol (m ((c.tc : Thread nD τ).loc main_arg2)) from Tables.V_bcol m c,
    count_dims]
  unfold Cert.Spec.numPred Cert.Spec.toCol Cert.Spec.splat
  rfl

end Tail

/-- Under the tables' side condition every weakly fair execution of the idealized kernel terminates without a fault,
    with its four results at the specification's values of the launch arrays and the three arguments unchanged. -/
theorem run_values (m : (ℓ : Loc nD τ sig) → Buf (Elt F) ℓ) (ρ : Dev nD → PrngReg) (hO : GenP.Ok m) :
    θ_run (defs (F := F)) (onTc (τ := τ) (main (F := F))) ⟨m, fun _ => 0, ρ⟩ (fun r => ∀ c : Dev nD,
      r.2.mem ((c.tc : Thread nD τ).loc main_v85) = Cert.Spec.numPred (m ((c.tc : Thread nD τ).loc main_arg2))
      ∧ r.2.mem ((c.tc : Thread nD τ).loc main_v78) = Cert.Spec.kerBoxes (F := F) (m ((c.tc : Thread nD τ).loc main_arg0)) (m ((c.tc : Thread nD τ).loc main_arg2))
      ∧ r.2.mem ((c.tc : Thread nD τ).loc main_v79) = Cert.Spec.kerScores (F := F) (m ((c.tc : Thread nD τ).loc main_arg1)) (m ((c.tc : Thread nD τ).loc main_arg2))
      ∧ r.2.mem ((c.tc : Thread nD τ).loc main_v80) = Cert.Spec.kerClasses (F := F) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run (defs (F := F)) _ _).mono (fun r h c => ?_) (GenP.run_main m ρ hO)
  exact ⟨((h c).2 main_v85 (by decide : main_v85 ∈ Pipeline.restRefs sig spec0)).trans (tail_v85 m hO c),
    ((h c).2 main_v78 (by decide : main_v78 ∈ Pipeline.restRefs sig spec0)).trans (tail_v78 m hO c),
    ((h c).2 main_v79 (by decide : main_v79 ∈ Pipeline.restRefs sig spec0)).trans (tail_v79 m hO c),
    ((h c).2 main_v80 (by decide : main_v80 ∈ Pipeline.restRefs sig spec0)).trans (tail_v80 m hO c),
    ((h c).2 main_arg0 (by decide : main_arg0 ∈ Pipeline.restRefs sig spec0)).trans (W_main_arg0 m hO (dats m hO) c),
    ((h c).2 main_arg1 (by decide : main_arg1 ∈ Pipeline.restRefs sig spec0)).trans (W_main_arg1 m hO (dats m hO) c),
    ((h c).2 main_arg2 (by decide : main_arg2 ∈ Pipeline.restRefs sig spec0)).trans (W_main_arg2 m hO (dats m hO) c)⟩

end Cert.KernelIdeal.KerValue

end
-- ==== Proof.lean ====
/-
  The certificate: the kernel (as printed, and idealized) and the idealized reference each run to completion without a
  fault and leave their arguments unchanged, and at the exact extended reals the idealized kernel and reference end with
  equal results, for finite inputs whose selected labels lie in [0, 91) and boxes in [0, 8192).

  The kernel's frames hold once its first prefetched table names rows inside the flattened inputs, which the box range
  gives. The reference's frame is its run with the results dropped. The idealization rewrote nothing. For the value
  claim the kernel's results are read off its frame run and the reference's off its run, both as the specification's
  functions of the three arguments, and those functions agree: the two programs scatter to the same slots in the same
  order, so each slot's last selected row is the same for both, and the kernel's row copy and one-hot sum at that slot
  are the reference's gathered box and score.
-/
import proofs.«418819_j44744969290053_2_alg».proof.Defs
import proofs.«418819_j44744969290053_2_alg».proof.Proof.Gen.Kernel
import proofs.«418819_j44744969290053_2_alg».proof.Proof.Gen.KernelIdeal
import proofs.«418819_j44744969290053_2_alg».proof.Proof.Gen.ReferenceIdeal
import proofs.«418819_j44744969290053_2_alg».proof.Proof.Gen.Pre_finite_inputs
import proofs.«418819_j44744969290053_2_alg».proof.Proof.KFrame
import proofs.«418819_j44744969290053_2_alg».proof.Proof.KIFrame
import proofs.«418819_j44744969290053_2_alg».proof.Proof.KIOkOfPre
import proofs.«418819_j44744969290053_2_alg».proof.Proof.KOkOfPre
import proofs.«418819_j44744969290053_2_alg».proof.Proof.PreDecode
import proofs.«418819_j44744969290053_2_alg».proof.Proof.RefRun
import proofs.«418819_j44744969290053_2_alg».proof.Proof.KerValue
import proofs.«418819_j44744969290053_2_alg».proof.Proof.Bridge
import Idealize.ShloMosaic.Adequacy
import Idealize.ShloMosaic.Init

noncomputable section

namespace Cert.Proof

open Idealize.ShloMosaic Idealize.SL.Sem

section
variable [hKb : Cert.Kernel.Facts] [hK : Cert.KernelIdeal.Facts] [hR : Cert.ReferenceIdeal.Facts] [hPre : Cert.Pre_finite_inputs.Facts]

/-- The word-level kernel runs and keeps its arguments: its frame under the tables' side condition, which the box range gives. -/
theorem frame_k : Cert.frame_Kernel := fun m ρ hpre =>
  Cert.Kernel.GenP.frame m ρ (Cert.Kernel.OkOfPre.ok_of_boxOk m (Cert.PreDecode.decode _ _ _ (hpre 0)).1)

/-- The same for the idealized kernel. -/
theorem frame_ki : Cert.frame_KernelIdeal := fun m ρ hpre =>
  Cert.KernelIdeal.GenP.frame m ρ (Cert.KernelIdeal.OkOfPre.ok_of_boxOk m (Cert.PreDecode.decode _ _ _ (hpre 0)).1)

/-- The reference's frame is its run with the results dropped. -/
theorem frame_ri : Cert.frame_ReferenceIdeal := fun m ρ _ =>
  (θ_run Cert.ReferenceIdeal.defs _ _).mono (fun _ h c => (h c).2.2.2.2) (Cert.ReferenceIdeal.RefRun.run (F := Ideal) m ρ)

/-- Both idealized programs end at the specification's values of arguments that agree, and those values are equal. -/
theorem algebraic : Cert.algebraic_KernelIdeal_ReferenceIdeal := by
  intro m ρ m' ρ' hpre hagree
  have hd := fun c => Cert.PreDecode.decode _ _ _ (hpre c)
  have hO : Cert.KernelIdeal.GenP.Ok m := Cert.KernelIdeal.OkOfPre.ok_of_boxOk m (hd 0).1
  refine ⟨_, _, _, _, Cert.KernelIdeal.KerValue.run_values (F := Ideal) m ρ hO, ?_⟩
  refine (θ_run Cert.ReferenceIdeal.defs _ _).mono (fun r h c => ?_) (Cert.ReferenceIdeal.RefRun.run (F := Ideal) m' ρ')
  obtain ⟨h0, h1, h2, h3, ha⟩ := h c
  obtain ⟨e0, e1, e2⟩ := hagree c
  refine ⟨?_, ?_, ?_, ?_, ha⟩
  · rw [h0, e2]
  · rw [h1, e0, e1, e2]; exact (Cert.Bridge.boxes_eq _ _ _ (hd c).1).symm
  · rw [h2, e0, e1, e2]; exact (Cert.Bridge.scores_eq _ _ _ (hd c).1 (hd c).2).symm
  · rw [h3, e0, e1, e2]; exact (Cert.Bridge.classes_eq _ _ _).symm

end

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
